-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x349 : S_.BroadcastsInDim S256x349 (![] : Fin 0 → Fin S256x349.rank)
  reducesTo_S256x349_S_d0_1 : S256x349.ReducesTo [0, 1] S_
  bcast_S_S349 : S_.BroadcastsInDim S349 (![] : Fin 0 → Fin S349.rank)
  reducesTo_S349_S_d0 : S349.ReducesTo [0] S_
  bcast_S_S500000 : S_.BroadcastsInDim S500000 (![] : Fin 0 → Fin S500000.rank)
  reducesTo_S500000_S_d0 : S500000.ReducesTo [0] S_

variable [Facts]

def fn_part7 {F : FTy → Type} [FloatOps F] (main_arg24 : IVec S500000 32) (main_arg26 : IVec S500000 32) (main_v115 : IVec S_ 1) (main_v117 : IVec S500000 1) (main_v118 : IVec S500000 32) : IVec S_ 1 :=
  let main_v119 : IVec S500000 1 := cmpi .slt main_arg24 main_v118
  let main_v120 : IVec S500000 1 := andi main_v117 main_v119
  let main_c_47 : IVec S_ 1 := constantI S_ 1 1#1
  let main_v121 : IVec S_ 1 := (fun x v => Host.reduce IntOp.andi x v reducesTo_S500000_S_d0 h_S_) main_v120 main_c_47
  let main_v122 : IVec S_ 1 := andi main_v115 main_v121
  let main_c_48 : IVec S_ 32 := constantI S_ 32 0#32
  let main_v123 : IVec S500000 32 := broadcastInDim S500000 ![] bcast_S_S500000 main_c_48
  let main_v124 : IVec S500000 1 := cmpi .sge main_arg26 main_v123
  let main_c_49 : IVec S_ 32 := constantI S_ 32 100000#32
  let main_v125 : IVec S500000 32 := broadcastInDim S500000 ![] bcast_S_S500000 main_c_49
  let main_v126 : IVec S500000 1 := cmpi .slt main_arg26 main_v125
  let main_v127 : IVec S500000 1 := andi main_v124 main_v126
  let main_c_50 : IVec S_ 1 := constantI S_ 1 1#1
  let main_v128 : IVec S_ 1 := (fun x v => Host.reduce IntOp.andi x v reducesTo_S500000_S_d0 h_S_) main_v127 main_c_50
  let main_v129 : IVec S_ 1 := andi main_v122 main_v128
  main_v129

def fn_part6 {F : FTy → Type} [FloatOps F] (main_arg21 : FVec F S349 .f32) (main_arg22 : IVec S500000 32) (main_arg24 : IVec S500000 32) (main_arg26 : IVec S500000 32) (main_v98 : IVec S_ 1) (main_v101 : IVec S256x349 1) (main_c_39 : IVec S_ 1) : IVec S_ 1 :=
  let main_v102 : IVec S_ 1 := (fun x v => Host.reduce IntOp.andi x v reducesTo_S256x349_S_d0_1 h_S_) main_v101 main_c_39
  let main_v103 : IVec S_ 1 := andi main_v98 main_v102
  let main_v104 : FVec F S349 .f32 := Host.absf main_arg21
  let main_cst_40 : FVec F S_ .f32 := constant S_ .f32 0x7F800000#32
  let main_v105 : FVec F S349 .f32 := broadcastInDim S349 ![] bcast_S_S349 main_cst_40
  let main_v106 : IVec S349 1 := cmpf .olt main_v104 main_v105
  let main_c_41 : IVec S_ 1 := constantI S_ 1 1#1
  let main_v107 : IVec S_ 1 := (fun x v => Host.reduce IntOp.andi x v reducesTo_S349_S_d0 h_S_) main_v106 main_c_41
  let main_v108 : IVec S_ 1 := andi main_v103 main_v107
  let main_c_42 : IVec S_ 32 := constantI S_ 32 0#32
  let main_v109 : IVec S500000 32 := broadcastInDim S500000 ![] bcast_S_S500000 main_c_42
  let main_v110 : IVec S500000 1 := cmpi .sge main_arg22 main_v109
  let main_c_43 : IVec S_ 32 := constantI S_ 32 100000#32
  let main_v111 : IVec S500000 32 := broadcastInDim S500000 ![] bcast_S_S500000 main_c_43
  let main_v112 : IVec S500000 1 := cmpi .slt main_arg22 main_v111
  let main_v113 : IVec S500000 1 := andi main_v110 main_v112
  let main_c_44 : IVec S_ 1 := constantI S_ 1 1#1
  let main_v114 : IVec S_ 1 := (fun x v => Host.reduce IntOp.andi x v reducesTo_S500000_S_d0 h_S_) main_v113 main_c_44
  let main_v115 : IVec S_ 1 := andi main_v108 main_v114
  let main_c_45 : IVec S_ 32 := constantI S_ 32 0#32
  let main_v116 : IVec S500000 32 := broadcastInDim S500000 ![] bcast_S_S500000 main_c_45
  let main_v117 : IVec S500000 1 := cmpi .sge main_arg24 main_v116
  let main_c_46 : IVec S_ 32 := constantI S_ 32 50000#32
  let main_v118 : IVec S500000 32 := broadcastInDim S500000 ![] bcast_S_S500000 main_c_46
  fn_part7 (F := F) main_arg24 main_arg26 main_v115 main_v117 main_v118

def fn_part5 {F : FTy → Type} [FloatOps F] (main_arg18 : FVec F S256x256 .f32) (main_arg19 : FVec F S256 .f32) (main_arg20 : FVec F S256x349 .f32) (main_arg21 : FVec F S349 .f32) (main_arg22 : IVec S500000 32) (main_arg24 : IVec S500000 32) (main_arg26 : IVec S500000 32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x349 .f32 := Host.absf main_arg20
  let main_cst_38 : FVec F S_ .f32 := constant S_ .f32 0x7F800000#32
  let main_v100 : FVec F S256x349 .f32 := broadcastInDim S256x349 ![] bcast_S_S256x349 main_cst_38
  let main_v101 : IVec S256x349 1 := cmpf .olt main_v99 main_v100
  let main_c_39 : IVec S_ 1 := constantI S_ 1 1#1
  fn_part6 (F := F) main_arg21 main_arg22 main_arg24 main_arg26 main_v98 main_v101 main_c_39

def fn_part4 {F : FTy → Type} [FloatOps F] (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x349 .f32) (main_arg21 : FVec F S349 .f32) (main_arg22 : IVec S500000 32) (main_arg24 : IVec S500000 32) (main_arg26 : IVec S500000 32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg24 main_arg26 main_v83 main_v84 main_cst_32

def fn_part3 {F : FTy → Type} [FloatOps F] (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x349 .f32) (main_arg21 : FVec F S349 .f32) (main_arg22 : IVec S500000 32) (main_arg24 : IVec S500000 32) (main_arg26 : IVec S500000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg24 main_arg26 main_v63 main_v67

def fn_part2 {F : FTy → Type} [FloatOps F] (main_arg7 : FVec F S256 .f32) (main_arg8 : FVec F S128x256 .f32) (main_arg9 : FVec F S128x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x349 .f32) (main_arg21 : FVec F S349 .f32) (main_arg22 : IVec S500000 32) (main_arg24 : IVec S500000 32) (main_arg26 : IVec S500000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg24 main_arg26 main_v48 main_v49 main_v50

def fn_part1 {F : FTy → Type} [FloatOps F] (main_arg4 : FVec F S256 .f32) (main_arg5 : FVec F S128x256 .f32) (main_arg6 : FVec F S128x256 .f32) (main_arg7 : FVec F S256 .f32) (main_arg8 : FVec F S128x256 .f32) (main_arg9 : FVec F S128x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x349 .f32) (main_arg21 : FVec F S349 .f32) (main_arg22 : IVec S500000 32) (main_arg24 : IVec S500000 32) (main_arg26 : IVec S500000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg24 main_arg26 main_v33

def fn {F : FTy → Type} [FloatOps F] (main_arg0 : FVec F S100000x128 .f32) (main_arg1 : FVec F S50000x128 .f32) (main_arg2 : FVec F S128x256 .f32) (main_arg3 : FVec F S128x256 .f32) (main_arg4 : FVec F S256 .f32) (main_arg5 : FVec F S128x256 .f32) (main_arg6 : FVec F S128x256 .f32) (main_arg7 : FVec F S256 .f32) (main_arg8 : FVec F S128x256 .f32) (main_arg9 : FVec F S128x256 .f32) (main_arg10 : FVec F S256 .f32) (main_arg11 : FVec F S256x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x349 .f32) (main_arg21 : FVec F S349 .f32) (main_arg22 : IVec S500000 32) (main_arg23 : IVec S500000 32) (main_arg24 : IVec S500000 32) (main_arg25 : IVec S500000 32) (main_arg26 : IVec S500000 32) (main_arg27 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg24 main_arg26 main_v13 main_v16
-- ==== Kernel.lean ====
abbrev S100000x128 : Shape := ⟨2, ![100000, 128]⟩
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S500000 : Shape := ⟨1, ![500000]⟩
abbrev S_ : Shape := ⟨0, ![]⟩
abbrev S100000 : Shape := ⟨1, ![100000]⟩
abbrev S500000x1 : Shape := ⟨2, ![500000, 1]⟩
abbrev S50000 : Shape := ⟨1, ![50000]⟩
abbrev S100000x1 : Shape := ⟨2, ![100000, 1]⟩
abbrev S50000x1 : Shape := ⟨2, ![50000, 1]⟩
abbrev S1 : Shape := ⟨1, ![1]⟩
abbrev S1x1 : Shape := ⟨2, ![1, 1]⟩
abbrev S500000x128 : Shape := ⟨2, ![500000, 128]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S50000x256 : Shape := ⟨2, ![50000, 256]⟩
abbrev S500000x256 : Shape := ⟨2, ![500000, 256]⟩
abbrev S1x349 : Shape := ⟨2, ![1, 349]⟩
abbrev S100000x349 : Shape := ⟨2, ![100000, 349]⟩
abbrev S2000x349 : Shape := ⟨2, ![2000, 349]⟩

abbrev nBuf : Space → Nat
  | .hbm => 222
  | .vmem => 45
  | .smem => 0
  | _ => 0

abbrev hbmTy0_0 (i : Nat) : BufTy := match i % 128 with
  | 0 => ⟨S100000x128, .f32⟩
  | 1 => ⟨S50000x128, .f32⟩
  | 2 => ⟨S128x256, .f32⟩
  | 3 => ⟨S128x256, .f32⟩
  | 4 => ⟨S256, .f32⟩
  | 5 => ⟨S128x256, .f32⟩
  | 6 => ⟨S128x256, .f32⟩
  | 7 => ⟨S256, .f32⟩
  | 8 => ⟨S128x256, .f32⟩
  | 9 => ⟨S128x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x349, .f32⟩
  | 21 => ⟨S349, .f32⟩
  | 22 => ⟨S500000, .i32⟩
  | 23 => ⟨S500000, .i32⟩
  | 24 => ⟨S500000, .i32⟩
  | 25 => ⟨S500000, .i32⟩
  | 26 => ⟨S500000, .i32⟩
  | 27 => ⟨S500000, .i32⟩
  | 28 => ⟨S_, .f32⟩
  | 29 => ⟨S500000, .f32⟩
  | 30 => ⟨S_, .f32⟩
  | 31 => ⟨S100000, .f32⟩
  | 32 => ⟨S500000x1, .i32⟩
  | 33 => ⟨S100000, .f32⟩
  | 34 => ⟨S_, .f32⟩
  | 35 => ⟨S500000, .f32⟩
  | 36 => ⟨S_, .f32⟩
  | 37 => ⟨S100000, .f32⟩
  | 38 => ⟨S500000x1, .i32⟩
  | 39 => ⟨S100000, .f32⟩
  | 40 => ⟨S_, .f32⟩
  | 41 => ⟨S500000, .f32⟩
  | 42 => ⟨S_, .f32⟩
  | 43 => ⟨S50000, .f32⟩
  | 44 => ⟨S500000x1, .i32⟩
  | 45 => ⟨S50000, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S_, .f32⟩
  | 54 => ⟨S100000, .f32⟩
  | 55 => ⟨S100000, .f32⟩
  | 56 => ⟨S_, .f32⟩
  | 57 => ⟨S100000, .f32⟩
  | 58 => ⟨S100000, .f32⟩
  | 59 => ⟨S100000x1, .f32⟩
  | 60 => ⟨S_, .f32⟩
  | 61 => ⟨S50000, .f32⟩
  | 62 => ⟨S50000, .f32⟩
  | 63 => ⟨S_, .f32⟩
  | 64 => ⟨S50000, .f32⟩
  | 65 => ⟨S50000, .f32⟩
  | 66 => ⟨S50000x1, .f32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S1, .i32⟩
  | 76 => ⟨S_, .i32⟩
  | 77 => ⟨S500000x1, .i32⟩
  | 78 => ⟨S500000x1, .i1⟩
  | 79 => ⟨S1x1, .i32⟩
  | 80 => ⟨S500000x1, .i32⟩
  | 81 => ⟨S500000x1, .i1⟩
  | 82 => ⟨S500000x1, .i1⟩
  | 83 => ⟨S_, .i1⟩
  | 84 => ⟨S500000, .i1⟩
  | 85 => ⟨S500000x128, .f32⟩
  | 86 => ⟨S500000x128, .i1⟩
  | 87 => ⟨S_, .f32⟩
  | 88 => ⟨S500000x128, .f32⟩
  | 89 => ⟨S500000x128, .f32⟩
  | 90 => ⟨S_, .f32⟩
  | 91 => ⟨S100000x128, .f32⟩
  | 92 => ⟨S500000x1, .i32⟩
  | 93 => ⟨S100000x128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S1, .i32⟩
  | 103 => ⟨S_, .i32⟩
  | 104 => ⟨S500000x1, .i32⟩
  | 105 => ⟨S500000x1, .i1⟩
  | 106 => ⟨S1x1, .i32⟩
  | 107 => ⟨S500000x1, .i32⟩
  | 108 => ⟨S500000x1, .i1⟩
  | 109 => ⟨S500000x1, .i1⟩
  | 110 => ⟨S_, .i1⟩
  | 111 => ⟨S500000, .i1⟩
  | 112 => ⟨S500000x128, .f32⟩
  | 113 => ⟨S500000x128, .i1⟩
  | 114 => ⟨S_, .f32⟩
  | 115 => ⟨S500000x128, .f32⟩
  | 116 => ⟨S500000x128, .f32⟩
  | 117 => ⟨S_, .f32⟩
  | 118 => ⟨S100000x128, .f32⟩
  | 119 => ⟨S500000x1, .i32⟩
  | 120 => ⟨S100000x128, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S100000x128, .f32⟩

abbrev hbmTy0_1 (i : Nat) : BufTy := match i % 128 with
  | 0 => ⟨S500000x1, .i32⟩
  | 1 => ⟨S1, .i32⟩
  | 2 => ⟨S_, .i32⟩
  | 3 => ⟨S500000x1, .i32⟩
  | 4 => ⟨S500000x1, .i1⟩
  | 5 => ⟨S1x1, .i32⟩
  | 6 => ⟨S500000x1, .i32⟩
  | 7 => ⟨S500000x1, .i1⟩
  | 8 => ⟨S500000x1, .i1⟩
  | 9 => ⟨S_, .i1⟩
  | 10 => ⟨S500000, .i1⟩
  | 11 => ⟨S500000x128, .f32⟩
  | 12 => ⟨S500000x128, .i1⟩
  | 13 => ⟨S_, .f32⟩
  | 14 => ⟨S500000x128, .f32⟩
  | 15 => ⟨S500000x128, .f32⟩
  | 16 => ⟨S_, .f32⟩
  | 17 => ⟨S50000x128, .f32⟩
  | 18 => ⟨S500000x1, .i32⟩
  | 19 => ⟨S50000x128, .f32⟩
  | 20 => ⟨S128x256, .f32⟩
  | 21 => ⟨S256, .f32⟩
  | 22 => ⟨S128x256, .bf16⟩
  | 23 => ⟨S128x256, .bf16⟩
  | 24 => ⟨S128x256, .bf16⟩
  | 25 => ⟨S1x256, .f32⟩
  | 26 => ⟨S100000x256, .f32⟩
  | 27 => ⟨S128x256, .bf16⟩
  | 28 => ⟨S128x256, .bf16⟩
  | 29 => ⟨S1x256, .f32⟩
  | 30 => ⟨S50000x256, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S1, .i32⟩
  | 40 => ⟨S_, .i32⟩
  | 41 => ⟨S500000x1, .i32⟩
  | 42 => ⟨S500000x1, .i1⟩
  | 43 => ⟨S1x1, .i32⟩
  | 44 => ⟨S500000x1, .i32⟩
  | 45 => ⟨S500000x1, .i1⟩
  | 46 => ⟨S500000x1, .i1⟩
  | 47 => ⟨S_, .i1⟩
  | 48 => ⟨S500000, .i1⟩
  | 49 => ⟨S500000x256, .f32⟩
  | 50 => ⟨S500000x256, .i1⟩
  | 51 => ⟨S_, .f32⟩
  | 52 => ⟨S500000x256, .f32⟩
  | 53 => ⟨S500000x256, .f32⟩
  | 54 => ⟨S_, .f32⟩
  | 55 => ⟨S100000x256, .f32⟩
  | 56 => ⟨S500000x1, .i32⟩
  | 57 => ⟨S100000x256, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S1, .i32⟩
  | 67 => ⟨S_, .i32⟩
  | 68 => ⟨S500000x1, .i32⟩
  | 69 => ⟨S500000x1, .i1⟩
  | 70 => ⟨S1x1, .i32⟩
  | 71 => ⟨S500000x1, .i32⟩
  | 72 => ⟨S500000x1, .i1⟩
  | 73 => ⟨S500000x1, .i1⟩
  | 74 => ⟨S_, .i1⟩
  | 75 => ⟨S500000, .i1⟩
  | 76 => ⟨S500000x256, .f32⟩
  | 77 => ⟨S500000x256, .i1⟩
  | 78 => ⟨S_, .f32⟩
  | 79 => ⟨S500000x256, .f32⟩
  | 80 => ⟨S500000x256, .f32⟩
  | 81 => ⟨S_, .f32⟩
  | 82 => ⟨S100000x256, .f32⟩
  | 83 => ⟨S500000x1, .i32⟩
  | 84 => ⟨S100000x256, .f32⟩
  | 85 => ⟨S256x256, .f32⟩
  | 86 => ⟨S256, .f32⟩
  | 87 => ⟨S256x256, .bf16⟩
  | 88 => ⟨S256x256, .bf16⟩
  | 89 => ⟨S256x256, .bf16⟩
  | 90 => ⟨S256x349, .bf16⟩
  | 91 => ⟨S1x256, .f32⟩
  | 92 => ⟨S1x349, .f32⟩
  | 93 => ⟨S100000x349, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | .local _ .vmem, ⟨22, _⟩ => ⟨S128x256, .bf16⟩
  | .local _ .vmem, ⟨23, _⟩ => ⟨S128x256, .bf16⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x1, .f32⟩
  | .local _ .vmem, ⟨30, _⟩ => ⟨S2000x1, .f32⟩
  | .local _ .vmem, ⟨31, _⟩ => ⟨S2000x256, .f32⟩
  | .local _ .vmem, ⟨32, _⟩ => ⟨S2000x256, .f32⟩
  | .local _ .vmem, ⟨33, _⟩ => ⟨S2000x1, .f32⟩
  | .local _ .vmem, ⟨34, _⟩ => ⟨S2000x1, .f32⟩
  | .local _ .vmem, ⟨35, _⟩ => ⟨S2000x256, .f32⟩
  | .local _ .vmem, ⟨36, _⟩ => ⟨S2000x256, .f32⟩
  | .local _ .vmem, ⟨37, _⟩ => ⟨S256x256, .bf16⟩
  | .local _ .vmem, ⟨38, _⟩ => ⟨S256x256, .bf16⟩
  | .local _ .vmem, ⟨39, _⟩ => ⟨S256x256, .bf16⟩
  | .local _ .vmem, ⟨40, _⟩ => ⟨S1x256, .f32⟩
  | .local _ .vmem, ⟨41, _⟩ => ⟨S256x349, .bf16⟩
  | .local _ .vmem, ⟨42, _⟩ => ⟨S1x349, .f32⟩
  | .local _ .vmem, ⟨43, _⟩ => ⟨S2000x349, .f32⟩
  | .local _ .vmem, ⟨44, _⟩ => ⟨S2000x349, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_cst_2 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_cst_4 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_5 : Ref sig .tc := ⟨.hbm, 46, rfl⟩
abbrev main_v12 : Ref sig .tc := ⟨.hbm, 47, rfl⟩
abbrev main_v13 : Ref sig .tc := ⟨.hbm, 48, rfl⟩
abbrev main_cst_6 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_7 : Ref sig .tc := ⟨.hbm, 53, rfl⟩
abbrev main_v17 : Ref sig .tc := ⟨.hbm, 54, rfl⟩
abbrev main_v18 : Ref sig .tc := ⟨.hbm, 55, rfl⟩
abbrev main_cst_8 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_9 : Ref sig .tc := ⟨.hbm, 60, rfl⟩
abbrev main_v22 : Ref sig .tc := ⟨.hbm, 61, rfl⟩
abbrev main_v23 : Ref sig .tc := ⟨.hbm, 62, rfl⟩
abbrev main_cst_10 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_call0_c : Ref sig .tc := ⟨.hbm, 67, rfl⟩
abbrev main_call0_v0 : Ref sig .tc := ⟨.hbm, 68, rfl⟩
abbrev main_call0_v1 : Ref sig .tc := ⟨.hbm, 69, rfl⟩
abbrev main_call0_c_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_c_1 : Ref sig .tc := ⟨.hbm, 75, rfl⟩
abbrev main_call0_c_2 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_3 : Ref sig .tc := ⟨.hbm, 83, rfl⟩
abbrev main_call0_v12 : Ref sig .tc := ⟨.hbm, 84, rfl⟩
abbrev main_call0_v13 : Ref sig .tc := ⟨.hbm, 85, rfl⟩
abbrev main_call0_v14 : Ref sig .tc := ⟨.hbm, 86, rfl⟩
abbrev main_call0_cst : Ref sig .tc := ⟨.hbm, 87, rfl⟩
abbrev main_call0_v15 : Ref sig .tc := ⟨.hbm, 88, rfl⟩
abbrev main_v27 : Ref sig .tc := ⟨.hbm, 89, rfl⟩
abbrev main_cst_11 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_call1_c : Ref sig .tc := ⟨.hbm, 94, rfl⟩
abbrev main_call1_v0 : Ref sig .tc := ⟨.hbm, 95, rfl⟩
abbrev main_call1_v1 : Ref sig .tc := ⟨.hbm, 96, rfl⟩
abbrev main_call1_c_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_c_1 : Ref sig .tc := ⟨.hbm, 102, rfl⟩
abbrev main_call1_c_2 : Ref sig .tc := ⟨.hbm, 103, rfl⟩
abbrev main_call1_v6 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_c_3 : Ref sig .tc := ⟨.hbm, 110, rfl⟩
abbrev main_call1_v12 : Ref sig .tc := ⟨.hbm, 111, rfl⟩
abbrev main_call1_v13 : Ref sig .tc := ⟨.hbm, 112, rfl⟩
abbrev main_call1_v14 : Ref sig .tc := ⟨.hbm, 113, rfl⟩
abbrev main_call1_cst : Ref sig .tc := ⟨.hbm, 114, rfl⟩
abbrev main_call1_v15 : Ref sig .tc := ⟨.hbm, 115, rfl⟩
abbrev main_v31 : Ref sig .tc := ⟨.hbm, 116, rfl⟩
abbrev main_cst_12 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_call2_c : Ref sig .tc := ⟨.hbm, 121, rfl⟩
abbrev main_call2_v0 : Ref sig .tc := ⟨.hbm, 122, rfl⟩
abbrev main_call2_v1 : Ref sig .tc := ⟨.hbm, 123, rfl⟩
abbrev main_call2_c_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_c_1 : Ref sig .tc := ⟨.hbm, 129, rfl⟩
abbrev main_call2_c_2 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_c_3 : Ref sig .tc := ⟨.hbm, 137, rfl⟩
abbrev main_call2_v12 : Ref sig .tc := ⟨.hbm, 138, rfl⟩
abbrev main_call2_v13 : Ref sig .tc := ⟨.hbm, 139, rfl⟩
abbrev main_call2_v14 : Ref sig .tc := ⟨.hbm, 140, rfl⟩
abbrev main_call2_cst : Ref sig .tc := ⟨.hbm, 141, rfl⟩
abbrev main_call2_v15 : Ref sig .tc := ⟨.hbm, 142, rfl⟩
abbrev main_v35 : Ref sig .tc := ⟨.hbm, 143, rfl⟩
abbrev main_cst_13 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_call3_c : Ref sig .tc := ⟨.hbm, 159, rfl⟩
abbrev main_call3_v0 : Ref sig .tc := ⟨.hbm, 160, rfl⟩
abbrev main_call3_v1 : Ref sig .tc := ⟨.hbm, 161, rfl⟩
abbrev main_call3_c_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_c_1 : Ref sig .tc := ⟨.hbm, 167, rfl⟩
abbrev main_call3_c_2 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_c_3 : Ref sig .tc := ⟨.hbm, 175, rfl⟩
abbrev main_call3_v12 : Ref sig .tc := ⟨.hbm, 176, rfl⟩
abbrev main_call3_v13 : Ref sig .tc := ⟨.hbm, 177, rfl⟩
abbrev main_call3_v14 : Ref sig .tc := ⟨.hbm, 178, rfl⟩
abbrev main_call3_cst : Ref sig .tc := ⟨.hbm, 179, rfl⟩
abbrev main_call3_v15 : Ref sig .tc := ⟨.hbm, 180, rfl⟩
abbrev main_v50 : Ref sig .tc := ⟨.hbm, 181, rfl⟩
abbrev main_cst_14 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_call4_c : Ref sig .tc := ⟨.hbm, 186, rfl⟩
abbrev main_call4_v0 : Ref sig .tc := ⟨.hbm, 187, rfl⟩
abbrev main_call4_v1 : Ref sig .tc := ⟨.hbm, 188, rfl⟩
abbrev main_call4_c_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_c_1 : Ref sig .tc := ⟨.hbm, 194, rfl⟩
abbrev main_call4_c_2 : Ref sig .tc := ⟨.hbm, 195, rfl⟩
abbrev main_call4_v6 : Ref sig .tc := ⟨.hbm, 196, rfl⟩
abbrev main_call4_v7 : Ref sig .tc := ⟨.hbm, 197, rfl⟩
abbrev main_call4_v8 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_c_3 : Ref sig .tc := ⟨.hbm, 202, rfl⟩
abbrev main_call4_v12 : Ref sig .tc := ⟨.hbm, 203, rfl⟩
abbrev main_call4_v13 : Ref sig .tc := ⟨.hbm, 204, rfl⟩
abbrev main_call4_v14 : Ref sig .tc := ⟨.hbm, 205, rfl⟩
abbrev main_call4_cst : Ref sig .tc := ⟨.hbm, 206, rfl⟩
abbrev main_call4_v15 : Ref sig .tc := ⟨.hbm, 207, rfl⟩
abbrev main_v54 : Ref sig .tc := ⟨.hbm, 208, rfl⟩
abbrev main_cst_15 : Ref sig .tc := ⟨.hbm, 209, rfl⟩
abbrev main_v55 : Ref sig .tc := ⟨.hbm, 210, rfl⟩
abbrev main_v56 : Ref sig .tc := ⟨.hbm, 211, rfl⟩
abbrev main_v57 : Ref sig .tc := ⟨.hbm, 212, rfl⟩
abbrev main_v58 : Ref sig .tc := ⟨.hbm, 213, rfl⟩
abbrev main_v59 : Ref sig .tc := ⟨.hbm, 214, rfl⟩
abbrev main_v60 : Ref sig .tc := ⟨.hbm, 215, rfl⟩
abbrev main_v61 : Ref sig .tc := ⟨.hbm, 216, rfl⟩
abbrev main_v62 : Ref sig .tc := ⟨.hbm, 217, rfl⟩
abbrev main_v63 : Ref sig .tc := ⟨.hbm, 218, rfl⟩
abbrev main_v64 : Ref sig .tc := ⟨.hbm, 219, rfl⟩
abbrev main_v65 : Ref sig .tc := ⟨.hbm, 220, rfl⟩
abbrev main_v66 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x349 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x349 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x349 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S_S50000 : S_.BroadcastsInDim S50000 (![] : Fin 0 → Fin S50000.rank)
  shapeCasts_S100000_S100000x1 : S100000.ShapeCasts S100000x1
  shapeCasts_S50000_S50000x1 : S50000.ShapeCasts S50000x1
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S500000_S500000x256_0 : S500000.BroadcastsInDim S500000x256 (![0] : Fin 1 → Fin S500000x256.rank)
  bcast_S_S500000x256 : S_.BroadcastsInDim S500000x256 (![] : Fin 0 → Fin S500000x256.rank)
  bcast_S_S100000x256 : S_.BroadcastsInDim S100000x256 (![] : Fin 0 → Fin S100000x256.rank)
  shapeCasts_S349_S1x349 : S349.ShapeCasts S1x349
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x349_S256x349_0_0 : ∀ a, (![0, 0] : Fin 2 → Nat) a + S256x349.size a ≤ S256x349.size a
  h_S256x349 : 0 < S256x349.numel
  shapeCasts_S256x349_S256x349 : S256x349.ShapeCasts S256x349
  inb_S1x349_S1x349_0_0 : ∀ a, (![0, 0] : Fin 2 → Nat) a + S1x349.size a ≤ S1x349.size a
  h_S1x349 : 0 < S1x349.numel
  shapeCasts_S1x349_S1x349 : S1x349.ShapeCasts S1x349
  broadcasts_S1x349_S2000x349 : S1x349.Broadcasts S2000x349
  inb_S2000x349_S2000x349_0_0 : ∀ a, (![0, 0] : Fin 2 → Nat) a + S2000x349.size a ≤ S2000x349.size a
  h_S2000x349 : 0 < S2000x349.numel
  scatter_S100000_S500000x1_S500000_n_0_0_1_wf : ScatterDims.WF S100000 S500000x1 S500000 [] [0] [0] 1
  scatter_S50000_S500000x1_S500000_n_0_0_1_wf : ScatterDims.WF S50000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  gather_S50000x256_S500000x1_S500000x256_1_0_n_n_0_1_1256_wf : GatherDims.WF S50000x256 S500000x1 S500000x256 [1] [0] [] [0] [] 1 ![1, 256]
  dot_S2000x256_S256x256_S2000x256_1_0_0_1_n_n_wf : DotDims.WF S2000x256 S256x256 S2000x256 [1] [0] [0] [1] [] []
  dot_S2000x256_S256x349_S2000x349_1_0_0_1_n_n_wf : DotDims.WF S2000x256 S256x349 S2000x349 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S100000x256.size a
  hwx0_9 : ∀ i : grid0.Coords, EltTy.bits .f32 = 32 ∨ (Rect.block (s := S100000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S100000x256.size a
  hwx2_4 : ∀ i : grid2.Coords, EltTy.bits .f32 = 32 ∨ (Rect.block (s := S100000x256) S2000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .bf16 = 32 ∨ (Rect.block (s := S256x256) S256x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .bf16 = 32 ∨ (Rect.block (s := S256x256) S256x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x349.size a ≤ S256x349.size a
  hwx2_9 : ∀ i : grid2.Coords, EltTy.bits .bf16 = 32 ∨ (Rect.block (s := S256x349) S256x349.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x349.size a ≤ S1x349.size a
  hwx2_10 : ∀ i : grid2.Coords, EltTy.bits .f32 = 32 ∨ (Rect.block (s := S1x349) S1x349.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x349.size a ≤ S100000x349.size a
  hwx2_11 : ∀ i : grid2.Coords, EltTy.bits .f32 = 32 ∨ (Rect.block (s := S100000x349) S2000x349.size (cc2_transform_11 i) (hinb2_11 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x349_S2000x349_1_0_0_1_n_n : DotDims S2000x256 S256x349 S2000x349 where
  lhsContracting := [1]
  rhsContracting := [0]
  lhsNonContracting := [0]
  rhsNonContracting := [1]
  lhsBatch := []
  rhsBatch := []
  wf := dot_S2000x256_S256x349_S2000x349_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v60) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S256x349.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v65) S1x349.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v66) S2000x349.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S50000 : Shape := ⟨1, ![50000]⟩
abbrev S50000x1 : Shape := ⟨2, ![50000, 1]⟩
abbrev S50000x256 : Shape := ⟨2, ![50000, 256]⟩
abbrev S500000x256 : Shape := ⟨2, ![500000, 256]⟩
abbrev S100000x349 : Shape := ⟨2, ![100000, 349]⟩
abbrev S1x349 : Shape := ⟨2, ![1, 349]⟩

abbrev nBuf : Space → Nat
  | .hbm => 232
  | .vmem => 0
  | .smem => 0
  | _ => 0

abbrev hbmTy0_0 (i : Nat) : BufTy := match i % 128 with
  | 0 => ⟨S100000x128, .f32⟩
  | 1 => ⟨S50000x128, .f32⟩
  | 2 => ⟨S128x256, .f32⟩
  | 3 => ⟨S128x256, .f32⟩
  | 4 => ⟨S256, .f32⟩
  | 5 => ⟨S128x256, .f32⟩
  | 6 => ⟨S128x256, .f32⟩
  | 7 => ⟨S256, .f32⟩
  | 8 => ⟨S128x256, .f32⟩
  | 9 => ⟨S128x256, .f32⟩
  | 10 => ⟨S256, .f32⟩
  | 11 => ⟨S256x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x349, .f32⟩
  | 21 => ⟨S349, .f32⟩
  | 22 => ⟨S500000, .i32⟩
  | 23 => ⟨S500000, .i32⟩
  | 24 => ⟨S500000, .i32⟩
  | 25 => ⟨S500000, .i32⟩
  | 26 => ⟨S500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S_, .f32⟩
  | 38 => ⟨S100000x128, .f32⟩
  | 39 => ⟨S500000x1, .i32⟩
  | 40 => ⟨S100000x128, .f32⟩
  | 41 => ⟨S_, .f32⟩
  | 42 => ⟨S500000, .f32⟩
  | 43 => ⟨S_, .f32⟩
  | 44 => ⟨S100000, .f32⟩
  | 45 => ⟨S500000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S100000x256, .f32⟩
  | 54 => ⟨S1x256, .f32⟩
  | 55 => ⟨S100000x256, .f32⟩
  | 56 => ⟨S100000x256, .f32⟩
  | 57 => ⟨S100000x256, .f32⟩
  | 58 => ⟨S100000x256, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S_, .f32⟩
  | 69 => ⟨S100000x128, .f32⟩
  | 70 => ⟨S500000x1, .i32⟩
  | 71 => ⟨S100000x128, .f32⟩
  | 72 => ⟨S_, .f32⟩
  | 73 => ⟨S500000, .f32⟩
  | 74 => ⟨S_, .f32⟩
  | 75 => ⟨S100000, .f32⟩
  | 76 => ⟨S500000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x256, .f32⟩
  | 85 => ⟨S1x256, .f32⟩
  | 86 => ⟨S100000x256, .f32⟩
  | 87 => ⟨S100000x256, .f32⟩
  | 88 => ⟨S100000x256, .f32⟩
  | 89 => ⟨S100000x256, .f32⟩
  | 90 => ⟨S100000x256, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S_, .f32⟩
  | 101 => ⟨S50000x128, .f32⟩
  | 102 => ⟨S500000x1, .i32⟩
  | 103 => ⟨S50000x128, .f32⟩
  | 104 => ⟨S_, .f32⟩
  | 105 => ⟨S500000, .f32⟩
  | 106 => ⟨S_, .f32⟩
  | 107 => ⟨S50000, .f32⟩
  | 108 => ⟨S500000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x128, .f32⟩
  | 115 => ⟨S50000x128, .f32⟩
  | 116 => ⟨S50000x256, .f32⟩
  | 117 => ⟨S1x256, .f32⟩
  | 118 => ⟨S50000x256, .f32⟩
  | 119 => ⟨S50000x256, .f32⟩
  | 120 => ⟨S50000x256, .f32⟩
  | 121 => ⟨S50000x256, .f32⟩
  | 122 => ⟨S_, .f32⟩
  | 123 => ⟨S100000x256, .f32⟩
  | 124 => ⟨S100000x256, .f32⟩
  | 125 => ⟨S_, .f32⟩
  | 126 => ⟨S50000x256, .f32⟩
  | 127 => ⟨S50000x256, .f32⟩
  | _ => ⟨S100000x128, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x256, .f32⟩
  | 9 => ⟨S_, .f32⟩
  | 10 => ⟨S100000x256, .f32⟩
  | 11 => ⟨S500000x1, .i32⟩
  | 12 => ⟨S100000x256, .f32⟩
  | 13 => ⟨S_, .f32⟩
  | 14 => ⟨S500000, .f32⟩
  | 15 => ⟨S_, .f32⟩
  | 16 => ⟨S100000, .f32⟩
  | 17 => ⟨S500000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x256, .f32⟩
  | 24 => ⟨S100000x256, .f32⟩
  | 25 => ⟨S100000x256, .f32⟩
  | 26 => ⟨S1x256, .f32⟩
  | 27 => ⟨S100000x256, .f32⟩
  | 28 => ⟨S100000x256, .f32⟩
  | 29 => ⟨S100000x256, .f32⟩
  | 30 => ⟨S100000x256, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x256, .f32⟩
  | 40 => ⟨S_, .f32⟩
  | 41 => ⟨S100000x256, .f32⟩
  | 42 => ⟨S500000x1, .i32⟩
  | 43 => ⟨S100000x256, .f32⟩
  | 44 => ⟨S_, .f32⟩
  | 45 => ⟨S500000, .f32⟩
  | 46 => ⟨S_, .f32⟩
  | 47 => ⟨S100000, .f32⟩
  | 48 => ⟨S500000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x256, .f32⟩
  | 55 => ⟨S100000x256, .f32⟩
  | 56 => ⟨S100000x256, .f32⟩
  | 57 => ⟨S1x256, .f32⟩
  | 58 => ⟨S100000x256, .f32⟩
  | 59 => ⟨S100000x256, .f32⟩
  | 60 => ⟨S100000x256, .f32⟩
  | 61 => ⟨S100000x256, .f32⟩
  | 62 => ⟨S100000x256, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x256, .f32⟩
  | 72 => ⟨S_, .f32⟩
  | 73 => ⟨S50000x256, .f32⟩
  | 74 => ⟨S500000x1, .i32⟩
  | 75 => ⟨S50000x256, .f32⟩
  | 76 => ⟨S_, .f32⟩
  | 77 => ⟨S500000, .f32⟩
  | 78 => ⟨S_, .f32⟩
  | 79 => ⟨S50000, .f32⟩
  | 80 => ⟨S500000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S50000x256, .f32⟩
  | 93 => ⟨S50000x256, .f32⟩
  | 94 => ⟨S_, .f32⟩
  | 95 => ⟨S100000x256, .f32⟩
  | 96 => ⟨S100000x256, .f32⟩
  | 97 => ⟨S_, .f32⟩
  | 98 => ⟨S50000x256, .f32⟩
  | 99 => ⟨S50000x256, .f32⟩
  | 100 => ⟨S100000x349, .f32⟩
  | 101 => ⟨S1x349, .f32⟩
  | 102 => ⟨S100000x349, .f32⟩
  | 103 => ⟨S100000x349, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_4 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_cst_8 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_10 : Ref sig .tc := ⟨.hbm, 91, rfl⟩
abbrev main_v51 : Ref sig .tc := ⟨.hbm, 92, rfl⟩
abbrev main_v52 : Ref sig .tc := ⟨.hbm, 93, rfl⟩
abbrev main_c_11 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_12 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_13 : Ref sig .tc := ⟨.hbm, 104, rfl⟩
abbrev main_v61 : Ref sig .tc := ⟨.hbm, 105, rfl⟩
abbrev main_cst_14 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_15 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call0_cst : Ref sig .tc := ⟨.hbm, 122, rfl⟩
abbrev main_call0_v0 : Ref sig .tc := ⟨.hbm, 123, rfl⟩
abbrev main_v76 : Ref sig .tc := ⟨.hbm, 124, rfl⟩
abbrev main_call1_cst : Ref sig .tc := ⟨.hbm, 125, rfl⟩
abbrev main_call1_v0 : Ref sig .tc := ⟨.hbm, 126, rfl⟩
abbrev main_v77 : Ref sig .tc := ⟨.hbm, 127, rfl⟩
abbrev main_c_16 : Ref sig .tc := ⟨.hbm, 128, rfl⟩
abbrev main_v78 : Ref sig .tc := ⟨.hbm, 129, rfl⟩
abbrev main_v79 : Ref sig .tc := ⟨.hbm, 130, rfl⟩
abbrev main_c_17 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_18 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_19 : Ref sig .tc := ⟨.hbm, 141, rfl⟩
abbrev main_v88 : Ref sig .tc := ⟨.hbm, 142, rfl⟩
abbrev main_cst_20 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_21 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_22 : Ref sig .tc := ⟨.hbm, 159, rfl⟩
abbrev main_v103 : Ref sig .tc := ⟨.hbm, 160, rfl⟩
abbrev main_v104 : Ref sig .tc := ⟨.hbm, 161, rfl⟩
abbrev main_c_23 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_24 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_25 : Ref sig .tc := ⟨.hbm, 172, rfl⟩
abbrev main_v113 : Ref sig .tc := ⟨.hbm, 173, rfl⟩
abbrev main_cst_26 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_27 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_c_28 : Ref sig .tc := ⟨.hbm, 191, rfl⟩
abbrev main_v129 : Ref sig .tc := ⟨.hbm, 192, rfl⟩
abbrev main_v130 : Ref sig .tc := ⟨.hbm, 193, rfl⟩
abbrev main_c_29 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_30 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_31 : Ref sig .tc := ⟨.hbm, 204, rfl⟩
abbrev main_v139 : Ref sig .tc := ⟨.hbm, 205, rfl⟩
abbrev main_cst_32 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_33 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_call2_cst : Ref sig .tc := ⟨.hbm, 222, rfl⟩
abbrev main_call2_v0 : Ref sig .tc := ⟨.hbm, 223, rfl⟩
abbrev main_v154 : Ref sig .tc := ⟨.hbm, 224, rfl⟩
abbrev main_call3_cst : Ref sig .tc := ⟨.hbm, 225, rfl⟩
abbrev main_call3_v0 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x256_S50000x256_0_1 : S1x256.BroadcastsInDim S50000x256 (![0, 1] : Fin 2 → Fin S50000x256.rank)
  bcast_S_S100000x256 : S_.BroadcastsInDim S100000x256 (![] : Fin 0 → Fin S100000x256.rank)
  bcast_S_S50000x256 : S_.BroadcastsInDim S50000x256 (![] : Fin 0 → Fin S50000x256.rank)
  bcast_S100000x1_S100000x256_0_1 : S100000x1.BroadcastsInDim S100000x256 (![0, 1] : Fin 2 → Fin S100000x256.rank)
  bcast_S50000x1_S50000x256_0_1 : S50000x1.BroadcastsInDim S50000x256 (![0, 1] : Fin 2 → Fin S50000x256.rank)
  bcast_S349_S1x349_1 : S349.BroadcastsInDim S1x349 (![1] : Fin 1 → Fin S1x349.rank)
  bcast_S1x349_S100000x349_0_1 : S1x349.BroadcastsInDim S100000x349 (![0, 1] : Fin 2 → Fin S100000x349.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x256_S100000x256_1_0_0_1_n_n_wf : DotDims.WF S100000x128 S128x256 S100000x256 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x256_S50000x256_1_0_0_1_n_n_wf : DotDims.WF S50000x128 S128x256 S50000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x256_S50000x256_1_0_0_1_n_n_wf : DotDims.WF S50000x256 S256x256 S50000x256 [1] [0] [0] [1] [] []
  dot_S100000x256_S256x349_S100000x349_1_0_0_1_n_n_wf : DotDims.WF S100000x256 S256x349 S100000x349 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S100000x256_S256x349_S100000x349_1_0_0_1_n_n : DotDims S100000x256 S256x349 S100000x349 where
  lhsContracting := [1]
  rhsContracting := [0]
  lhsNonContracting := [0]
  rhsNonContracting := [1]
  lhsBatch := []
  rhsBatch := []
  wf := dot_S100000x256_S256x349_S100000x349_1_0_0_1_n_n_wf

class Facts : Prop extends Facts₀ where

variable [Facts]
-- ==== Proof.LibEReal.lean ====
/-
  Extended-real algebra used by the value proof.

  The idealized programs compute on extended reals.  Commutativity and associativity of `+` hold there outright, but
  distributivity `x * (a + b) = x * a + x * b` fails at the infinities, so it is stated for REAL values (`IsReal`), and
  the predicate is closed under every operation the programs apply: sums, products, maxima, finite sums, the inverse
  (which is real at every extended real, the infinities included) and the quotient by a nonzero divisor.
  Two further laws join a neighbour mean computed as `s * (1 / c)` with the same mean computed as `s / c`
  (`mul_div_one`, for any nonzero `c`), and the three-matmul combine of a node update with its two-term form.
-/
import Idealize.ShloMosaic.PureOps.Ideal

noncomputable section

namespace Cert.Lib

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self _ _)).add (ih fun i hi => h i (Finset.mem_insert_of_mem hi))

/-- The inverse of ANY extended real is a real number: the infinities invert to zero. -/
theorem IsReal.inv (x : EReal) : IsReal x⁻¹ := by
  induction x using EReal.rec with
  | bot => exact ⟨0, EReal.inv_bot⟩
  | coe r => exact ⟨r⁻¹, (EReal.coe_inv r).symm⟩
  | top => exact ⟨0, EReal.inv_top⟩

/-- A real value divided by a nonzero divisor (finite or not) is real. -/
theorem IsReal.div {x y : EReal} (hx : IsReal x) (hy : y ≠ 0) : IsReal (Ideal.div x y) := by
  rw [Ideal.div, if_neg hy]; exact hx.mul (IsReal.inv y)

/-- `s * (1 / c) = s / c` for a nonzero divisor: both are `s * c⁻¹`. -/
theorem mul_div_one (a c : EReal) (hc : c ≠ 0) : a * Ideal.div 1 c = Ideal.div a c := by
  rw [Ideal.div, Ideal.div, if_neg hc, if_neg hc, one_mul]

/-- A count clamped below by one is not zero. -/
theorem max_one_ne_zero (c : EReal) : Max.max c 1 ≠ 0 :=
  ne_of_gt (lt_of_lt_of_le zero_lt_one (le_max_right c 1))

/-- Distributivity over real values. -/
theorem mul_add_of_isReal {x a b : EReal} (hx : IsReal x) (ha : IsReal a) (hb : IsReal b) :
    x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- One contraction against a SUM of two weight columns is the sum of the two contractions, over real values. -/
theorem sum_mul_add {K : Type} [Fintype K] (x w w' : K → EReal) (hx : ∀ k, IsReal (x k)) (hw : ∀ k, IsReal (w k))
    (hw' : ∀ k, IsReal (w' k)) : ∑ k, x k * (w k + w' k) = ∑ k, x k * w k + ∑ k, x k * w' k := by
  rw [← Finset.sum_add_distrib]
  exact Finset.sum_congr rfl fun k _ => mul_add_of_isReal (hx k) (hw k) (hw' k)

/-- The node update fed by TWO edge types: the kernel's form — both neighbour means scaled by a precomputed inverse count,
    ONE root contraction against the summed root weights, the summed bias — is the reference's sum of two separate
    updates, each with its own root contraction and bias. -/
theorem combine_two {K : Type} [Fintype K] (ac aw x w2 w5 w3 w6 : K → EReal) (dc dw b4 b7 : EReal)
    (hdc : dc ≠ 0) (hdw : dw ≠ 0) (hx : ∀ k, IsReal (x k)) (h3 : ∀ k, IsReal (w3 k)) (h6 : ∀ k, IsReal (w6 k)) :
    Max.max ((((∑ k, (ac k * Ideal.div 1 dc) * w2 k) + ∑ k, (aw k * Ideal.div 1 dw) * w5 k)
        + ∑ k, x k * (w3 k + w6 k)) + (b4 + b7)) 0
      = Max.max ((((∑ k, Ideal.div (ac k) dc * w2 k) + b4) + ∑ k, x k * w3 k)
        + (((∑ k, Ideal.div (aw k) dw * w5 k) + b7) + ∑ k, x k * w6 k)) 0 := by
  rw [sum_mul_add x w3 w6 hx h3 h6]
  simp only [mul_div_one _ _ hdc, mul_div_one _ _ hdw]
  congr 1
  ac_rfl

/-- The node update fed by ONE edge type: only the order of the additions differs. -/
theorem combine_one {K : Type} [Fintype K] (ar x w8 w9 : K → EReal) (dr b : EReal) (hdr : dr ≠ 0) :
    Max.max (((∑ k, (ar k * Ideal.div 1 dr) * w8 k) + ∑ k, x k * w9 k) + b) 0
      = Max.max (((∑ k, Ideal.div (ar k) dr * w8 k) + b) + ∑ k, x k * w9 k) 0 := by
  simp only [mul_div_one _ _ hdr]
  congr 1
  ac_rfl

end Cert.Lib

end
-- ==== Proof.PreDecode.lean ====
/-
  What the precondition says of one device's argument arrays.

  The printed precondition is a conjunction of whole-array tests: for each float argument "every entry's absolute value is
  below +infinity", and for each of the three source-index arguments "every entry is at least 0 and below the number of
  rows of the array it indexes".  Read entry by entry: every float entry is a real number, and every source index is in
  range as a signed integer.
-/
import proofs.«401098_j77403900609229_3_alg».proof.Pre_finite_inputs
import proofs.«401098_j77403900609229_3_alg».proof.Proof.LibEReal
import Idealize.ShloMosaic.Lib.ReduceAll
import Idealize.ShloMosaic.Lib.ValueIdx

noncomputable section

namespace Cert.Hgs

open Idealize.ShloMosaic Cert.Lib Cert.Pre_finite_inputs

/-- The facts the value proof uses of the argument arrays: float entries real, source indices in range. -/
structure Inputs (a0 : FVec Ideal S100000x128 .f32) (a1 : FVec Ideal S50000x128 .f32) (a2 : FVec Ideal S128x256 .f32) (a3 : FVec Ideal S128x256 .f32) (a4 : FVec Ideal S256 .f32) (a5 : FVec Ideal S128x256 .f32) (a6 : FVec Ideal S128x256 .f32) (a7 : FVec Ideal S256 .f32) (a8 : FVec Ideal S128x256 .f32) (a9 : FVec Ideal S128x256 .f32) (a10 : FVec Ideal S256 .f32) (a11 : FVec Ideal S256x256 .f32) (a12 : FVec Ideal S256x256 .f32) (a13 : FVec Ideal S256 .f32) (a14 : FVec Ideal S256x256 .f32) (a15 : FVec Ideal S256x256 .f32) (a16 : FVec Ideal S256 .f32) (a17 : FVec Ideal S256x256 .f32) (a18 : FVec Ideal S256x256 .f32) (a19 : FVec Ideal S256 .f32) (a20 : FVec Ideal S256x349 .f32) (a21 : FVec Ideal S349 .f32) (a22 : IVec S500000 32) (a24 : IVec S500000 32) (a26 : IVec S500000 32) : Prop where
  r0 : ∀ i, IsReal (a0 i)
  r1 : ∀ i, IsReal (a1 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  r10 : ∀ i, IsReal (a10 i)
  r11 : ∀ i, IsReal (a11 i)
  r12 : ∀ i, IsReal (a12 i)
  r13 : ∀ i, IsReal (a13 i)
  r14 : ∀ i, IsReal (a14 i)
  r15 : ∀ i, IsReal (a15 i)
  r16 : ∀ i, IsReal (a16 i)
  r17 : ∀ i, IsReal (a17 i)
  r18 : ∀ i, IsReal (a18 i)
  r19 : ∀ i, IsReal (a19 i)
  r20 : ∀ i, IsReal (a20 i)
  r21 : ∀ i, IsReal (a21 i)
  g22 : ∀ e, 0 ≤ (a22 e).toInt ∧ (a22 e).toInt < 100000
  g24 : ∀ e, 0 ≤ (a24 e).toInt ∧ (a24 e).toInt < 50000
  g26 : ∀ e, 0 ≤ (a26 e).toInt ∧ (a26 e).toInt < 100000

/-- A rank-0 shape has one index. -/
instance subsingleton_idx_S_ : Subsingleton S_.Idx := ⟨fun a b => funext fun d => d.elim0⟩

/-- The bit pattern of +infinity denotes the top element. -/
theorem ofBits_inf : Ideal.ofBits .f32 0x7F800000#32 = (⊤ : EReal) := by simp [Ideal.ofBits, Ideal.ieee]

/-- An extended real whose absolute value is below +infinity is a real number. -/
theorem isReal_of_abs_lt (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- The whole-array test "every absolute value is below +infinity", all ones, says every entry is real. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant S_ .f32 0x7F800000#32)))
      (constantI S_ 1 1#1) hr hu ValueIdx.ix0 = 1#1) (i : s.Idx) : IsReal (a i) := by
  have e := Host.reduce_andi_all _ _ hr hu ValueIdx.ix0 h i
  refine isReal_of_abs_lt (a i) ?_
  rw [← ofBits_inf]
  exact e

/-- A one-bit word made from a boolean is 1 exactly when the boolean is true. -/
theorem ofBool_one {b : Bool} (h : BitVec.ofBool b = 1#1) : b = true := by
  revert h; cases b <;> decide

/-- The whole-array test "at least 0 and below n", all ones, says every entry is in range as a signed integer. -/
theorem all_range (n : BitVec 32) (m : Int) (hn : n.toInt = m)
    (hb : S_.BroadcastsInDim S500000 (![] : Fin 0 → Fin S500000.rank))
    (hr : S500000.ReducesTo [0] S_) (hu : 0 < S_.numel) (a : IVec S500000 32)
    (h : Host.reduce IntOp.andi (andi (cmpi .sge a (broadcastInDim S500000 ![] hb (constantI S_ 32 0#32)))
        (cmpi .slt a (broadcastInDim S500000 ![] hb (constantI S_ 32 n))))
      (constantI S_ 1 1#1) hr hu ValueIdx.ix0 = 1#1) (e : S500000.Idx) : 0 ≤ (a e).toInt ∧ (a e).toInt < m := by
  have e1 := Host.reduce_andi_all _ _ hr hu ValueIdx.ix0 h e
  obtain ⟨h1, h2⟩ := IntOp.andi_eq_one.1 e1
  have g1 : (0#32 : BitVec 32).sle (a e) = true := ofBool_one h1
  have g2 : (a e).slt n = true := ofBool_one h2
  have k1 : (0#32 : BitVec 32).toInt ≤ (a e).toInt := of_decide_eq_true g1
  have k2 : (a e).toInt < n.toInt := of_decide_eq_true g2
  rw [hn] at k2
  exact ⟨k1, k2⟩

/-- The conjunction of two rank-0 one-bit values is 1 exactly when both are. -/
theorem andi_ix0 (x y : IVec S_ 1) :
    andi x y ValueIdx.ix0 = 1#1 ↔ x ValueIdx.ix0 = 1#1 ∧ y ValueIdx.ix0 = 1#1 := IntOp.andi_eq_one

/-- The printed precondition, all ones, gives those facts. -/
theorem fn_decode [Cert.Pre_finite_inputs.Facts] (a0 : FVec Ideal S100000x128 .f32) (a1 : FVec Ideal S50000x128 .f32) (a2 : FVec Ideal S128x256 .f32) (a3 : FVec Ideal S128x256 .f32) (a4 : FVec Ideal S256 .f32) (a5 : FVec Ideal S128x256 .f32) (a6 : FVec Ideal S128x256 .f32) (a7 : FVec Ideal S256 .f32) (a8 : FVec Ideal S128x256 .f32) (a9 : FVec Ideal S128x256 .f32) (a10 : FVec Ideal S256 .f32) (a11 : FVec Ideal S256x256 .f32) (a12 : FVec Ideal S256x256 .f32) (a13 : FVec Ideal S256 .f32) (a14 : FVec Ideal S256x256 .f32) (a15 : FVec Ideal S256x256 .f32) (a16 : FVec Ideal S256 .f32) (a17 : FVec Ideal S256x256 .f32) (a18 : FVec Ideal S256x256 .f32) (a19 : FVec Ideal S256 .f32) (a20 : FVec Ideal S256x349 .f32) (a21 : FVec Ideal S349 .f32) (a22 : IVec S500000 32) (a23 : IVec S500000 32) (a24 : IVec S500000 32) (a25 : IVec S500000 32) (a26 : IVec S500000 32) (a27 : IVec S500000 32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    Inputs a0 a1 a2 a3 a4 a5 a6 a7 a8 a9 a10 a11 a12 a13 a14 a15 a16 a17 a18 a19 a20 a21 a22 a24 a26 := by
  have h0 := congrFun h ValueIdx.ix0
  simp only [fn, fn_part1, fn_part2, fn_part3, fn_part4, fn_part5, fn_part6, fn_part7, andi_ix0] at h0
  obtain ⟨⟨⟨⟨⟨⟨⟨⟨⟨⟨⟨⟨⟨⟨⟨⟨⟨⟨⟨⟨⟨⟨⟨⟨t0, t1⟩, t2⟩, t3⟩, t4⟩, t5⟩, t6⟩, t7⟩, t8⟩, t9⟩, t10⟩, t11⟩, t12⟩, t13⟩, t14⟩, t15⟩, t16⟩, t17⟩, t18⟩, t19⟩, t20⟩, t21⟩, t22⟩, t23⟩, t24⟩ := h0
  exact ⟨all_real _ _ _ a0 t0,
    all_real _ _ _ a1 t1,
    all_real _ _ _ a2 t2,
    all_real _ _ _ a3 t3,
    all_real _ _ _ a4 t4,
    all_real _ _ _ a5 t5,
    all_real _ _ _ a6 t6,
    all_real _ _ _ a7 t7,
    all_real _ _ _ a8 t8,
    all_real _ _ _ a9 t9,
    all_real _ _ _ a10 t10,
    all_real _ _ _ a11 t11,
    all_real _ _ _ a12 t12,
    all_real _ _ _ a13 t13,
    all_real _ _ _ a14 t14,
    all_real _ _ _ a15 t15,
    all_real _ _ _ a16 t16,
    all_real _ _ _ a17 t17,
    all_real _ _ _ a18 t18,
    all_real _ _ _ a19 t19,
    all_real _ _ _ a20 t20,
    all_real _ _ _ a21 t21,
    all_range 100000#32 100000 (by decide) _ _ _ a22 t22,
    all_range 50000#32 50000 (by decide) _ _ _ a24 t23,
    all_range 100000#32 100000 (by decide) _ _ _ a26 t24⟩

end Cert.Hgs

end
-- ==== Proof.HostArgs.lean ====
/-
  Names for the kernel program's argument arrays on one device, and the kernel's own reciprocal neighbour counts.

  The kernel's host code counts, for each destination row, the edges that arrive there (a scatter-add of ones), clamps the
  count below at one, and takes the reciprocal once: `inv100` for the 100000 rows of the first node type, `inv50` for the
  50000 rows of the second.  Read at a row, the reciprocal is `1 / max(count, 1)`.
-/
import proofs.«401098_j77403900609229_3_alg».proof.Proof.Gen.KernelIdeal
import Idealize.ShloMosaic.Lib.ValueIdx
import Idealize.ShloMosaic.Lib.IdealHost

noncomputable section

namespace Cert.Hgs

open Idealize.ShloMosaic Idealize.ShloMosaic.TcCoe Idealize.ShloMosaic.ValueIdx Idealize.SL.Sem
open Cert.KernelIdeal Cert.KernelIdeal.Gen

section Args
variable (m : (ℓ : Loc nD τ sig) → Buf (Elt Ideal) ℓ)
abbrev a0 (c : Dev nD) : FVec Ideal S100000x128 .f32 := m ((c : Thread nD τ).loc main_arg0)
abbrev a1 (c : Dev nD) : FVec Ideal S50000x128 .f32 := m ((c : Thread nD τ).loc main_arg1)
abbrev a2 (c : Dev nD) : FVec Ideal S128x256 .f32 := m ((c : Thread nD τ).loc main_arg2)
abbrev a3 (c : Dev nD) : FVec Ideal S128x256 .f32 := m ((c : Thread nD τ).loc main_arg3)
abbrev a4 (c : Dev nD) : FVec Ideal S256 .f32 := m ((c : Thread nD τ).loc main_arg4)
abbrev a5 (c : Dev nD) : FVec Ideal S128x256 .f32 := m ((c : Thread nD τ).loc main_arg5)
abbrev a6 (c : Dev nD) : FVec Ideal S128x256 .f32 := m ((c : Thread nD τ).loc main_arg6)
abbrev a7 (c : Dev nD) : FVec Ideal S256 .f32 := m ((c : Thread nD τ).loc main_arg7)
abbrev a8 (c : Dev nD) : FVec Ideal S128x256 .f32 := m ((c : Thread nD τ).loc main_arg8)
abbrev a9 (c : Dev nD) : FVec Ideal S128x256 .f32 := m ((c : Thread nD τ).loc main_arg9)
abbrev a10 (c : Dev nD) : FVec Ideal S256 .f32 := m ((c : Thread nD τ).loc main_arg10)
abbrev a11 (c : Dev nD) : FVec Ideal S256x256 .f32 := m ((c : Thread nD τ).loc main_arg11)
abbrev a12 (c : Dev nD) : FVec Ideal S256x256 .f32 := m ((c : Thread nD τ).loc main_arg12)
abbrev a13 (c : Dev nD) : FVec Ideal S256 .f32 := m ((c : Thread nD τ).loc main_arg13)
abbrev a14 (c : Dev nD) : FVec Ideal S256x256 .f32 := m ((c : Thread nD τ).loc main_arg14)
abbrev a15 (c : Dev nD) : FVec Ideal S256x256 .f32 := m ((c : Thread nD τ).loc main_arg15)
abbrev a16 (c : Dev nD) : FVec Ideal S256 .f32 := m ((c : Thread nD τ).loc main_arg16)
abbrev a17 (c : Dev nD) : FVec Ideal S256x256 .f32 := m ((c : Thread nD τ).loc main_arg17)
abbrev a18 (c : Dev nD) : FVec Ideal S256x256 .f32 := m ((c : Thread nD τ).loc main_arg18)
abbrev a19 (c : Dev nD) : FVec Ideal S256 .f32 := m ((c : Thread nD τ).loc main_arg19)
abbrev a20 (c : Dev nD) : FVec Ideal S256x349 .f32 := m ((c : Thread nD τ).loc main_arg20)
abbrev a21 (c : Dev nD) : FVec Ideal S349 .f32 := m ((c : Thread nD τ).loc main_arg21)
abbrev a22 (c : Dev nD) : IVec S500000 32 := m ((c : Thread nD τ).loc main_arg22)
abbrev a23 (c : Dev nD) : IVec S500000 32 := m ((c : Thread nD τ).loc main_arg23)
abbrev a24 (c : Dev nD) : IVec S500000 32 := m ((c : Thread nD τ).loc main_arg24)
abbrev a25 (c : Dev nD) : IVec S500000 32 := m ((c : Thread nD τ).loc main_arg25)
abbrev a26 (c : Dev nD) : IVec S500000 32 := m ((c : Thread nD τ).loc main_arg26)
abbrev a27 (c : Dev nD) : IVec S500000 32 := m ((c : Thread nD τ).loc main_arg27)
end Args

/-- The number of edges arriving at each of the 100000 rows, clamped below at one. -/
def den100 (dst : IVec S500000 32) : FVec Ideal S100000 .f32 :=
  maximumf (F := Ideal)
    (Host.scatterAdd (F := Ideal) scatter_S100000_S500000x1_S500000_n_0_0_1
      (broadcastInDim S100000 ![] Facts₀.bcast_S_S100000 (constant (F := Ideal) S_ .f32 0x00000000#32))
      (broadcastInDim S500000x1 ![0] Facts₀.bcast_S500000_S500000x1_0 dst)
      (broadcastInDim S500000 ![] Facts₀.bcast_S_S500000 (constant (F := Ideal) S_ .f32 0x3F800000#32)))
    (broadcastInDim S100000 ![] Facts₀.bcast_S_S100000 (constant (F := Ideal) S_ .f32 0x3F800000#32))

/-- Its reciprocal, as the kernel's host code computes it. -/
def inv100 (dst : IVec S500000 32) : FVec Ideal S100000 .f32 :=
  Host.divf (F := Ideal) (broadcastInDim S100000 ![] Facts₀.bcast_S_S100000 (constant (F := Ideal) S_ .f32 0x3F800000#32)) (den100 dst)

theorem inv100_apply (dst : IVec S500000 32) (i : S100000.Idx) : inv100 dst i = Ideal.div 1 (den100 dst i) := by
  unfold inv100
  rw [hostDivf_apply, broadcastInDim_scalar_apply, constant_apply, Ideal.ofBits_one_f32]

/-- The number of edges arriving at each of the 50000 rows, clamped below at one. -/
def den50 (dst : IVec S500000 32) : FVec Ideal S50000 .f32 :=
  maximumf (F := Ideal)
    (Host.scatterAdd (F := Ideal) scatter_S50000_S500000x1_S500000_n_0_0_1
      (broadcastInDim S50000 ![] Facts₀.bcast_S_S50000 (constant (F := Ideal) S_ .f32 0x00000000#32))
      (broadcastInDim S500000x1 ![0] Facts₀.bcast_S500000_S500000x1_0 dst)
      (broadcastInDim S500000 ![] Facts₀.bcast_S_S500000 (constant (F := Ideal) S_ .f32 0x3F800000#32)))
    (broadcastInDim S50000 ![] Facts₀.bcast_S_S50000 (constant (F := Ideal) S_ .f32 0x3F800000#32))

/-- Its reciprocal, as the kernel's host code computes it. -/
def inv50 (dst : IVec S500000 32) : FVec Ideal S50000 .f32 :=
  Host.divf (F := Ideal) (broadcastInDim S50000 ![] Facts₀.bcast_S_S50000 (constant (F := Ideal) S_ .f32 0x3F800000#32)) (den50 dst)

theorem inv50_apply (dst : IVec S500000 32) (i : S50000.Idx) : inv50 dst i = Ideal.div 1 (den50 dst i) := by
  unfold inv50
  rw [hostDivf_apply, broadcastInDim_scalar_apply, constant_apply, Ideal.ofBits_one_f32]

end Cert.Hgs

end
-- ==== Proof.HostW10.lean ====
/-
  What the kernel program's buffers hold when its second region has finished.

  Between the launch and that point the program runs eight lines of host operations and two regions.  A host operation
  rewrites its one result buffer and nothing else; a region rewrites its output array and nothing else.  So a buffer that
  is no operation's result and no region's output still holds what it held before: the argument arrays that the later
  stages read still hold what they were launched with, and the two inverse-count columns, computed by the first line and
  only read by the first region, hold what they held when that region was entered.  The outputs of the two regions hold
  what the regions' write-backs folded into them.
-/
import proofs.«401098_j77403900609229_3_alg».proof.Proof.Gen.KernelIdeal.Frame
import proofs.«401098_j77403900609229_3_alg».proof.Proof.HostArgs
import Idealize.ShloMosaic.Lib.StableHlo.Run

set_option maxRecDepth 16384

noncomputable section

namespace Cert.Hgs

open Idealize.ShloMosaic Idealize.ShloMosaic.TcCoe Idealize.SL.Sem Idealize.ShloMosaic.StableHlo Cert.KernelIdeal Cert.KernelIdeal.Gen

/-- A line of host operations none of which writes any buffer of a list `T` leaves every buffer of `T` as it was. -/
theorem after_keeps {Val : EltTy → Type} {T : List (Ref sig .tc)} (ops : List (HloOp τ sig Val)) (V : Valuation τ sig Val)
    (hT : ops.Forall fun op => ∀ t ∈ T, Proc.devRef (τ := τ) .tc t ∉ op.writes) {r : Ref sig .tc} (hr : r ∈ T) :
    StableHlo.after ops V (Proc.devRef .tc r) = V (Proc.devRef .tc r) :=
  StableHlo.after_of_forall_not_mem ops V fun op hop => List.forall_iff_forall_mem.mp hT op hop r hr

/-- The argument arrays read after the second region: no host operation before that point has one of them as its result,
    and neither of the first two regions has one of them among its arrays. -/
def keptArgs : List (Ref sig .tc) := [main_arg11, main_arg12, main_arg13, main_arg14, main_arg15, main_arg16, main_arg20, main_arg21, main_arg22, main_arg23, main_arg24, main_arg25]

/-- Those, with the two inverse-count columns and the first region's output: what the line between the two regions leaves
    alone. -/
def kept1 : List (Ref sig .tc) := main_v16 :: main_v21 :: main_v45 :: keptArgs

/-- Each operation of a line writes its result buffer only; that it is none of the listed buffers is decided by comparing
    references. -/
local macro "no_write " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (refine fun t ht => StableHlo.devRef_ne_of_ne ?_; revert t; decide)))

theorem keep0 : (hostOps0 (F := Ideal)).Forall fun op => ∀ t ∈ keptArgs, Proc.devRef (τ := τ) .tc t ∉ op.writes := by
  no_write hostOps0
theorem keep0_1 : (hostOps0_1 (F := Ideal)).Forall fun op => ∀ t ∈ keptArgs, Proc.devRef (τ := τ) .tc t ∉ op.writes := by
  no_write hostOps0_1
theorem keep0_2 : (hostOps0_2 (F := Ideal)).Forall fun op => ∀ t ∈ keptArgs, Proc.devRef (τ := τ) .tc t ∉ op.writes := by
  no_write hostOps0_2
theorem keep0_3 : (hostOps0_3 (F := Ideal)).Forall fun op => ∀ t ∈ keptArgs, Proc.devRef (τ := τ) .tc t ∉ op.writes := by
  no_write hostOps0_3
theorem keep0_4 : (hostOps0_4 (F := Ideal)).Forall fun op => ∀ t ∈ keptArgs, Proc.devRef (τ := τ) .tc t ∉ op.writes := by
  no_write hostOps0_4
theorem keep0_5 : (hostOps0_5 (F := Ideal)).Forall fun op => ∀ t ∈ keptArgs, Proc.devRef (τ := τ) .tc t ∉ op.writes := by
  no_write hostOps0_5
theorem keep0_6 : (hostOps0_6 (F := Ideal)).Forall fun op => ∀ t ∈ keptArgs, Proc.devRef (τ := τ) .tc t ∉ op.writes := by
  no_write hostOps0_6
theorem keep1 : (hostOps1 (F := Ideal)).Forall fun op => ∀ t ∈ kept1, Proc.devRef (τ := τ) .tc t ∉ op.writes := by
  no_write hostOps1

/-- None of the kept argument arrays is an array of the first region … -/
theorem kept_not_arr0 : ∀ t ∈ keptArgs, ∀ w, Pipeline.arrRef spec0 w ≠ t := by decide
/-- … or of the second. -/
theorem kept_not_arr1 : ∀ t ∈ keptArgs, ∀ w, Pipeline.arrRef spec1 w ≠ t := by decide

variable (m : (ℓ : Loc nD τ sig) → Buf (Elt Ideal) ℓ) (ρ : Dev nD → PrngReg)

/-- A kept argument array holds, after the second region, what it was launched with: walk back through the second region,
    the line between the regions, the first region and the seven lines before it. -/
theorem W10_kept (c : Dev nD) {t : Ref sig .tc} (ht : t ∈ keptArgs) :
    W10 m ρ c (Proc.devRef .tc t) = m ((c : Thread nD τ).loc t) :=
  calc W10 m ρ c (Proc.devRef .tc t)
    _ = W9 m ρ c (Proc.devRef .tc t) := W10_of_ne m ρ c t (kept_not_arr1 t ht)
    _ = W8 m ρ c (Proc.devRef .tc t) := after_keeps _ _ keep1 (List.mem_cons_of_mem _ (List.mem_cons_of_mem _ (List.mem_cons_of_mem _ ht)))
    _ = W7 m ρ c (Proc.devRef .tc t) := W8_of_ne m ρ c t (kept_not_arr0 t ht)
    _ = W6 m ρ c (Proc.devRef .tc t) := after_keeps _ _ keep0_6 ht
    _ = W5 m ρ c (Proc.devRef .tc t) := after_keeps _ _ keep0_5 ht
    _ = W4 m ρ c (Proc.devRef .tc t) := after_keeps _ _ keep0_4 ht
    _ = W3 m ρ c (Proc.devRef .tc t) := after_keeps _ _ keep0_3 ht
    _ = W2 m ρ c (Proc.devRef .tc t) := after_keeps _ _ keep0_2 ht
    _ = W1 m ρ c (Proc.devRef .tc t) := after_keeps _ _ keep0_1 ht
    _ = W0 m ρ c (Proc.devRef .tc t) := after_keeps _ _ keep0 ht
    _ = m ((c : Thread nD τ).loc t) := rfl

theorem W10_arg11 (c : Dev nD) : W10 m ρ c (Proc.devRef .tc main_arg11) = a11 m c := W10_kept m ρ c (by decide)
theorem W10_arg12 (c : Dev nD) : W10 m ρ c (Proc.devRef .tc main_arg12) = a12 m c := W10_kept m ρ c (by decide)
theorem W10_arg13 (c : Dev nD) : W10 m ρ c (Proc.devRef .tc main_arg13) = a13 m c := W10_kept m ρ c (by decide)
theorem W10_arg14 (c : Dev nD) : W10 m ρ c (Proc.devRef .tc main_arg14) = a14 m c := W10_kept m ρ c (by decide)
theorem W10_arg15 (c : Dev nD) : W10 m ρ c (Proc.devRef .tc main_arg15) = a15 m c := W10_kept m ρ c (by decide)
theorem W10_arg16 (c : Dev nD) : W10 m ρ c (Proc.devRef .tc main_arg16) = a16 m c := W10_kept m ρ c (by decide)
theorem W10_arg20 (c : Dev nD) : W10 m ρ c (Proc.devRef .tc main_arg20) = a20 m c := W10_kept m ρ c (by decide)
theorem W10_arg21 (c : Dev nD) : W10 m ρ c (Proc.devRef .tc main_arg21) = a21 m c := W10_kept m ρ c (by decide)
theorem W10_arg22 (c : Dev nD) : W10 m ρ c (Proc.devRef .tc main_arg22) = a22 m c := W10_kept m ρ c (by decide)
theorem W10_arg23 (c : Dev nD) : W10 m ρ c (Proc.devRef .tc main_arg23) = a23 m c := W10_kept m ρ c (by decide)
theorem W10_arg24 (c : Dev nD) : W10 m ρ c (Proc.devRef .tc main_arg24) = a24 m c := W10_kept m ρ c (by decide)
theorem W10_arg25 (c : Dev nD) : W10 m ρ c (Proc.devRef .tc main_arg25) = a25 m c := W10_kept m ρ c (by decide)

/-- The inverse-count column of the first edge type: an input array of the first region, not touched afterwards. -/
theorem W10_v16 (c : Dev nD) : W10 m ρ c (Proc.devRef .tc main_v16) = V7 m ρ c main_v16 :=
  calc W10 m ρ c (Proc.devRef .tc main_v16)
    _ = W9 m ρ c (Proc.devRef .tc main_v16) := W10_of_ne m ρ c main_v16 (by decide)
    _ = W8 m ρ c (Proc.devRef .tc main_v16) := after_keeps _ _ keep1 (by decide)
    _ = V7 m ρ c main_v16 := (W8_arr m ρ c 1).trans (((dat0 (V7 m ρ) c).arrAt_in 1 rfl _).trans (A_eq0 (V7 m ρ) c 1))

/-- The inverse-count column of the second edge type, likewise. -/
theorem W10_v21 (c : Dev nD) : W10 m ρ c (Proc.devRef .tc main_v21) = V7 m ρ c main_v21 :=
  calc W10 m ρ c (Proc.devRef .tc main_v21)
    _ = W9 m ρ c (Proc.devRef .tc main_v21) := W10_of_ne m ρ c main_v21 (by decide)
    _ = W8 m ρ c (Proc.devRef .tc main_v21) := after_keeps _ _ keep1 (by decide)
    _ = V7 m ρ c main_v21 := (W8_arr m ρ c 3).trans (((dat0 (V7 m ρ) c).arrAt_in 3 rfl _).trans (A_eq0 (V7 m ρ) c 3))

/-- The first region's output holds what that region's write-backs folded into it. -/
theorem W10_v45 (c : Dev nD) : W10 m ρ c (Proc.devRef .tc main_v45) = (dat0 (V7 m ρ) c).arrAt 9 cfg0.N :=
  calc W10 m ρ c (Proc.devRef .tc main_v45)
    _ = W9 m ρ c (Proc.devRef .tc main_v45) := W10_of_ne m ρ c main_v45 (by decide)
    _ = W8 m ρ c (Proc.devRef .tc main_v45) := after_keeps _ _ keep1 (by decide)
    _ = (dat0 (V7 m ρ) c).arrAt 9 cfg0.N := W8_arr m ρ c 9

/-- The second region's output holds what that region's write-backs folded into it. -/
theorem W10_v49 (c : Dev nD) : W10 m ρ c (Proc.devRef .tc main_v49) = (dat1 (V9 m ρ) c).arrAt 6 cfg1.N :=
  W10_arr m ρ c 6

end Cert.Hgs

end
-- ==== Proof.Take.lean ====
/-
  The gathers of rows by index ("take"), read under the precondition.

  A take at the default fill mode wraps negative indices around, gathers the rows, and replaces by a not-a-number row
  every row whose index falls outside the table.  With every index in range (at least 0 and below the number of rows)
  the wrap-around leaves the indices as they are, the bounds mask is all ones, and the take is the plain gather of the
  rows at the (formally still wrapped) indices.  One statement per take of the program, over arbitrary contents of the
  arrays.
-/
import proofs.«401098_j77403900609229_3_alg».proof.Proof.Gen.KernelIdeal.Launch
import Idealize.ShloMosaic.Lib.StableHlo.Run
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

namespace Cert.Hgs

open Idealize.ShloMosaic Idealize.ShloMosaic.TcCoe Idealize.ShloMosaic.StableHlo
open Cert.KernelIdeal Cert.KernelIdeal.Gen

/-- A transport there and back is the identity. -/
theorem cast_cast_id {α β : Type} (h : α = β) (h' : β = α) (v : α) : cast h' (cast h v) = v := by
  subst h; rfl

/-- A non-negative word is not below zero. -/
theorem cmpi_slt_zero {a : BitVec 32} (h : 0 ≤ a.toInt) : IntOp.cmpi .slt a 0#32 = 0#1 := by
  have e : a.slt 0#32 = false := decide_eq_false (by rw [show (0#32 : BitVec 32).toInt = 0 from rfl]; omega)
  show BitVec.ofBool (a.slt 0#32) = 0#1
  rw [e]; rfl

/-- A non-negative word is at least zero. -/
theorem cmpi_sge_zero {a : BitVec 32} (h : 0 ≤ a.toInt) : IntOp.cmpi .sge a 0#32 = 1#1 := by
  have e : (0#32 : BitVec 32).sle a = true := decide_eq_true (by rw [show (0#32 : BitVec 32).toInt = 0 from rfl]; exact h)
  show BitVec.ofBool ((0#32 : BitVec 32).sle a) = 1#1
  rw [e]; rfl

/-- A word below N is at most the word that reads N - 1. -/
theorem cmpi_sle_pred {a m : BitVec 32} {N : ℤ} (hm : m.toInt = N - 1) (h : a.toInt < N) : IntOp.cmpi .sle a m = 1#1 := by
  have e : a.sle m = true := decide_eq_true (by rw [hm]; omega)
  show BitVec.ofBool (a.sle m) = 1#1
  rw [e]; rfl

/-- A left fold by "and" from 1 over entries that are all 1 is 1. -/
theorem foldl_andi_ones {ι : Type} (f : ι → BitVec 1) (hf : ∀ n, f n = 1#1) (l : List ι) :
    l.foldl (fun r n => IntOp.andi r (f n)) 1#1 = 1#1 := by
  induction l with
  | nil => rfl
  | cons a l ih => rw [List.foldl_cons, hf a]; exact ih

/-- The and-reduction from the constant 1 of an array whose entries are all 1 is 1 everywhere. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x hx _

/-- Selecting by the broadcast of an and-reduced mask whose entries are all 1 takes the first branch everywhere. -/
theorem select_reduced_ones {sC sI sO u : Shape} {α : Type} {axes : List (Fin sC.rank)} (dims : Fin sI.rank → Fin sO.rank)
    (hb : sI.BroadcastsInDim sO dims) (hr : sC.ReducesTo axes sI) (hu : 0 < u.numel) (mask : IVec sC 1)
    (hm : ∀ i, mask i = 1#1) (a b : sO.Idx → α) :
    select (broadcastInDim sO dims hb (Host.reduce IntOp.andi mask (constantI u 1 1#1) hr hu)) a b = a := by
  funext j
  rw [ValueIdx.select_apply]
  show Scalar.select (Host.reduce IntOp.andi mask (constantI u 1 1#1) hr hu _) (a j) (b j) = a j
  rw [reduce_andi_ones mask hr hu hm, ValueIdx.select_one]

/-- Wrapping a negative index around leaves non-negative indices as they are. -/
theorem wrap_index_eq {sI : Shape} (idx zI nI : IVec sI 32) (hzI : ∀ k, zI k = 0#32) (h : ∀ e, 0 ≤ (idx e).toInt) :
    select (cmpi .slt idx zI) (addi idx nI) idx = idx := by
  funext k
  rw [ValueIdx.select_apply]
  have e : cmpi .slt idx zI k = 0#1 := by
    show IntOp.cmpi .slt (idx k) (zI k) = 0#1
    rw [hzI k]; exact cmpi_slt_zero (h k)
  rw [e, ValueIdx.select_zero]

/-- The bounds mask of a gather by indices that are all in range is all ones. -/
theorem take_mask_ones {sI sC : Shape} (dims : Fin sI.rank → Fin sC.rank) (hb : sI.BroadcastsInDim sC dims)
    (idx zI nI : IVec sI 32) (zC mC : IVec sC 32) (N : ℤ)
    (hzI : ∀ k, zI k = 0#32) (hzC : ∀ i, zC i = 0#32) (hmC : ∀ i, (mC i).toInt = N - 1)
    (h : ∀ e, 0 ≤ (idx e).toInt ∧ (idx e).toInt < N) (i : sC.Idx) :
    andi (cmpi .sge (broadcastInDim sC dims hb (select (cmpi .slt idx zI) (addi idx nI) idx)) zC)
      (cmpi .sle (broadcastInDim sC dims hb (select (cmpi .slt idx zI) (addi idx nI) idx)) mC) i = 1#1 := by
  rw [wrap_index_eq idx zI nI hzI fun e => (h e).1]
  show IntOp.andi (IntOp.cmpi .sge (idx _) (zC i)) (IntOp.cmpi .sle (idx _) (mC i)) = 1#1
  rw [hzC i, cmpi_sge_zero (h _).1, cmpi_sle_pred (hmC i) (h _).2]; rfl

/-- The take of rows of the first node table by the first source-index array: with every index in range, the bounds mask is all ones and the result is the gather itself. -/
theorem take_call0 (W : Valuation τ sig (Elt Ideal))
    (h : ∀ e, 0 ≤ ((W (Proc.devRef .tc main_arg22) : IVec S500000 32) e).toInt ∧ ((W (Proc.devRef .tc main_arg22) : IVec S500000 32) e).toInt < 100000) :
    (StableHlo.after hostOps0_1 W (Proc.devRef .tc main_v27) : FVec Ideal S500000x128 .f32)
      = Host.gather gather_S100000x128_S500000x1_S500000x128_1_0_n_n_0_1_1128 (W (Proc.devRef .tc main_arg0) : FVec Ideal S100000x128 .f32)
          (broadcastInDim S500000x1 ![0] Facts₀.bcast_S500000_S500000x1_0
            (select (cmpi .slt (W (Proc.devRef .tc main_arg22) : IVec S500000 32) (broadcastInDim S500000 ![] Facts₀.bcast_S_S500000 (constantI S_ 32 0#32)))
              (addi (W (Proc.devRef .tc main_arg22) : IVec S500000 32) (broadcastInDim S500000 ![] Facts₀.bcast_S_S500000 (constantI S_ 32 100000#32)))
              (W (Proc.devRef .tc main_arg22) : IVec S500000 32))) := by
  dsimp only [hostOps0_1]
  after_results_simp
  simp only [cast_cast_id]
  dsimp only [TRef.ofBuf, TRef.toBuf, cast_eq]
  exact select_reduced_ones _ _ _ _ _ (take_mask_ones _ _ _ _ _ _ _ 100000 (fun _ => rfl) (fun _ => rfl) (fun _ => rfl) h) _ _

/-- The take of rows of the second node table by the second source-index array: with every index in range, the bounds mask is all ones and the result is the gather itself. -/
theorem take_call1 (W : Valuation τ sig (Elt Ideal))
    (h : ∀ e, 0 ≤ ((W (Proc.devRef .tc main_arg24) : IVec S500000 32) e).toInt ∧ ((W (Proc.devRef .tc main_arg24) : IVec S500000 32) e).toInt < 50000) :
    (StableHlo.after hostOps0_3 W (Proc.devRef .tc main_v31) : FVec Ideal S500000x128 .f32)
      = Host.gather gather_S50000x128_S500000x1_S500000x128_1_0_n_n_0_1_1128 (W (Proc.devRef .tc main_arg1) : FVec Ideal S50000x128 .f32)
          (broadcastInDim S500000x1 ![0] Facts₀.bcast_S500000_S500000x1_0
            (select (cmpi .slt (W (Proc.devRef .tc main_arg24) : IVec S500000 32) (broadcastInDim S500000 ![] Facts₀.bcast_S_S500000 (constantI S_ 32 0#32)))
              (addi (W (Proc.devRef .tc main_arg24) : IVec S500000 32) (broadcastInDim S500000 ![] Facts₀.bcast_S_S500000 (constantI S_ 32 50000#32)))
              (W (Proc.devRef .tc main_arg24) : IVec S500000 32))) := by
  dsimp only [hostOps0_3]
  after_results_simp
  simp only [cast_cast_id]
  dsimp only [TRef.ofBuf, TRef.toBuf, cast_eq]
  exact select_reduced_ones _ _ _ _ _ (take_mask_ones _ _ _ _ _ _ _ 50000 (fun _ => rfl) (fun _ => rfl) (fun _ => rfl) h) _ _

/-- The take of rows of the first node table by the third source-index array: with every index in range, the bounds mask is all ones and the result is the gather itself. -/
theorem take_call2 (W : Valuation τ sig (Elt Ideal))
    (h : ∀ e, 0 ≤ ((W (Proc.devRef .tc main_arg26) : IVec S500000 32) e).toInt ∧ ((W (Proc.devRef .tc main_arg26) : IVec S500000 32) e).toInt < 100000) :
    (StableHlo.after hostOps0_5 W (Proc.devRef .tc main_v35) : FVec Ideal S500000x128 .f32)
      = Host.gather gather_S100000x128_S500000x1_S500000x128_1_0_n_n_0_1_1128 (W (Proc.devRef .tc main_arg0) : FVec Ideal S100000x128 .f32)
          (broadcastInDim S500000x1 ![0] Facts₀.bcast_S500000_S500000x1_0
            (select (cmpi .slt (W (Proc.devRef .tc main_arg26) : IVec S500000 32) (broadcastInDim S500000 ![] Facts₀.bcast_S_S500000 (constantI S_ 32 0#32)))
              (addi (W (Proc.devRef .tc main_arg26) : IVec S500000 32) (broadcastInDim S500000 ![] Facts₀.bcast_S_S500000 (constantI S_ 32 100000#32)))
              (W (Proc.devRef .tc main_arg26) : IVec S500000 32))) := by
  dsimp only [hostOps0_5]
  after_results_simp
  simp only [cast_cast_id]
  dsimp only [TRef.ofBuf, TRef.toBuf, cast_eq]
  exact select_reduced_ones _ _ _ _ _ (take_mask_ones _ _ _ _ _ _ _ 100000 (fun _ => rfl) (fun _ => rfl) (fun _ => rfl) h) _ _

/-- The take of rows of the first updated table by the first source-index array: with every index in range, the bounds mask is all ones and the result is the gather itself. -/
theorem take_call3 (W : Valuation τ sig (Elt Ideal))
    (h : ∀ e, 0 ≤ ((W (Proc.devRef .tc main_arg22) : IVec S500000 32) e).toInt ∧ ((W (Proc.devRef .tc main_arg22) : IVec S500000 32) e).toInt < 100000) :
    (StableHlo.after hostOps2 W (Proc.devRef .tc main_v50) : FVec Ideal S500000x256 .f32)
      = Host.gather gather_S100000x256_S500000x1_S500000x256_1_0_n_n_0_1_1256 (W (Proc.devRef .tc main_v45) : FVec Ideal S100000x256 .f32)
          (broadcastInDim S500000x1 ![0] Facts₀.bcast_S500000_S500000x1_0
            (select (cmpi .slt (W (Proc.devRef .tc main_arg22) : IVec S500000 32) (broadcastInDim S500000 ![] Facts₀.bcast_S_S500000 (constantI S_ 32 0#32)))
              (addi (W (Proc.devRef .tc main_arg22) : IVec S500000 32) (broadcastInDim S500000 ![] Facts₀.bcast_S_S500000 (constantI S_ 32 100000#32)))
              (W (Proc.devRef .tc main_arg22) : IVec S500000 32))) := by
  dsimp only [hostOps2]
  after_results_simp
  simp only [cast_cast_id]
  dsimp only [TRef.ofBuf, TRef.toBuf, cast_eq]
  exact select_reduced_ones _ _ _ _ _ (take_mask_ones _ _ _ _ _ _ _ 100000 (fun _ => rfl) (fun _ => rfl) (fun _ => rfl) h) _ _

/-- The take of rows of the second updated table by the second source-index array: with every index in range, the bounds mask is all ones and the result is the gather itself. -/
theorem take_call4 (W : Valuation τ sig (Elt Ideal))
    (h : ∀ e, 0 ≤ ((W (Proc.devRef .tc main_arg24) : IVec S500000 32) e).toInt ∧ ((W (Proc.devRef .tc main_arg24) : IVec S500000 32) e).toInt < 50000) :
    (StableHlo.after hostOps2_2 W (Proc.devRef .tc main_v54) : FVec Ideal S500000x256 .f32)
      = Host.gather gather_S50000x256_S500000x1_S500000x256_1_0_n_n_0_1_1256 (W (Proc.devRef .tc main_v49) : FVec Ideal S50000x256 .f32)
          (broadcastInDim S500000x1 ![0] Facts₀.bcast_S500000_S500000x1_0
            (select (cmpi .slt (W (Proc.devRef .tc main_arg24) : IVec S500000 32) (broadcastInDim S500000 ![] Facts₀.bcast_S_S500000 (constantI S_ 32 0#32)))
              (addi (W (Proc.devRef .tc main_arg24) : IVec S500000 32) (broadcastInDim S500000 ![] Facts₀.bcast_S_S500000 (constantI S_ 32 50000#32)))
              (W (Proc.devRef .tc main_arg24) : IVec S500000 32))) := by
  dsimp only [hostOps2_2]
  after_results_simp
  simp only [cast_cast_id]
  dsimp only [TRef.ofBuf, TRef.toBuf, cast_eq]
  exact select_reduced_ones _ _ _ _ _ (take_mask_ones _ _ _ _ _ _ _ 50000 (fun _ => rfl) (fun _ => rfl) (fun _ => rfl) h) _ _

end Cert.Hgs

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.Host0.lean ====
/-
  What region 0 finds in its operand arrays, in terms of the reference program's stages.

  Before the first region the kernel's host code counts the edges per destination row and takes the reciprocal of the clamped
  count, gathers the source rows of each edge type and sums them per destination (with the source indices in range the
  gather's fill mask is all ones), sums the two root weight arrays and the two biases, and casts the weights to a narrower
  float format, which changes nothing at the ideal values.  Each operand array of region 0 is therefore the reference's own
  stage: the neighbour sums are the reference's scatter-add stages, the reciprocal column is one over the reference's clamped
  count, the weights and bias rows are the arguments (summed where the kernel sums them).
-/
import proofs.«401098_j77403900609229_3_alg».proof.Proof.Gen.KernelIdeal.Frame
import proofs.«401098_j77403900609229_3_alg».proof.Proof.Gen.ReferenceIdeal.Read
import proofs.«401098_j77403900609229_3_alg».proof.Proof.HostArgs
import proofs.«401098_j77403900609229_3_alg».proof.Proof.Take
import proofs.«401098_j77403900609229_3_alg».proof.Proof.LibKeepdims
import Idealize.ShloMosaic.Lib.StableHlo.Run
import Idealize.ShloMosaic.Lib.ValueIdx
import Idealize.ShloMosaic.Lib.ValueLayout
import Idealize.ShloMosaic.Lib.IdealHost

set_option maxRecDepth 16384

noncomputable section

namespace Cert.Hgs

open Idealize.ShloMosaic Idealize.ShloMosaic.TcCoe Idealize.ShloMosaic.ValueIdx Idealize.SL.Sem Idealize.ShloMosaic.StableHlo
open Cert.KernelIdeal Cert.KernelIdeal.Gen Cert.Lib
open Cert.ReferenceIdeal.Read (val_main_v9 val_main_v15 val_main_v34 val_main_v40 val_main_v60 val_main_v66)

variable (m : (ℓ : Loc nD τ sig) → Buf (Elt Ideal) ℓ) (ρ : Dev nD → PrngReg)

namespace H0

/-- The kernel's clamped count on 100000 rows is the reference's, for either edge type that arrives there. -/
theorem den100_eq_v15 (dst : IVec S500000 32) : den100 dst = val_main_v15 (F := Ideal) dst := by
  unfold den100
  rfl
theorem den100_eq_v40 (dst : IVec S500000 32) : den100 dst = val_main_v40 (F := Ideal) dst := by
  unfold den100
  rfl

set_option maxHeartbeats 2000000 in
theorem sumc (c : Dev nD) (h22 : ∀ e, 0 ≤ (a22 m c e).toInt ∧ (a22 m c e).toInt < 100000) :
    V7 m ρ c main_v30 = val_main_v9 (F := Ideal) (a0 m c) (a22 m c) (a23 m c) := by
  show StableHlo.after hostOps0_6 (StableHlo.after hostOps0_5 (StableHlo.after hostOps0_4 (StableHlo.after hostOps0_3 (StableHlo.after hostOps0_2
    (StableHlo.after hostOps0_1 (StableHlo.after hostOps0 (W0 m ρ c))))))) (Proc.devRef .tc main_v30) = _
  after_results_simp
  simp only [cast_cast_id]
  dsimp only [TRef.ofBuf, TRef.toBuf, cast_eq]
  refine (congrArg (Host.scatterAdd _ _ _) (select_reduced_ones _ _ _ _ _
    (take_mask_ones _ _ _ _ _ _ _ 100000 (fun _ => rfl) (fun _ => rfl) (fun _ => rfl) h22) _ _)).trans ?_
  rfl

set_option maxHeartbeats 2000000 in
theorem invc (c : Dev nD) (p : Fin 100000) :
    V7 m ρ c main_v16 (ix2 p (0 : Fin 1)) = Ideal.div 1 (val_main_v15 (F := Ideal) (a23 m c) (ix1 p)) := by
  have e : V7 m ρ c main_v16 = shapeCast S100000x1 (inv100 (a23 m c)) Facts₀.shapeCasts_S100000_S100000x1 := by
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v16) = _
    after_results_simp <;> rfl
  refine (congrFun e _).trans ((shapeCast_a_a1_apply (inv100 (a23 m c)) Facts₀.shapeCasts_S100000_S100000x1 p 0).trans
    ((inv100_apply _ _).trans ?_))
  rw [den100_eq_v15]

set_option maxHeartbeats 2000000 in
theorem sumw (c : Dev nD) (h24 : ∀ e, 0 ≤ (a24 m c e).toInt ∧ (a24 m c e).toInt < 50000) :
    V7 m ρ c main_v34 = val_main_v34 (F := Ideal) (a1 m c) (a24 m c) (a25 m c) := by
  show StableHlo.after hostOps0_6 (StableHlo.after hostOps0_5 (StableHlo.after hostOps0_4 (StableHlo.after hostOps0_3 (StableHlo.after hostOps0_2
    (StableHlo.after hostOps0_1 (StableHlo.after hostOps0 (W0 m ρ c))))))) (Proc.devRef .tc main_v34) = _
  after_results_simp
  simp only [cast_cast_id]
  dsimp only [TRef.ofBuf, TRef.toBuf, cast_eq]
  refine (congrArg (Host.scatterAdd _ _ _) (select_reduced_ones _ _ _ _ _
    (take_mask_ones _ _ _ _ _ _ _ 50000 (fun _ => rfl) (fun _ => rfl) (fun _ => rfl) h24) _ _)).trans ?_
  rfl

set_option maxHeartbeats 2000000 in
theorem invw (c : Dev nD) (p : Fin 100000) :
    V7 m ρ c main_v21 (ix2 p (0 : Fin 1)) = Ideal.div 1 (val_main_v40 (F := Ideal) (a25 m c) (ix1 p)) := by
  have e : V7 m ρ c main_v21 = shapeCast S100000x1 (inv100 (a25 m c)) Facts₀.shapeCasts_S100000_S100000x1 := by
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v21) = _
    after_results_simp <;> rfl
  refine (congrFun e _).trans ((shapeCast_a_a1_apply (inv100 (a25 m c)) Facts₀.shapeCasts_S100000_S100000x1 p 0).trans
    ((inv100_apply _ _).trans ?_))
  rw [den100_eq_v40]

set_option maxHeartbeats 2000000 in
theorem xp (c : Dev nD) : V7 m ρ c main_arg0 = a0 m c := by
  show StableHlo.after hostOps0_6 (StableHlo.after hostOps0_5 (StableHlo.after hostOps0_4 (StableHlo.after hostOps0_3 (StableHlo.after hostOps0_2
    (StableHlo.after hostOps0_1 (StableHlo.after hostOps0 (W0 m ρ c))))))) (Proc.devRef .tc main_arg0) = _
  after_results_simp <;> rfl

set_option maxHeartbeats 2000000 in
theorem wlc (c : Dev nD) (k : Fin 128) (q : Fin 256) : V7 m ρ c main_v41 (ix2 k q) = a2 m c (ix2 k q) := by
  have e : V7 m ρ c main_v41 = truncf .bf16 (a2 m c) Facts₀.bitsLt_bf16_f32 := by
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v41) = _
    after_results_simp <;> rfl
  exact congrFun e _

set_option maxHeartbeats 2000000 in
theorem wlw (c : Dev nD) (k : Fin 128) (q : Fin 256) : V7 m ρ c main_v42 (ix2 k q) = a5 m c (ix2 k q) := by
  have e : V7 m ρ c main_v42 = truncf .bf16 (a5 m c) Facts₀.bitsLt_bf16_f32 := by
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v42) = _
    after_results_simp <;> rfl
  exact congrFun e _

set_option maxHeartbeats 2000000 in
theorem wr (c : Dev nD) (k : Fin 128) (q : Fin 256) : V7 m ρ c main_v43 (ix2 k q) = a3 m c (ix2 k q) + a6 m c (ix2 k q) := by
  have e : V7 m ρ c main_v43 = truncf .bf16 (addf (a3 m c) (a6 m c)) Facts₀.bitsLt_bf16_f32 := by
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v43) = _
    after_results_simp <;> rfl
  exact congrFun e _

set_option maxHeartbeats 2000000 in
theorem bias (c : Dev nD) (q : Fin 256) : V7 m ρ c main_v44 (ix2 (0 : Fin 1) q) = a4 m c (ix1 q) + a7 m c (ix1 q) := by
  have e : V7 m ρ c main_v44 = shapeCast S1x256 (addf (a4 m c) (a7 m c)) Facts₀.shapeCasts_S256_S1x256 := by
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v44) = _
    after_results_simp <;> rfl
  refine (congrFun e _).trans ?_
  exact shapeCast_a_1a_apply _ Facts₀.shapeCasts_S256_S1x256 0 q

end H0

end Cert.Hgs

end
-- ==== Proof.Host1.lean ====
/-
  What region 1 finds in its operand arrays, in terms of the reference program's stages.

  Region 1 updates the 50000 rows of the second node type from one edge type.  Its neighbour sums are the reference's
  scatter-add stage (the gather's fill mask is all ones with the source indices in range), its reciprocal column is one over
  the reference's clamped count of that edge type, its weights and bias row are the arguments.  None of these arrays is one
  of region 0's, so region 0 leaves them as the host code before it computed them.
-/
import proofs.«401098_j77403900609229_3_alg».proof.Proof.Gen.KernelIdeal.Frame
import proofs.«401098_j77403900609229_3_alg».proof.Proof.Gen.ReferenceIdeal.Read
import proofs.«401098_j77403900609229_3_alg».proof.Proof.HostArgs
import proofs.«401098_j77403900609229_3_alg».proof.Proof.Take
import proofs.«401098_j77403900609229_3_alg».proof.Proof.LibKeepdims
import Idealize.ShloMosaic.Lib.StableHlo.Run
import Idealize.ShloMosaic.Lib.ValueIdx
import Idealize.ShloMosaic.Lib.ValueLayout
import Idealize.ShloMosaic.Lib.IdealHost

set_option maxRecDepth 16384

noncomputable section

namespace Cert.Hgs

open Idealize.ShloMosaic Idealize.ShloMosaic.TcCoe Idealize.ShloMosaic.ValueIdx Idealize.SL.Sem Idealize.ShloMosaic.StableHlo
open Cert.KernelIdeal Cert.KernelIdeal.Gen Cert.Lib
open Cert.ReferenceIdeal.Read (val_main_v9 val_main_v15 val_main_v34 val_main_v40 val_main_v60 val_main_v66)

variable (m : (ℓ : Loc nD τ sig) → Buf (Elt Ideal) ℓ) (ρ : Dev nD → PrngReg)

namespace H1

/-- The kernel's clamped count on 50000 rows is the reference's. -/
theorem den50_eq_v66 (dst : IVec S500000 32) : den50 dst = val_main_v66 (F := Ideal) dst := by
  unfold den50
  rfl

set_option maxHeartbeats 2000000 in
theorem sumr (c : Dev nD) (h26 : ∀ e, 0 ≤ (a26 m c e).toInt ∧ (a26 m c e).toInt < 100000) :
    V9 m ρ c main_v38 = val_main_v60 (F := Ideal) (a0 m c) (a26 m c) (a27 m c) := by
  have e1 : V9 m ρ c main_v38 = W8 m ρ c (Proc.devRef .tc main_v38) := by
    show StableHlo.after hostOps1 (W8 m ρ c) (Proc.devRef .tc main_v38) = _
    after_results_simp <;> rfl
  refine e1.trans ((W8_of_ne m ρ c main_v38 (by decide)).trans ?_)
  show StableHlo.after hostOps0_6 (StableHlo.after hostOps0_5 (StableHlo.after hostOps0_4 (StableHlo.after hostOps0_3 (StableHlo.after hostOps0_2
    (StableHlo.after hostOps0_1 (StableHlo.after hostOps0 (W0 m ρ c))))))) (Proc.devRef .tc main_v38) = _
  after_results_simp
  simp only [cast_cast_id]
  dsimp only [TRef.ofBuf, TRef.toBuf, cast_eq]
  refine (congrArg (Host.scatterAdd _ _ _) (select_reduced_ones _ _ _ _ _
    (take_mask_ones _ _ _ _ _ _ _ 100000 (fun _ => rfl) (fun _ => rfl) (fun _ => rfl) h26) _ _)).trans ?_
  rfl

set_option maxHeartbeats 2000000 in
theorem invr (c : Dev nD) (p : Fin 50000) :
    V9 m ρ c main_v26 (ix2 p (0 : Fin 1)) = Ideal.div 1 (val_main_v66 (F := Ideal) (a27 m c) (ix1 p)) := by
  have e8 : W8 m ρ c (Proc.devRef .tc main_v26) = shapeCast S50000x1 (inv50 (a27 m c)) Facts₀.shapeCasts_S50000_S50000x1 := by
    refine (W8_of_ne m ρ c main_v26 (by decide)).trans ?_
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_v26) = _
    after_results_simp <;> rfl
  have e1 : V9 m ρ c main_v26 = W8 m ρ c (Proc.devRef .tc main_v26) := by
    show StableHlo.after hostOps1 (W8 m ρ c) (Proc.devRef .tc main_v26) = _
    after_results_simp <;> rfl
  refine (congrFun (e1.trans e8) _).trans ((shapeCast_a_a1_apply (inv50 (a27 m c)) Facts₀.shapeCasts_S50000_S50000x1 p 0).trans
    ((inv50_apply _ _).trans ?_))
  rw [den50_eq_v66]

set_option maxHeartbeats 2000000 in
theorem xa (c : Dev nD) : V9 m ρ c main_arg1 = a1 m c := by
  have e8 : W8 m ρ c (Proc.devRef .tc main_arg1) = a1 m c := by
    refine (W8_of_ne m ρ c main_arg1 (by decide)).trans ?_
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_arg1) = _
    after_results_simp <;> rfl
  have e1 : V9 m ρ c main_arg1 = W8 m ρ c (Proc.devRef .tc main_arg1) := by
    show StableHlo.after hostOps1 (W8 m ρ c) (Proc.devRef .tc main_arg1) = _
    after_results_simp <;> rfl
  exact e1.trans e8

set_option maxHeartbeats 2000000 in
theorem wlr (c : Dev nD) (k : Fin 128) (q : Fin 256) : V9 m ρ c main_v46 (ix2 k q) = a8 m c (ix2 k q) := by
  have e8 : W8 m ρ c (Proc.devRef .tc main_arg8) = a8 m c := by
    refine (W8_of_ne m ρ c main_arg8 (by decide)).trans ?_
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_arg8) = _
    after_results_simp <;> rfl
  have e : V9 m ρ c main_v46 = truncf (F := Ideal) .bf16 (W8 m ρ c (Proc.devRef .tc main_arg8) : FVec Ideal S128x256 .f32) Facts₀.bitsLt_bf16_f32 := by
    show StableHlo.after hostOps1 (W8 m ρ c) (Proc.devRef .tc main_v46) = _
    after_results_simp <;> rfl
  exact (congrFun e _).trans (congrFun e8 _)

set_option maxHeartbeats 2000000 in
theorem wrr (c : Dev nD) (k : Fin 128) (q : Fin 256) : V9 m ρ c main_v47 (ix2 k q) = a9 m c (ix2 k q) := by
  have e8 : W8 m ρ c (Proc.devRef .tc main_arg9) = a9 m c := by
    refine (W8_of_ne m ρ c main_arg9 (by decide)).trans ?_
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_arg9) = _
    after_results_simp <;> rfl
  have e : V9 m ρ c main_v47 = truncf (F := Ideal) .bf16 (W8 m ρ c (Proc.devRef .tc main_arg9) : FVec Ideal S128x256 .f32) Facts₀.bitsLt_bf16_f32 := by
    show StableHlo.after hostOps1 (W8 m ρ c) (Proc.devRef .tc main_v47) = _
    after_results_simp <;> rfl
  exact (congrFun e _).trans (congrFun e8 _)

set_option maxHeartbeats 2000000 in
theorem bias (c : Dev nD) (q : Fin 256) : V9 m ρ c main_v48 (ix2 (0 : Fin 1) q) = a10 m c (ix1 q) := by
  have e8 : W8 m ρ c (Proc.devRef .tc main_arg10) = a10 m c := by
    refine (W8_of_ne m ρ c main_arg10 (by decide)).trans ?_
    show StableHlo.after hostOps0_6 (StableHlo.after hostOps0_5 (StableHlo.after hostOps0_4 (StableHlo.after hostOps0_3 (StableHlo.after hostOps0_2
      (StableHlo.after hostOps0_1 (StableHlo.after hostOps0 (W0 m ρ c))))))) (Proc.devRef .tc main_arg10) = _
    after_results_simp <;> rfl
  have e : V9 m ρ c main_v48 = shapeCast S1x256 (W8 m ρ c (Proc.devRef .tc main_arg10)) Facts₀.shapeCasts_S256_S1x256 := by
    show StableHlo.after hostOps1 (W8 m ρ c) (Proc.devRef .tc main_v48) = _
    after_results_simp <;> rfl
  refine (congrFun e _).trans ((shapeCast_a_1a_apply _ Facts₀.shapeCasts_S256_S1x256 0 q).trans ?_)
  exact congrFun e8 _

end H1

end Cert.Hgs

end
-- ==== Proof.Host2.lean ====
/-
  What region 2 finds in its operand arrays, in terms of the reference program's stages.

  Between region 1 and region 2 the kernel's host code gathers rows of the two first-layer activation arrays (region 0's
  and region 1's outputs) by the same source indices as before and sums them per destination, sums the second layer's two
  root weight arrays and two biases, and casts weights to a narrower float format (the identity at the ideal values).  Given
  that the two activation arrays are the reference's first-layer activations, region 2's neighbour sums are the reference's
  second-layer scatter-add stages; its reciprocal columns are the ones region 0 used (the edge lists are the same in both
  layers); its weights and bias rows are the arguments, summed where the kernel sums them.
-/
import proofs.«401098_j77403900609229_3_alg».proof.Proof.Gen.KernelIdeal.Frame
import proofs.«401098_j77403900609229_3_alg».proof.Proof.Gen.ReferenceIdeal.Read
import proofs.«401098_j77403900609229_3_alg».proof.Proof.HostArgs
import proofs.«401098_j77403900609229_3_alg».proof.Proof.HostW10
import proofs.«401098_j77403900609229_3_alg».proof.Proof.Host0
import proofs.«401098_j77403900609229_3_alg».proof.Proof.Take
import proofs.«401098_j77403900609229_3_alg».proof.Proof.LibKeepdims
import Idealize.ShloMosaic.Lib.StableHlo.Run
import Idealize.ShloMosaic.Lib.ValueIdx
import Idealize.ShloMosaic.Lib.ValueLayout
import Idealize.ShloMosaic.Lib.IdealHost

set_option maxRecDepth 16384

noncomputable section

namespace Cert.Hgs

open Idealize.ShloMosaic Idealize.ShloMosaic.TcCoe Idealize.ShloMosaic.ValueIdx Idealize.SL.Sem Idealize.ShloMosaic.StableHlo
open Cert.KernelIdeal Cert.KernelIdeal.Gen Cert.Lib
open Cert.ReferenceIdeal.Read (val_main_v15 val_main_v40 val_main_v76 val_main_v77 val_main_v87 val_main_v93 val_main_v112 val_main_v118)

variable (m : (ℓ : Loc nD τ sig) → Buf (Elt Ideal) ℓ) (ρ : Dev nD → PrngReg)

namespace H2

/-- The clamped count of an edge type is one function of its destination indices, whichever layer names it. -/
theorem den_15_93 (x : IVec Cert.ReferenceIdeal.S500000 32) : val_main_v15 (F := Ideal) x = val_main_v93 (F := Ideal) x := rfl
theorem den_40_118 (x : IVec Cert.ReferenceIdeal.S500000 32) : val_main_v40 (F := Ideal) x = val_main_v118 (F := Ideal) x := rfl

set_option maxHeartbeats 4000000 in
theorem sumc (c : Dev nD) (h22 : ∀ e, 0 ≤ (a22 m c e).toInt ∧ (a22 m c e).toInt < 100000)
    (hP : W10 m ρ c (Proc.devRef .tc main_v45) = val_main_v76 (F := Ideal) (a0 m c) (a1 m c) (a2 m c) (a3 m c) (a4 m c) (a5 m c) (a6 m c) (a7 m c) (a22 m c) (a23 m c) (a24 m c) (a25 m c)) :
    V14 m ρ c main_v53 = val_main_v87 (F := Ideal) (a0 m c) (a1 m c) (a2 m c) (a3 m c) (a4 m c) (a5 m c) (a6 m c) (a7 m c) (a22 m c) (a23 m c) (a24 m c) (a25 m c) := by
  show StableHlo.after hostOps2_3 (StableHlo.after hostOps2_2 (StableHlo.after hostOps2_1 (StableHlo.after hostOps2 (W10 m ρ c)))) (Proc.devRef .tc main_v53) = _
  after_results_simp
  simp only [cast_cast_id]
  dsimp only [TRef.ofBuf, TRef.toBuf, cast_eq]
  rw [W10_arg22 m ρ c, W10_arg23 m ρ c, hP]
  rw [select_reduced_ones]
  · rfl
  · exact take_mask_ones _ _ _ _ _ _ _ 100000 (fun _ => rfl) (fun _ => rfl) (fun _ => rfl) h22

set_option maxHeartbeats 4000000 in
theorem sumw (c : Dev nD) (h24 : ∀ e, 0 ≤ (a24 m c e).toInt ∧ (a24 m c e).toInt < 50000)
    (hA : W10 m ρ c (Proc.devRef .tc main_v49) = val_main_v77 (F := Ideal) (a0 m c) (a1 m c) (a8 m c) (a9 m c) (a10 m c) (a26 m c) (a27 m c)) :
    V14 m ρ c main_v57 = val_main_v112 (F := Ideal) (a0 m c) (a1 m c) (a8 m c) (a9 m c) (a10 m c) (a24 m c) (a25 m c) (a26 m c) (a27 m c) := by
  show StableHlo.after hostOps2_3 (StableHlo.after hostOps2_2 (StableHlo.after hostOps2_1 (StableHlo.after hostOps2 (W10 m ρ c)))) (Proc.devRef .tc main_v57) = _
  after_results_simp
  simp only [cast_cast_id]
  dsimp only [TRef.ofBuf, TRef.toBuf, cast_eq]
  rw [W10_arg24 m ρ c, W10_arg25 m ρ c, hA]
  rw [select_reduced_ones]
  · rfl
  · exact take_mask_ones _ _ _ _ _ _ _ 50000 (fun _ => rfl) (fun _ => rfl) (fun _ => rfl) h24

set_option maxHeartbeats 2000000 in
theorem v16_eq (c : Dev nD) : V14 m ρ c main_v16 = V7 m ρ c main_v16 := by
  refine Eq.trans ?_ (W10_v16 m ρ c)
  show StableHlo.after hostOps2_3 (StableHlo.after hostOps2_2 (StableHlo.after hostOps2_1 (StableHlo.after hostOps2 (W10 m ρ c)))) (Proc.devRef .tc main_v16) = _
  after_results_simp <;> rfl

set_option maxHeartbeats 2000000 in
theorem v21_eq (c : Dev nD) : V14 m ρ c main_v21 = V7 m ρ c main_v21 := by
  refine Eq.trans ?_ (W10_v21 m ρ c)
  show StableHlo.after hostOps2_3 (StableHlo.after hostOps2_2 (StableHlo.after hostOps2_1 (StableHlo.after hostOps2 (W10 m ρ c)))) (Proc.devRef .tc main_v21) = _
  after_results_simp <;> rfl

theorem invc (c : Dev nD) (p : Fin 100000) :
    V14 m ρ c main_v16 (ix2 p (0 : Fin 1)) = Ideal.div 1 (val_main_v93 (F := Ideal) (a23 m c) (ix1 p)) :=
  (congrFun (v16_eq m ρ c) _).trans ((H0.invc m ρ c p).trans (by rw [den_15_93]))

theorem invw (c : Dev nD) (p : Fin 100000) :
    V14 m ρ c main_v21 (ix2 p (0 : Fin 1)) = Ideal.div 1 (val_main_v118 (F := Ideal) (a25 m c) (ix1 p)) :=
  (congrFun (v21_eq m ρ c) _).trans ((H0.invw m ρ c p).trans (by rw [den_40_118]))

set_option maxHeartbeats 2000000 in
theorem p1 (c : Dev nD) (hP : W10 m ρ c (Proc.devRef .tc main_v45) = val_main_v76 (F := Ideal) (a0 m c) (a1 m c) (a2 m c) (a3 m c) (a4 m c) (a5 m c) (a6 m c) (a7 m c) (a22 m c) (a23 m c) (a24 m c) (a25 m c)) :
    V14 m ρ c main_v45 = val_main_v76 (F := Ideal) (a0 m c) (a1 m c) (a2 m c) (a3 m c) (a4 m c) (a5 m c) (a6 m c) (a7 m c) (a22 m c) (a23 m c) (a24 m c) (a25 m c) := by
  refine Eq.trans ?_ hP
  show StableHlo.after hostOps2_3 (StableHlo.after hostOps2_2 (StableHlo.after hostOps2_1 (StableHlo.after hostOps2 (W10 m ρ c)))) (Proc.devRef .tc main_v45) = _
  after_results_simp <;> rfl

set_option maxHeartbeats 2000000 in
theorem wlc (c : Dev nD) (k q : Fin 256) : V14 m ρ c main_v60 (ix2 k q) = a11 m c (ix2 k q) := by
  have e : V14 m ρ c main_v60 = truncf .bf16 (a11 m c) Facts₀.bitsLt_bf16_f32 := by
    show StableHlo.after hostOps2_3 (StableHlo.after hostOps2_2 (StableHlo.after hostOps2_1 (StableHlo.after hostOps2 (W10 m ρ c)))) (Proc.devRef .tc main_v60) = _
    after_results_simp
    rw [W10_arg11 m ρ c]
  exact congrFun e _

set_option maxHeartbeats 2000000 in
theorem wlw (c : Dev nD) (k q : Fin 256) : V14 m ρ c main_v61 (ix2 k q) = a14 m c (ix2 k q) := by
  have e : V14 m ρ c main_v61 = truncf .bf16 (a14 m c) Facts₀.bitsLt_bf16_f32 := by
    show StableHlo.after hostOps2_3 (StableHlo.after hostOps2_2 (StableHlo.after hostOps2_1 (StableHlo.after hostOps2 (W10 m ρ c)))) (Proc.devRef .tc main_v61) = _
    after_results_simp
    rw [W10_arg14 m ρ c]
  exact congrFun e _

set_option maxHeartbeats 2000000 in
theorem wr (c : Dev nD) (k q : Fin 256) : V14 m ρ c main_v62 (ix2 k q) = a12 m c (ix2 k q) + a15 m c (ix2 k q) := by
  have e : V14 m ρ c main_v62 = truncf .bf16 (addf (a12 m c) (a15 m c)) Facts₀.bitsLt_bf16_f32 := by
    show StableHlo.after hostOps2_3 (StableHlo.after hostOps2_2 (StableHlo.after hostOps2_1 (StableHlo.after hostOps2 (W10 m ρ c)))) (Proc.devRef .tc main_v62) = _
    after_results_simp
    rw [W10_arg12 m ρ c, W10_arg15 m ρ c]
  exact congrFun e _

set_option maxHeartbeats 2000000 in
theorem bias (c : Dev nD) (q : Fin 256) : V14 m ρ c main_v64 (ix2 (0 : Fin 1) q) = a13 m c (ix1 q) + a16 m c (ix1 q) := by
  have e : V14 m ρ c main_v64 = shapeCast S1x256 (addf (a13 m c) (a16 m c)) Facts₀.shapeCasts_S256_S1x256 := by
    show StableHlo.after hostOps2_3 (StableHlo.after hostOps2_2 (StableHlo.after hostOps2_1 (StableHlo.after hostOps2 (W10 m ρ c)))) (Proc.devRef .tc main_v64) = _
    after_results_simp
    rw [W10_arg13 m ρ c, W10_arg16 m ρ c]
    rfl
  refine (congrFun e _).trans ?_
  exact shapeCast_a_1a_apply _ Facts₀.shapeCasts_S256_S1x256 0 q

set_option maxHeartbeats 2000000 in
theorem wout (c : Dev nD) (k : Fin 256) (q : Fin 349) : V14 m ρ c main_v63 (ix2 k q) = a20 m c (ix2 k q) := by
  have e : V14 m ρ c main_v63 = truncf .bf16 (a20 m c) Facts₀.bitsLt_bf16_f32 := by
    show StableHlo.after hostOps2_3 (StableHlo.after hostOps2_2 (StableHlo.after hostOps2_1 (StableHlo.after hostOps2 (W10 m ρ c)))) (Proc.devRef .tc main_v63) = _
    after_results_simp
    rw [W10_arg20 m ρ c]
  exact congrFun e _

set_option maxHeartbeats 2000000 in
theorem bout (c : Dev nD) (q : Fin 349) : V14 m ρ c main_v65 (ix2 (0 : Fin 1) q) = a21 m c (ix1 q) := by
  have e : V14 m ρ c main_v65 = shapeCast S1x349 (a21 m c) Facts₀.shapeCasts_S349_S1x349 := by
    show StableHlo.after hostOps2_3 (StableHlo.after hostOps2_2 (StableHlo.after hostOps2_1 (StableHlo.after hostOps2 (W10 m ρ c)))) (Proc.devRef .tc main_v65) = _
    after_results_simp
    rw [W10_arg21 m ρ c]
    rfl
  refine (congrFun e _).trans ?_
  exact shapeCast_a_1a_apply _ Facts₀.shapeCasts_S349_S1x349 0 q

end H2

end Cert.Hgs

end
-- ==== Proof.Spec.lean ====
/-
  The three node updates the kernel's regions compute, as functions of whole arrays read index by index.

  A region works on blocks of 2000 rows; output row `i` depends on row `i` of each row-tiled operand and on the
  whole weight arrays.  `upd2` is the update of a node type fed by two edge types: each neighbour sum is scaled by its
  precomputed inverse count (a column `[n, 1]`), contracted with its weights, the root features are contracted with the
  (summed) root weights, the bias row is added and the result clamped at zero.  `upd1` is the same for one edge type.
  `head` is the output layer: a contraction with the output weights plus the bias row.
-/
import Idealize.ShloMosaic.PureOps.Ideal
import Idealize.ShloMosaic.Lib.ValueIdx

noncomputable section

namespace Cert.Hgs

open Idealize.ShloMosaic Idealize.ShloMosaic.ValueIdx

/-- A rank-2 array of extended reals. -/
abbrev Arr (n d : ℕ) := (⟨2, ![n, d]⟩ : Shape).Idx → EReal

/-- Node update from two edge types and the node's own features. -/
def upd2 {n d o : ℕ} (sumc : Arr n d) (invc : Arr n 1) (sumw : Arr n d) (invw : Arr n 1) (x : Arr n d)
    (wlc wlw wr : Arr d o) (b : Arr 1 o) : Arr n o := fun i =>
  max ((((∑ k : Fin d, (sumc (ix2 (i 0) k) * invc (ix2 (i 0) 0)) * wlc (ix2 k (i 1)))
      + ∑ k : Fin d, (sumw (ix2 (i 0) k) * invw (ix2 (i 0) 0)) * wlw (ix2 k (i 1)))
      + ∑ k : Fin d, x (ix2 (i 0) k) * wr (ix2 k (i 1))) + b (ix2 0 (i 1))) 0

/-- Node update from one edge type and the node's own features. -/
def upd1 {n d o : ℕ} (sumr : Arr n d) (invr : Arr n 1) (x : Arr n d) (wlr wrr : Arr d o) (b : Arr 1 o) : Arr n o := fun i =>
  max (((∑ k : Fin d, (sumr (ix2 (i 0) k) * invr (ix2 (i 0) 0)) * wlr (ix2 k (i 1)))
      + ∑ k : Fin d, x (ix2 (i 0) k) * wrr (ix2 k (i 1))) + b (ix2 0 (i 1))) 0

/-- The output layer. -/
def head {n d o : ℕ} (h : Arr n d) (wout : Arr d o) (bout : Arr 1 o) : Arr n o := fun i =>
  (∑ k : Fin d, h (ix2 (i 0) k) * wout (ix2 k (i 1))) + bout (ix2 0 (i 1))

theorem upd2_apply {n d o : ℕ} (sumc : Arr n d) (invc : Arr n 1) (sumw : Arr n d) (invw : Arr n 1) (x : Arr n d)
    (wlc wlw wr : Arr d o) (b : Arr 1 o) (p : Fin n) (q : Fin o) :
    upd2 sumc invc sumw invw x wlc wlw wr b (ix2 p q)
      = max ((((∑ k : Fin d, (sumc (ix2 p k) * invc (ix2 p 0)) * wlc (ix2 k q))
      + ∑ k : Fin d, (sumw (ix2 p k) * invw (ix2 p 0)) * wlw (ix2 k q))
      + ∑ k : Fin d, x (ix2 p k) * wr (ix2 k q)) + b (ix2 0 q)) 0 := rfl

theorem upd1_apply {n d o : ℕ} (sumr : Arr n d) (invr : Arr n 1) (x : Arr n d) (wlr wrr : Arr d o) (b : Arr 1 o)
    (p : Fin n) (q : Fin o) :
    upd1 sumr invr x wlr wrr b (ix2 p q)
      = max (((∑ k : Fin d, (sumr (ix2 p k) * invr (ix2 p 0)) * wlr (ix2 k q))
      + ∑ k : Fin d, x (ix2 p k) * wrr (ix2 k q)) + b (ix2 0 q)) 0 := rfl

theorem head_apply {n d o : ℕ} (h : Arr n d) (wout : Arr d o) (bout : Arr 1 o) (p : Fin n) (q : Fin o) :
    head h wout bout (ix2 p q) = (∑ k : Fin d, h (ix2 p k) * wout (ix2 k q)) + bout (ix2 0 q) := rfl

end Cert.Hgs

end
-- ==== Proof.Region0.lean ====
/-
  Region 0 (the first layer's update of the 100000 "paper" rows): what its output array holds after the region.

  The region walks 50 grid points; point `t` reads rows 2000 t … 2000 t + 1999 of each row-tiled operand (two neighbour-sum
  arrays with their inverse-count columns, and the rows' own features), the three weight arrays and the bias row whole, and
  writes the same rows of the output.  Element (p, q) of the stored block is, with the three matrix products written as
  sums over the 128 contracted columns, the two-edge-type update `upd2` at row 2000 t + p; the blocks of the 50 points cover
  the output array, so the array ends holding `upd2` of the operand arrays as the region finds them.
-/
import proofs.«401098_j77403900609229_3_alg».proof.Proof.Gen.KernelIdeal.Frame
import proofs.«401098_j77403900609229_3_alg».proof.Proof.Spec
import proofs.«401098_j77403900609229_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Hgs

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts Cert.Lib

namespace R0

variable (V : (c : Dev nD) → (b : Ref sig .tc) → Buf (Elt Ideal) ((c : Thread nD τ).loc b))

theorem hz : (![0, 0] : Fin 2 → Nat) = fun _ => 0 := funext fun a => by fin_cases a <;> rfl

theorem lhs_D0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_D0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_D0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_D0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- One matmul of the body into a zero accumulator, at `(p, q)`: the sum over the 128 contracted columns. -/
theorem dot0_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_D0_0 _ _
    | ⟨1, _⟩ => exact (lhs_D0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_D0_0 _ _).trans hk
    | ⟨1, _⟩ => exact rhs_D0_1 _ _)
  rw [el, er]

/-- The body's stored value at `(p, q)` of its block, from the loaded blocks. -/
theorem pay0_apply (v0 : Vec Ideal S2000x128 .f32) (v2 : Vec Ideal S2000x1 .f32) (v7 : Vec Ideal S2000x128 .f32) (v9 : Vec Ideal S2000x1 .f32)
    (v14 : Vec Ideal S2000x128 .f32) (v16 v19 v23 : Vec Ideal S128x256 .bf16) (v27 : Vec Ideal S1x256 .f32) (p : Fin 2000) (q : Fin 256) :
    k0_pay1 v0 v2 v7 v9 v14 v16 v19 v23 v27 (ix2 p q)
      = max ((((∑ k : Fin 128, (v0 (ix2 p k) * v2 (ix2 p 0)) * v16 (ix2 k q))
        + ∑ k : Fin 128, (v7 (ix2 p k) * v9 (ix2 p 0)) * v19 (ix2 k q))
        + ∑ k : Fin 128, v14 (ix2 p k) * v23 (ix2 k q)) + v27 (ix2 0 q)) 0 := by
  unfold k0_pay1
  simp only [maximumf_apply, addf_apply, dot0_apply, mulf_apply, truncf_apply, shapeCast_self, broadcast_apply,
    broadcastTo_a1_ab_apply, broadcastTo_1b_ab_apply]
  exact congrArg (max _) Ideal.ofBits_zero_f32

/-- Row `p` of block `t` is row `2000 t + p` of the array. -/
def row (t : Fin cfg0.N) (p : Fin 2000) : Fin 100000 :=
  ⟨t.val * 2000 + p.val, by have h := t.isLt; have h50 : cfg0.N = 50 := N_0; have := p.isLt; omega⟩

/-- The index maps over the grid: a row-tiled window's block index is the grid point on the row axis and zero on the column
    axis; a weight window is always block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem rd0 (c : Dev nD) (t : Fin cfg0.N) (p : Fin 2000) (k : Fin 128) :
    iblk0 V c 0 t (ix2 p k) = V c main_v30 (ix2 (row t p) k) := by
  show V c main_v30 (((cfg0.win 0).blk t).view.emb (ix2 p k)) = _
  refine congrArg _ (funext fun a => Fin.ext ?_)
  obtain ⟨⟨e0, e1⟩, -⟩ := idx_facts t
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem rd1 (c : Dev nD) (t : Fin cfg0.N) (p : Fin 2000) :
    iblk0 V c 1 t (ix2 p (0 : Fin 1)) = V c main_v16 (ix2 (row t p) (0 : Fin 1)) := by
  show V c main_v16 (((cfg0.win 1).blk t).view.emb (ix2 p (0 : Fin 1))) = _
  refine congrArg _ (funext fun a => Fin.ext ?_)
  obtain ⟨-, ⟨e0, e1⟩, -⟩ := idx_facts t
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

theorem rd2 (c : Dev nD) (t : Fin cfg0.N) (p : Fin 2000) (k : Fin 128) :
    iblk0 V c 2 t (ix2 p k) = V c main_v34 (ix2 (row t p) k) := by
  show V c main_v34 (((cfg0.win 2).blk t).view.emb (ix2 p k)) = _
  refine congrArg _ (funext fun a => Fin.ext ?_)
  obtain ⟨-, -, ⟨e0, e1⟩, -⟩ := idx_facts t
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

theorem rd3 (c : Dev nD) (t : Fin cfg0.N) (p : Fin 2000) :
    iblk0 V c 3 t (ix2 p (0 : Fin 1)) = V c main_v21 (ix2 (row t p) (0 : Fin 1)) := by
  show V c main_v21 (((cfg0.win 3).blk t).view.emb (ix2 p (0 : Fin 1))) = _
  refine congrArg _ (funext fun a => Fin.ext ?_)
  obtain ⟨-, -, -, ⟨e0, e1⟩, -⟩ := idx_facts t
  match a with
  | ⟨0, _⟩ => show win0_3.index t (0 : Fin 2) * 2000 + 1 * p.val = t.val * 2000 + p.val; rw [e0]; omega
  | ⟨1, _⟩ => show win0_3.index t (1 : Fin 2) * 1 + 1 * 0 = 0; rw [e1]

theorem rd4 (c : Dev nD) (t : Fin cfg0.N) (p : Fin 2000) (k : Fin 128) :
    iblk0 V c 4 t (ix2 p k) = V c main_arg0 (ix2 (row t p) k) := by
  show V c main_arg0 (((cfg0.win 4).blk t).view.emb (ix2 p k)) = _
  refine congrArg _ (funext fun a => Fin.ext ?_)
  obtain ⟨-, -, -, -, ⟨e0, e1⟩, -⟩ := idx_facts t
  match a with
  | ⟨0, _⟩ => show win0_4.index t (0 : Fin 2) * 2000 + 1 * p.val = t.val * 2000 + p.val; rw [e0]; omega
  | ⟨1, _⟩ => show win0_4.index t (1 : Fin 2) * 128 + 1 * k.val = k.val; rw [e1]; omega

theorem rd5 (c : Dev nD) (t : Fin cfg0.N) (k : Fin 128) (q : Fin 256) :
    iblk0 V c 5 t (ix2 k q) = V c main_v41 (ix2 k q) := by
  show V c main_v41 (((cfg0.win 5).blk t).view.emb (ix2 k q)) = _
  refine congrArg _ (funext fun a => Fin.ext ?_)
  obtain ⟨-, -, -, -, -, ⟨e0, e1⟩, -⟩ := idx_facts t
  match a with
  | ⟨0, _⟩ => show win0_5.index t (0 : Fin 2) * 128 + 1 * k.val = k.val; rw [e0]; omega
  | ⟨1, _⟩ => show win0_5.index t (1 : Fin 2) * 256 + 1 * q.val = q.val; rw [e1]; omega

theorem rd6 (c : Dev nD) (t : Fin cfg0.N) (k : Fin 128) (q : Fin 256) :
    iblk0 V c 6 t (ix2 k q) = V c main_v42 (ix2 k q) := by
  show V c main_v42 (((cfg0.win 6).blk t).view.emb (ix2 k q)) = _
  refine congrArg _ (funext fun a => Fin.ext ?_)
  obtain ⟨-, -, -, -, -, -, ⟨e0, e1⟩, -⟩ := idx_facts t
  match a with
  | ⟨0, _⟩ => show win0_6.index t (0 : Fin 2) * 128 + 1 * k.val = k.val; rw [e0]; omega
  | ⟨1, _⟩ => show win0_6.index t (1 : Fin 2) * 256 + 1 * q.val = q.val; rw [e1]; omega

theorem rd7 (c : Dev nD) (t : Fin cfg0.N) (k : Fin 128) (q : Fin 256) :
    iblk0 V c 7 t (ix2 k q) = V c main_v43 (ix2 k q) := by
  show V c main_v43 (((cfg0.win 7).blk t).view.emb (ix2 k q)) = _
  refine congrArg _ (funext fun a => Fin.ext ?_)
  obtain ⟨-, -, -, -, -, -, -, ⟨e0, e1⟩, -⟩ := idx_facts t
  match a with
  | ⟨0, _⟩ => show win0_7.index t (0 : Fin 2) * 128 + 1 * k.val = k.val; rw [e0]; omega
  | ⟨1, _⟩ => show win0_7.index t (1 : Fin 2) * 256 + 1 * q.val = q.val; rw [e1]; omega

theorem rd8 (c : Dev nD) (t : Fin cfg0.N) (q : Fin 256) :
    iblk0 V c 8 t (ix2 (0 : Fin 1) q) = V c main_v44 (ix2 (0 : Fin 1) q) := by
  show V c main_v44 (((cfg0.win 8).blk t).view.emb (ix2 (0 : Fin 1) q)) = _
  refine congrArg _ (funext fun a => Fin.ext ?_)
  obtain ⟨-, -, -, -, -, -, -, -, ⟨e0, e1⟩, -⟩ := idx_facts t
  match a with
  | ⟨0, _⟩ => show win0_8.index t (0 : Fin 2) * 1 + 1 * 0 = 0; rw [e0]
  | ⟨1, _⟩ => show win0_8.index t (1 : Fin 2) * 256 + 1 * q.val = q.val; rw [e1]; omega

/-- Where element `(p, q)` of the output block at point `t` sits in the output array. -/
theorem emb9 (t : Fin cfg0.N) (p : Fin 2000) (q : Fin 256) :
    ((cfg0.win 9).blk t).view.emb (ix2 p q) = ix2 (row t p) q := by
  refine funext fun a => Fin.ext ?_
  obtain ⟨-, -, -, -, -, -, -, -, -, ⟨e0, e1⟩⟩ := idx_facts t
  match a with
  | ⟨0, _⟩ => show win0_9.index t (0 : Fin 2) * 2000 + 1 * p.val = t.val * 2000 + p.val; rw [e0]; omega
  | ⟨1, _⟩ => show win0_9.index t (1 : Fin 2) * 256 + 1 * q.val = q.val; rw [e1]; omega

/-- WHAT POINT `t` WRITES BACK is block `t` of the two-edge-type update of the region's operand arrays. -/
theorem flushed_eq (c : Dev nD) (t : Fin cfg0.N) :
    (dat0 V c).flushed 9 t = ((cfg0.win 9).blk t).view.read (Elt Ideal)
      (upd2 (V c main_v30) (V c main_v16) (V c main_v34) (V c main_v21) (V c main_arg0) (V c main_v41) (V c main_v42) (V c main_v43) (V c main_v44)) := by
  show (cfg0.win 9).cut (grid0.coords t) ((dat0 V c).after 9 t) = _
  rw [after0_9]
  unfold out0_9
  rw [View.canon_unit_zero hz]
  simp only [View.ld_unit_zero (S := S2000x128) hz, View.ld_unit_zero (S := S2000x1) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = upd2 (V c main_v30) (V c main_v16) (V c main_v34) (V c main_v21) (V c main_arg0) (V c main_v41) (V c main_v42) (V c main_v43) (V c main_v44) (((cfg0.win 9).blk t).view.emb (ix2 p q))
  rw [emb9, upd2_apply]
  refine (pay0_apply _ _ _ _ _ _ _ _ _ p q).trans ?_
  simp only [rd0, rd1, rd2, rd3, rd4, rd5, rd6, rd7, rd8]

theorem mem_blk (t : Fin cfg0.N) (i : S100000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v45).slice (win0_9.rect t)).set ↔ _
  rw [View.set_slice_whole, Rect.mem_set_unit]
  exact Iff.rfl

/-- Every row of the output array lies in the block of the point `row / 2000`. -/
theorem cover (i : S100000x256.Idx) :
    ∃ t : Fin cfg0.N, (cfg0.win 9).flush t = true ∧ i ∈ ((cfg0.win 9).blk t).view.set := by
  have hi0 : (i 0).val < 100000 := (i 0).isLt
  have hi1 : (i 1).val < 256 := (i 1).isLt
  have h50 : cfg0.N = 50 := N_0
  refine ⟨⟨(i 0).val / 2000, by omega⟩, flush0_9 _, ?_⟩
  rw [mem_blk]
  obtain ⟨-, -, -, -, -, -, -, -, -, ⟨e0, e1⟩⟩ := idx_facts ⟨(i 0).val / 2000, by omega⟩
  intro a
  match a with
  | ⟨0, _⟩ =>
    show win0_9.index _ (0 : Fin 2) * 2000 ≤ (i 0).val ∧ (i 0).val < win0_9.index _ (0 : Fin 2) * 2000 + 2000
    rw [e0]; show (i 0).val / 2000 * 2000 ≤ (i 0).val ∧ (i 0).val < (i 0).val / 2000 * 2000 + 2000; omega
  | ⟨1, _⟩ =>
    show win0_9.index _ (1 : Fin 2) * 256 ≤ (i 1).val ∧ (i 1).val < win0_9.index _ (1 : Fin 2) * 256 + 256
    rw [e1]; omega

/-- THE ARRAY after the region: the two-edge-type update of the operand arrays as the region finds them. -/
theorem final (c : Dev nD) :
    (dat0 V c).arrAt 9 cfg0.N = upd2 (V c main_v30) (V c main_v16) (V c main_v34) (V c main_v21) (V c main_arg0) (V c main_v41) (V c main_v42) (V c main_v43) (V c main_v44) :=
  (dat0 V c).arrAt_eq_of_cover 9 _ (fun t _ => flushed_eq V c t) cover

end R0

end Cert.Hgs

end
-- ==== Proof.Region1.lean ====
/-
  Region 1 (the first layer's update of the 50000 "author" rows): what its output array holds after the region.

  The region walks 25 grid points.  At point `t` it takes rows 2000 t … 2000 t + 1999 of the three row-tiled operands (the
  neighbour sums of the single incoming edge type, the column of inverse neighbour counts, and the rows' own features),
  takes the two weight arrays and the bias row whole, and writes the same 2000 rows of the output.  With the two matrix
  products spelled out as sums over the 128 contracted columns, element (p, q) of the block point `t` stores is the
  one-edge-type update `upd1` at row 2000 t + p and column q.  The 25 blocks are disjoint and together make up all 50000
  rows, so when the region ends the output array is `upd1` of the operand arrays as the region found them.
-/
import proofs.«401098_j77403900609229_3_alg».proof.Proof.Gen.KernelIdeal.Frame
import proofs.«401098_j77403900609229_3_alg».proof.Proof.Spec
import proofs.«401098_j77403900609229_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Hgs

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts Cert.Lib

namespace R1

variable (V : (c : Dev nD) → (b : Ref sig .tc) → Buf (Elt Ideal) ((c : Thread nD τ).loc b))

/-- The offset (0, 0) of every access of the body is the zero offset. -/
theorem hz : (![0, 0] : Fin 2 → Nat) = fun _ => 0 := funext fun a => by fin_cases a <;> rfl

/-! The contraction of the body pairs column `k` of the left factor with row `k` of the right one: of an output index
    (p, q) and a contracted index k, the left factor is read at (p, k) and the right factor at (k, q).  Axis by axis: -/

theorem lhs_D1_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_D1_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_D1_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_D1_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A matrix product of the body accumulated onto zero, read at `(p, q)`: the sum over the 128 contracted columns of
    left entry (p, k) times right entry (k, q). -/
theorem dot1_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_D1_0 _ _
    | ⟨1, _⟩ => exact (lhs_D1_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_D1_0 _ _).trans hk
    | ⟨1, _⟩ => exact rhs_D1_1 _ _)
  rw [el, er]

/-- The value the body stores, at `(p, q)` of its block, in terms of the blocks it loaded: the neighbour sums of row `p`
    scaled by that row's inverse count and contracted with the first weight array, plus the row's own features contracted
    with the second, plus the bias of column `q`, clamped below at zero. -/
theorem pay1_apply (v0 : Vec Ideal S2000x128 .f32) (v2 : Vec Ideal S2000x1 .f32) (v7 : Vec Ideal S2000x128 .f32)
    (v9 v12 : Vec Ideal S128x256 .bf16) (v16 : Vec Ideal S1x256 .f32) (p : Fin 2000) (q : Fin 256) :
    k1_pay1 v0 v2 v7 v9 v12 v16 (ix2 p q)
      = max (((∑ k : Fin 128, (v0 (ix2 p k) * v2 (ix2 p 0)) * v9 (ix2 k q))
        + ∑ k : Fin 128, v7 (ix2 p k) * v12 (ix2 k q)) + v16 (ix2 0 q)) 0 := by
  unfold k1_pay1
  simp only [maximumf_apply, addf_apply, dot1_apply, mulf_apply, truncf_apply, shapeCast_self, broadcast_apply,
    broadcastTo_a1_ab_apply, broadcastTo_1b_ab_apply]
  exact congrArg (max _) Ideal.ofBits_zero_f32

/-- Row `p` of the block of point `t` is row `2000 t + p` of the array. -/
def row (t : Fin cfg1.N) (p : Fin 2000) : Fin 50000 :=
  ⟨t.val * 2000 + p.val, by have h := t.isLt; have h25 : cfg1.N = 25 := N_1; have := p.isLt; omega⟩

/-- The block indices over the 25 points: a row-tiled window (the three per-row operands and the output) is at block `t`
    along the rows and block 0 along the columns; the two weight windows and the bias window stay at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The neighbour-sum block of point `t`: rows `2000 t …` of the neighbour-sum array, all 128 columns. -/
theorem rd0 (c : Dev nD) (t : Fin cfg1.N) (p : Fin 2000) (k : Fin 128) :
    iblk1 V c 0 t (ix2 p k) = V c main_v38 (ix2 (row t p) k) := by
  show V c main_v38 (((cfg1.win 0).blk t).view.emb (ix2 p k)) = _
  refine congrArg _ (funext fun a => Fin.ext ?_)
  obtain ⟨⟨e0, e1⟩, -⟩ := idx_facts t
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The inverse-count block of point `t`: the same rows of the one-column array. -/
theorem rd1 (c : Dev nD) (t : Fin cfg1.N) (p : Fin 2000) :
    iblk1 V c 1 t (ix2 p (0 : Fin 1)) = V c main_v26 (ix2 (row t p) (0 : Fin 1)) := by
  show V c main_v26 (((cfg1.win 1).blk t).view.emb (ix2 p (0 : Fin 1))) = _
  refine congrArg _ (funext fun a => Fin.ext ?_)
  obtain ⟨-, ⟨e0, e1⟩, -⟩ := idx_facts t
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The own-feature block of point `t`: the same rows of the feature array. -/
theorem rd2 (c : Dev nD) (t : Fin cfg1.N) (p : Fin 2000) (k : Fin 128) :
    iblk1 V c 2 t (ix2 p k) = V c main_arg1 (ix2 (row t p) k) := by
  show V c main_arg1 (((cfg1.win 2).blk t).view.emb (ix2 p k)) = _
  refine congrArg _ (funext fun a => Fin.ext ?_)
  obtain ⟨-, -, ⟨e0, e1⟩, -⟩ := idx_facts t
  match a with
  | ⟨0, _⟩ => show win1_2.index t (0 : Fin 2) * 2000 + 1 * p.val = t.val * 2000 + p.val; rw [e0]; omega
  | ⟨1, _⟩ => show win1_2.index t (1 : Fin 2) * 128 + 1 * k.val = k.val; rw [e1]; omega

/-- The first weight window is the whole array at every point. -/
theorem rd3 (c : Dev nD) (t : Fin cfg1.N) (k : Fin 128) (q : Fin 256) :
    iblk1 V c 3 t (ix2 k q) = V c main_v46 (ix2 k q) := by
  show V c main_v46 (((cfg1.win 3).blk t).view.emb (ix2 k q)) = _
  refine congrArg _ (funext fun a => Fin.ext ?_)
  obtain ⟨-, -, -, ⟨e0, e1⟩, -⟩ := idx_facts t
  match a with
  | ⟨0, _⟩ => show win1_3.index t (0 : Fin 2) * 128 + 1 * k.val = k.val; rw [e0]; omega
  | ⟨1, _⟩ => show win1_3.index t (1 : Fin 2) * 256 + 1 * q.val = q.val; rw [e1]; omega

/-- So is the second weight window. -/
theorem rd4 (c : Dev nD) (t : Fin cfg1.N) (k : Fin 128) (q : Fin 256) :
    iblk1 V c 4 t (ix2 k q) = V c main_v47 (ix2 k q) := by
  show V c main_v47 (((cfg1.win 4).blk t).view.emb (ix2 k q)) = _
  refine congrArg _ (funext fun a => Fin.ext ?_)
  obtain ⟨-, -, -, -, ⟨e0, e1⟩, -⟩ := idx_facts t
  match a with
  | ⟨0, _⟩ => show win1_4.index t (0 : Fin 2) * 128 + 1 * k.val = k.val; rw [e0]; omega
  | ⟨1, _⟩ => show win1_4.index t (1 : Fin 2) * 256 + 1 * q.val = q.val; rw [e1]; omega

/-- And the bias window is the whole bias row. -/
theorem rd5 (c : Dev nD) (t : Fin cfg1.N) (q : Fin 256) :
    iblk1 V c 5 t (ix2 (0 : Fin 1) q) = V c main_v48 (ix2 (0 : Fin 1) q) := by
  show V c main_v48 (((cfg1.win 5).blk t).view.emb (ix2 (0 : Fin 1) q)) = _
  refine congrArg _ (funext fun a => Fin.ext ?_)
  obtain ⟨-, -, -, -, -, ⟨e0, e1⟩, -⟩ := idx_facts t
  match a with
  | ⟨0, _⟩ => show win1_5.index t (0 : Fin 2) * 1 + 1 * 0 = 0; rw [e0]
  | ⟨1, _⟩ => show win1_5.index t (1 : Fin 2) * 256 + 1 * q.val = q.val; rw [e1]; omega

/-- Element `(p, q)` of the output block of point `t` sits at row `2000 t + p`, column `q` of the output array. -/
theorem emb6 (t : Fin cfg1.N) (p : Fin 2000) (q : Fin 256) :
    ((cfg1.win 6).blk t).view.emb (ix2 p q) = ix2 (row t p) q := by
  refine funext fun a => Fin.ext ?_
  obtain ⟨-, -, -, -, -, -, ⟨e0, e1⟩⟩ := idx_facts t
  match a with
  | ⟨0, _⟩ => show win1_6.index t (0 : Fin 2) * 2000 + 1 * p.val = t.val * 2000 + p.val; rw [e0]; omega
  | ⟨1, _⟩ => show win1_6.index t (1 : Fin 2) * 256 + 1 * q.val = q.val; rw [e1]; omega

/-- WHAT POINT `t` WRITES BACK is block `t` of the one-edge-type update of the region's operand arrays. -/
theorem flushed_eq (c : Dev nD) (t : Fin cfg1.N) :
    (dat1 V c).flushed 6 t = ((cfg1.win 6).blk t).view.read (Elt Ideal)
      (upd1 (V c main_v38) (V c main_v26) (V c main_arg1) (V c main_v46) (V c main_v47) (V c main_v48)) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = upd1 (V c main_v38) (V c main_v26) (V c main_arg1) (V c main_v46) (V c main_v47) (V c main_v48) (((cfg1.win 6).blk t).view.emb (ix2 p q))
  rw [emb6, upd1_apply]
  refine (pay1_apply _ _ _ _ _ _ p q).trans ?_
  simp only [rd0, rd1, rd2, rd3, rd4, rd5]

/-- Membership in the output block of point `t`, axis by axis: between the block's first index and its last. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v49).slice (win1_6.rect t)).set ↔ _
  rw [View.set_slice_whole, Rect.mem_set_unit]
  exact Iff.rfl

/-- Every index of the output array lies in the block of the point `row / 2000`, which is one of the 25 because the
    array has 50000 = 25 · 2000 rows; and every point writes its block back. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have h25 : cfg1.N = 25 := N_1
  refine ⟨⟨(i 0).val / 2000, by omega⟩, flush1_6 _, ?_⟩
  rw [mem_blk]
  obtain ⟨-, -, -, -, -, -, ⟨e0, e1⟩⟩ := idx_facts ⟨(i 0).val / 2000, by omega⟩
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 256 ≤ (i 1).val ∧ (i 1).val < win1_6.index _ (1 : Fin 2) * 256 + 256
    rw [e1]; omega

/-- THE ARRAY after the region: the one-edge-type update of the operand arrays as the region finds them. -/
theorem final (c : Dev nD) :
    (dat1 V c).arrAt 6 cfg1.N = upd1 (V c main_v38) (V c main_v26) (V c main_arg1) (V c main_v46) (V c main_v47) (V c main_v48) :=
  (dat1 V c).arrAt_eq_of_cover 6 _ (fun t _ => flushed_eq V c t) cover

end R1

end Cert.Hgs

end
-- ==== Proof.Region2.lean ====
/-
  Region 2 (the second layer's update of the 100000 "paper" rows, followed at once by the output layer): what its
  output array holds after the region.

  The region walks 50 grid points; point `t` reads rows 2000 t … 2000 t + 1999 of each row-tiled operand (the two
  neighbour-sum arrays of width 256, each with its column of inverse counts, and the rows' own hidden features from the
  first layer), reads whole the three 256 × 256 weight arrays with their bias row and the 256 × 349 output weights with
  their bias row, and writes the same rows of the 349-column output.  Inside one point nothing is stored between the two
  layers: the hidden activation of a row — the three matrix products written as sums over the 256 contracted columns,
  plus the bias, clamped at zero, which is the two-edge-type update `upd2` at row 2000 t + p — is contracted straight
  away with the output weights and the output bias added, which is `head` of that update.  The blocks of the 50 points
  cover the output array, so the array ends holding `head (upd2 …)` of the operand arrays as the region finds them.
-/
import proofs.«401098_j77403900609229_3_alg».proof.Proof.Gen.KernelIdeal.Frame
import proofs.«401098_j77403900609229_3_alg».proof.Proof.Spec
import proofs.«401098_j77403900609229_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Hgs

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.KernelIdeal.Facts Cert.Lib

namespace R2

variable (V : (c : Dev nD) → (b : Ref sig .tc) → Buf (Elt Ideal) ((c : Thread nD τ).loc b))

theorem hz : (![0, 0] : Fin 2 → Nat) = fun _ => 0 := funext fun a => by fin_cases a <;> rfl

/-! The hidden layer's contraction, [2000, 256] by [256, 256]: the left operand's index takes its row from the output
    index and its column from the contracted index; the right operand's takes its row from the contracted index and its
    column from the output index. -/

theorem lhs_H_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_H_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_H_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_H_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! The output layer's contraction, [2000, 256] by [256, 349]: the same four facts, the output index now ranging over 349
    columns. -/

theorem lhs_O_0 (i : S2000x349.Idx) (q : dot_S2000x256_S256x349_S2000x349_1_0_0_1_n_n.contr.Idx) :
    (dot_S2000x256_S256x349_S2000x349_1_0_0_1_n_n.lhsIdx i q 0).val = (i 0).val := by
  unfold DotDims.lhsIdx
  rw [dif_neg (show ¬(0 : Fin S2000x256.rank) ∈ dot_S2000x256_S256x349_S2000x349_1_0_0_1_n_n.lhsBatch by decide), dif_pos (show (0 : Fin S2000x256.rank) ∈ dot_S2000x256_S256x349_S2000x349_1_0_0_1_n_n.lhsNonContracting by decide)]
  rfl
theorem lhs_O_1 (i : S2000x349.Idx) (q : dot_S2000x256_S256x349_S2000x349_1_0_0_1_n_n.contr.Idx) :
    (dot_S2000x256_S256x349_S2000x349_1_0_0_1_n_n.lhsIdx i q 1).val = (q ⟨0, by decide⟩).val :=
  dot_S2000x256_S256x349_S2000x349_1_0_0_1_n_n.lhsIdx_val_of_single rfl i q
theorem rhs_O_0 (i : S2000x349.Idx) (q : dot_S2000x256_S256x349_S2000x349_1_0_0_1_n_n.contr.Idx) :
    (dot_S2000x256_S256x349_S2000x349_1_0_0_1_n_n.rhsIdx i q 0).val = (q ⟨0, by decide⟩).val :=
  dot_S2000x256_S256x349_S2000x349_1_0_0_1_n_n.rhsIdx_val_of_single rfl i q
theorem rhs_O_1 (i : S2000x349.Idx) (q : dot_S2000x256_S256x349_S2000x349_1_0_0_1_n_n.contr.Idx) :
    (dot_S2000x256_S256x349_S2000x349_1_0_0_1_n_n.rhsIdx i q 1).val = (i 1).val := by
  unfold DotDims.rhsIdx
  rw [dif_neg (show ¬(1 : Fin S256x349.rank) ∈ dot_S2000x256_S256x349_S2000x349_1_0_0_1_n_n.rhsBatch by decide), dif_pos (show (1 : Fin S256x349.rank) ∈ dot_S2000x256_S256x349_S2000x349_1_0_0_1_n_n.rhsNonContracting by decide)]
  rfl

/-- One matmul of the hidden layer into a zero accumulator, at `(p, q)`: the sum over the 256 contracted columns. -/
theorem dotH_apply (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_H_0 _ _
    | ⟨1, _⟩ => exact (lhs_H_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_H_0 _ _).trans hk
    | ⟨1, _⟩ => exact rhs_H_1 _ _)
  rw [el, er]

/-- The output layer's matmul into a zero accumulator, at `(p, q)`: the sum over the 256 hidden columns. -/
theorem dotO_apply (l : FVec Ideal S2000x256 .bf16) (r : FVec Ideal S256x349 .bf16) (p : Fin 2000) (q : Fin 349) :
    matmul dot_S2000x256_S256x349_S2000x349_1_0_0_1_n_n none l r (constant S2000x349 .f32 0x00000000#32) (ix2 p q)
      = ∑ k : Fin 256, l (ix2 p k) * r (ix2 k q) := by
  simp only [matmul]
  rw [Ideal.matmul_constant_zero_apply, ← Equiv.sum_comp (contrEquiv1 dot_S2000x256_S256x349_S2000x349_1_0_0_1_n_n 256 rfl rfl).symm]
  refine Finset.sum_congr rfl fun k _ => ?_
  have hk := contrEquiv1_symm_val dot_S2000x256_S256x349_S2000x349_1_0_0_1_n_n 256 rfl rfl k
  have el : dot_S2000x256_S256x349_S2000x349_1_0_0_1_n_n.lhsIdx (ix2 p q) ((contrEquiv1 dot_S2000x256_S256x349_S2000x349_1_0_0_1_n_n 256 rfl rfl).symm k) = ix2 p k := funext fun a => Fin.ext (by
    match a with
    | ⟨0, _⟩ => exact lhs_O_0 _ _
    | ⟨1, _⟩ => exact (lhs_O_1 _ _).trans hk)
  have er : dot_S2000x256_S256x349_S2000x349_1_0_0_1_n_n.rhsIdx (ix2 p q) ((contrEquiv1 dot_S2000x256_S256x349_S2000x349_1_0_0_1_n_n 256 rfl rfl).symm k) = ix2 k q := funext fun a => Fin.ext (by
    match a with
    | ⟨0, _⟩ => exact (rhs_O_0 _ _).trans hk
    | ⟨1, _⟩ => exact rhs_O_1 _ _)
  rw [el, er]

/-- The hidden activation at `(p, k)` of the block, from the loaded blocks: each neighbour sum scaled by its row's inverse
    count and contracted with its weights, the own features contracted with theirs, the bias, the clamp at zero (the
    narrowing to the shorter float format at the end reads as the identity on ideal values). -/
theorem pay2_apply (v0 : Vec Ideal S2000x256 .f32) (v2 : Vec Ideal S2000x1 .f32) (v7 : Vec Ideal S2000x256 .f32) (v9 : Vec Ideal S2000x1 .f32)
    (v14 : Vec Ideal S2000x256 .f32) (v17 v20 v24 : Vec Ideal S256x256 .bf16) (v28 : Vec Ideal S1x256 .f32) (p : Fin 2000) (k : Fin 256) :
    k2_pay2 v0 v2 v7 v9 v14 v17 v20 v24 v28 (ix2 p k)
      = max ((((∑ j : Fin 256, (v0 (ix2 p j) * v2 (ix2 p 0)) * v17 (ix2 j k))
        + ∑ j : Fin 256, (v7 (ix2 p j) * v9 (ix2 p 0)) * v20 (ix2 j k))
        + ∑ j : Fin 256, v14 (ix2 p j) * v24 (ix2 j k)) + v28 (ix2 0 k)) 0 := by
  unfold k2_pay2
  simp only [maximumf_apply, addf_apply, dotH_apply, mulf_apply, truncf_apply, shapeCast_self, broadcast_apply,
    broadcastTo_a1_ab_apply, broadcastTo_1b_ab_apply]
  exact congrArg (max _) Ideal.ofBits_zero_f32

/-- The output layer at `(p, q)` of the block, from a hidden block `h`: one contraction over the 256 hidden columns
    plus the output bias of column `q`. -/
theorem pay1_apply (h : FVec Ideal S2000x256 .bf16) (v35 : Vec Ideal S256x349 .bf16) (v38 : Vec Ideal S1x349 .f32) (p : Fin 2000) (q : Fin 349) :
    k2_pay1 h v35 v38 (ix2 p q) = (∑ k : Fin 256, h (ix2 p k) * v35 (ix2 k q)) + v38 (ix2 0 q) := by
  unfold k2_pay1
  simp only [addf_apply, dotO_apply, shapeCast_self, broadcastTo_1b_ab_apply]

/-- The body's stored value at `(p, q)` of its block: the output layer applied to the hidden activation of row `p`. -/
theorem pay_apply (v0 : Vec Ideal S2000x256 .f32) (v2 : Vec Ideal S2000x1 .f32) (v7 : Vec Ideal S2000x256 .f32) (v9 : Vec Ideal S2000x1 .f32)
    (v14 : Vec Ideal S2000x256 .f32) (v17 v20 v24 : Vec Ideal S256x256 .bf16) (v28 : Vec Ideal S1x256 .f32)
    (v35 : Vec Ideal S256x349 .bf16) (v38 : Vec Ideal S1x349 .f32) (p : Fin 2000) (q : Fin 349) :
    k2_pay1 (k2_pay2 v0 v2 v7 v9 v14 v17 v20 v24 v28) v35 v38 (ix2 p q)
      = (∑ k : Fin 256, max ((((∑ j : Fin 256, (v0 (ix2 p j) * v2 (ix2 p 0)) * v17 (ix2 j k))
        + ∑ j : Fin 256, (v7 (ix2 p j) * v9 (ix2 p 0)) * v20 (ix2 j k))
        + ∑ j : Fin 256, v14 (ix2 p j) * v24 (ix2 j k)) + v28 (ix2 0 k)) 0 * v35 (ix2 k q)) + v38 (ix2 0 q) := by
  rw [pay1_apply]
  simp only [pay2_apply]

/-- Row `p` of block `t` is row `2000 t + p` of the array. -/
def row (t : Fin cfg2.N) (p : Fin 2000) : Fin 100000 :=
  ⟨t.val * 2000 + p.val, by have h := t.isLt; have h50 : cfg2.N = 50 := N_2; have := p.isLt; omega⟩

/-- The index maps over the grid: a row-tiled window's block index is the grid point on the row axis and zero on the column
    axis; a weight or bias window is always block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-! The eleven input blocks, read element by element off their arrays. -/

theorem rd0 (c : Dev nD) (t : Fin cfg2.N) (p : Fin 2000) (j : Fin 256) :
    iblk2 V c 0 t (ix2 p j) = V c main_v53 (ix2 (row t p) j) := by
  show V c main_v53 (((cfg2.win 0).blk t).view.emb (ix2 p j)) = _
  refine congrArg _ (funext fun a => Fin.ext ?_)
  obtain ⟨⟨e0, e1⟩, -⟩ := idx_facts t
  match a with
  | ⟨0, _⟩ => show win2_0.index t (0 : Fin 2) * 2000 + 1 * p.val = t.val * 2000 + p.val; rw [e0]; omega
  | ⟨1, _⟩ => show win2_0.index t (1 : Fin 2) * 256 + 1 * j.val = j.val; rw [e1]; omega

theorem rd1 (c : Dev nD) (t : Fin cfg2.N) (p : Fin 2000) :
    iblk2 V c 1 t (ix2 p (0 : Fin 1)) = V c main_v16 (ix2 (row t p) (0 : Fin 1)) := by
  show V c main_v16 (((cfg2.win 1).blk t).view.emb (ix2 p (0 : Fin 1))) = _
  refine congrArg _ (funext fun a => Fin.ext ?_)
  obtain ⟨-, ⟨e0, e1⟩, -⟩ := idx_facts t
  match a with
  | ⟨0, _⟩ => show win2_1.index t (0 : Fin 2) * 2000 + 1 * p.val = t.val * 2000 + p.val; rw [e0]; omega
  | ⟨1, _⟩ => show win2_1.index t (1 : Fin 2) * 1 + 1 * 0 = 0; rw [e1]

theorem rd2 (c : Dev nD) (t : Fin cfg2.N) (p : Fin 2000) (j : Fin 256) :
    iblk2 V c 2 t (ix2 p j) = V c main_v57 (ix2 (row t p) j) := by
  show V c main_v57 (((cfg2.win 2).blk t).view.emb (ix2 p j)) = _
  refine congrArg _ (funext fun a => Fin.ext ?_)
  obtain ⟨-, -, ⟨e0, e1⟩, -⟩ := idx_facts t
  match a with
  | ⟨0, _⟩ => show win2_2.index t (0 : Fin 2) * 2000 + 1 * p.val = t.val * 2000 + p.val; rw [e0]; omega
  | ⟨1, _⟩ => show win2_2.index t (1 : Fin 2) * 256 + 1 * j.val = j.val; rw [e1]; omega

theorem rd3 (c : Dev nD) (t : Fin cfg2.N) (p : Fin 2000) :
    iblk2 V c 3 t (ix2 p (0 : Fin 1)) = V c main_v21 (ix2 (row t p) (0 : Fin 1)) := by
  show V c main_v21 (((cfg2.win 3).blk t).view.emb (ix2 p (0 : Fin 1))) = _
  refine congrArg _ (funext fun a => Fin.ext ?_)
  obtain ⟨-, -, -, ⟨e0, e1⟩, -⟩ := idx_facts t
  match a with
  | ⟨0, _⟩ => show win2_3.index t (0 : Fin 2) * 2000 + 1 * p.val = t.val * 2000 + p.val; rw [e0]; omega
  | ⟨1, _⟩ => show win2_3.index t (1 : Fin 2) * 1 + 1 * 0 = 0; rw [e1]

theorem rd4 (c : Dev nD) (t : Fin cfg2.N) (p : Fin 2000) (j : Fin 256) :
    iblk2 V c 4 t (ix2 p j) = V c main_v45 (ix2 (row t p) j) := by
  show V c main_v45 (((cfg2.win 4).blk t).view.emb (ix2 p j)) = _
  refine congrArg _ (funext fun a => Fin.ext ?_)
  obtain ⟨-, -, -, -, ⟨e0, e1⟩, -⟩ := idx_facts t
  match a with
  | ⟨0, _⟩ => show win2_4.index t (0 : Fin 2) * 2000 + 1 * p.val = t.val * 2000 + p.val; rw [e0]; omega
  | ⟨1, _⟩ => show win2_4.index t (1 : Fin 2) * 256 + 1 * j.val = j.val; rw [e1]; omega

theorem rd5 (c : Dev nD) (t : Fin cfg2.N) (j : Fin 256) (k : Fin 256) :
    iblk2 V c 5 t (ix2 j k) = V c main_v60 (ix2 j k) := by
  show V c main_v60 (((cfg2.win 5).blk t).view.emb (ix2 j k)) = _
  refine congrArg _ (funext fun a => Fin.ext ?_)
  obtain ⟨-, -, -, -, -, ⟨e0, e1⟩, -⟩ := idx_facts t
  match a with
  | ⟨0, _⟩ => show win2_5.index t (0 : Fin 2) * 256 + 1 * j.val = j.val; rw [e0]; omega
  | ⟨1, _⟩ => show win2_5.index t (1 : Fin 2) * 256 + 1 * k.val = k.val; rw [e1]; omega

theorem rd6 (c : Dev nD) (t : Fin cfg2.N) (j : Fin 256) (k : Fin 256) :
    iblk2 V c 6 t (ix2 j k) = V c main_v61 (ix2 j k) := by
  show V c main_v61 (((cfg2.win 6).blk t).view.emb (ix2 j k)) = _
  refine congrArg _ (funext fun a => Fin.ext ?_)
  obtain ⟨-, -, -, -, -, -, ⟨e0, e1⟩, -⟩ := idx_facts t
  match a with
  | ⟨0, _⟩ => show win2_6.index t (0 : Fin 2) * 256 + 1 * j.val = j.val; rw [e0]; omega
  | ⟨1, _⟩ => show win2_6.index t (1 : Fin 2) * 256 + 1 * k.val = k.val; rw [e1]; omega

theorem rd7 (c : Dev nD) (t : Fin cfg2.N) (j : Fin 256) (k : Fin 256) :
    iblk2 V c 7 t (ix2 j k) = V c main_v62 (ix2 j k) := by
  show V c main_v62 (((cfg2.win 7).blk t).view.emb (ix2 j k)) = _
  refine congrArg _ (funext fun a => Fin.ext ?_)
  obtain ⟨-, -, -, -, -, -, -, ⟨e0, e1⟩, -⟩ := idx_facts t
  match a with
  | ⟨0, _⟩ => show win2_7.index t (0 : Fin 2) * 256 + 1 * j.val = j.val; rw [e0]; omega
  | ⟨1, _⟩ => show win2_7.index t (1 : Fin 2) * 256 + 1 * k.val = k.val; rw [e1]; omega

theorem rd8 (c : Dev nD) (t : Fin cfg2.N) (k : Fin 256) :
    iblk2 V c 8 t (ix2 (0 : Fin 1) k) = V c main_v64 (ix2 (0 : Fin 1) k) := by
  show V c main_v64 (((cfg2.win 8).blk t).view.emb (ix2 (0 : Fin 1) k)) = _
  refine congrArg _ (funext fun a => Fin.ext ?_)
  obtain ⟨-, -, -, -, -, -, -, -, ⟨e0, e1⟩, -⟩ := idx_facts t
  match a with
  | ⟨0, _⟩ => show win2_8.index t (0 : Fin 2) * 1 + 1 * 0 = 0; rw [e0]
  | ⟨1, _⟩ => show win2_8.index t (1 : Fin 2) * 256 + 1 * k.val = k.val; rw [e1]; omega

theorem rd9 (c : Dev nD) (t : Fin cfg2.N) (k : Fin 256) (q : Fin 349) :
    iblk2 V c 9 t (ix2 k q) = V c main_v63 (ix2 k q) := by
  show V c main_v63 (((cfg2.win 9).blk t).view.emb (ix2 k q)) = _
  refine congrArg _ (funext fun a => Fin.ext ?_)
  obtain ⟨-, -, -, -, -, -, -, -, -, ⟨e0, e1⟩, -⟩ := idx_facts t
  match a with
  | ⟨0, _⟩ => show win2_9.index t (0 : Fin 2) * 256 + 1 * k.val = k.val; rw [e0]; omega
  | ⟨1, _⟩ => show win2_9.index t (1 : Fin 2) * 349 + 1 * q.val = q.val; rw [e1]; omega

theorem rd10 (c : Dev nD) (t : Fin cfg2.N) (q : Fin 349) :
    iblk2 V c 10 t (ix2 (0 : Fin 1) q) = V c main_v65 (ix2 (0 : Fin 1) q) := by
  show V c main_v65 (((cfg2.win 10).blk t).view.emb (ix2 (0 : Fin 1) q)) = _
  refine congrArg _ (funext fun a => Fin.ext ?_)
  obtain ⟨-, -, -, -, -, -, -, -, -, -, ⟨e0, e1⟩, -⟩ := idx_facts t
  match a with
  | ⟨0, _⟩ => show win2_10.index t (0 : Fin 2) * 1 + 1 * 0 = 0; rw [e0]
  | ⟨1, _⟩ => show win2_10.index t (1 : Fin 2) * 349 + 1 * q.val = q.val; rw [e1]; omega

/-- Where element `(p, q)` of the output block at point `t` sits in the output array. -/
theorem emb11 (t : Fin cfg2.N) (p : Fin 2000) (q : Fin 349) :
    ((cfg2.win 11).blk t).view.emb (ix2 p q) = ix2 (row t p) q := by
  refine funext fun a => Fin.ext ?_
  obtain ⟨-, -, -, -, -, -, -, -, -, -, -, ⟨e0, e1⟩⟩ := idx_facts t
  match a with
  | ⟨0, _⟩ => show win2_11.index t (0 : Fin 2) * 2000 + 1 * p.val = t.val * 2000 + p.val; rw [e0]; omega
  | ⟨1, _⟩ => show win2_11.index t (1 : Fin 2) * 349 + 1 * q.val = q.val; rw [e1]; omega

/-- WHAT POINT `t` WRITES BACK is block `t` of the output layer applied to the two-edge-type update of the region's
    operand arrays. -/
theorem flushed_eq (c : Dev nD) (t : Fin cfg2.N) :
    (dat2 V c).flushed 11 t = ((cfg2.win 11).blk t).view.read (Elt Ideal)
      (head (upd2 (V c main_v53) (V c main_v16) (V c main_v57) (V c main_v21) (V c main_v45) (V c main_v60) (V c main_v61) (V c main_v62) (V c main_v64)) (V c main_v63) (V c main_v65)) := by
  show (cfg2.win 11).cut (grid2.coords t) ((dat2 V c).after 11 t) = _
  rw [after2_11]
  unfold out2_11
  rw [View.canon_unit_zero hz]
  simp only [View.ld_unit_zero (S := S2000x256) hz, View.ld_unit_zero (S := S2000x1) hz, View.ld_unit_zero (S := S256x256) hz, View.ld_unit_zero (S := S1x256) hz,
    View.ld_unit_zero (S := S256x349) hz, View.ld_unit_zero (S := S1x349) hz]
  funext j
  obtain ⟨p, q, rfl⟩ : ∃ (p : Fin 2000) (q : Fin 349), j = ix2 p q := ⟨j 0, j 1, eq_ix2 j⟩
  show k2_pay1 (k2_pay2 (iblk2 V c 0 t) (iblk2 V c 1 t) (iblk2 V c 2 t) (iblk2 V c 3 t) (iblk2 V c 4 t) (iblk2 V c 5 t) (iblk2 V c 6 t) (iblk2 V c 7 t) (iblk2 V c 8 t)) (iblk2 V c 9 t) (iblk2 V c 10 t) (ix2 p q)
    = head (upd2 (V c main_v53) (V c main_v16) (V c main_v57) (V c main_v21) (V c main_v45) (V c main_v60) (V c main_v61) (V c main_v62) (V c main_v64)) (V c main_v63) (V c main_v65) (((cfg2.win 11).blk t).view.emb (ix2 p q))
  rw [emb11]
  simp only [head_apply, upd2_apply]
  refine (pay_apply _ _ _ _ _ _ _ _ _ _ _ p q).trans ?_
  simp only [rd0, rd1, rd2, rd3, rd4, rd5, rd6, rd7, rd8, rd9, rd10]

theorem mem_blk (t : Fin cfg2.N) (i : S100000x349.Idx) :
    i ∈ ((cfg2.win 11).blk t).view.set ↔ ∀ a : Fin 2, win2_11.index t a * S2000x349.size a ≤ (i a).val ∧ (i a).val < win2_11.index t a * S2000x349.size a + S2000x349.size a := by
  show i ∈ ((View.whole main_v66).slice (win2_11.rect t)).set ↔ _
  rw [View.set_slice_whole, Rect.mem_set_unit]
  exact Iff.rfl

/-- Every row of the output array lies in the block of the point `row / 2000`. -/
theorem cover (i : S100000x349.Idx) :
    ∃ t : Fin cfg2.N, (cfg2.win 11).flush t = true ∧ i ∈ ((cfg2.win 11).blk t).view.set := by
  have hi0 : (i 0).val < 100000 := (i 0).isLt
  have hi1 : (i 1).val < 349 := (i 1).isLt
  have h50 : cfg2.N = 50 := N_2
  refine ⟨⟨(i 0).val / 2000, by omega⟩, flush2_11 _, ?_⟩
  rw [mem_blk]
  obtain ⟨-, -, -, -, -, -, -, -, -, -, -, ⟨e0, e1⟩⟩ := idx_facts ⟨(i 0).val / 2000, by omega⟩
  intro a
  match a with
  | ⟨0, _⟩ =>
    show win2_11.index _ (0 : Fin 2) * 2000 ≤ (i 0).val ∧ (i 0).val < win2_11.index _ (0 : Fin 2) * 2000 + 2000
    rw [e0]; show (i 0).val / 2000 * 2000 ≤ (i 0).val ∧ (i 0).val < (i 0).val / 2000 * 2000 + 2000; omega
  | ⟨1, _⟩ =>
    show win2_11.index _ (1 : Fin 2) * 349 ≤ (i 1).val ∧ (i 1).val < win2_11.index _ (1 : Fin 2) * 349 + 349
    rw [e1]; omega

/-- THE ARRAY after the region: the output layer applied to the two-edge-type update of the operand arrays as the region
    finds them. -/
theorem final (c : Dev nD) :
    (dat2 V c).arrAt 11 cfg2.N = head (upd2 (V c main_v53) (V c main_v16) (V c main_v57) (V c main_v21) (V c main_v45) (V c main_v60) (V c main_v61) (V c main_v62) (V c main_v64)) (V c main_v63) (V c main_v65) :=
  (dat2 V c).arrAt_eq_of_cover 11 _ (fun t _ => flushed_eq V c t) cover

end R2

end Cert.Hgs

end
-- ==== Proof.Bridge0.lean ====
/-
  The first layer's update of the "paper" rows: the kernel's form is the reference's.

  The kernel region computes `upd2`: both neighbour sums scaled by a precomputed inverse count, ONE contraction of the rows' own
  features with the SUM of the two root weight arrays, the SUM of the two biases, clamped at zero.  The reference computes
  two separate updates (quotient by the clamped count, contraction, bias, root contraction) and adds them before clamping.
  Index by index the two agree: `s * (1 / c) = s / c` for the nonzero clamped count, and the root contraction distributes
  over the sum of the weights because features and weights are real numbers.
-/
import proofs.«401098_j77403900609229_3_alg».proof.Proof.Gen.ReferenceIdeal.Read
import proofs.«401098_j77403900609229_3_alg».proof.Proof.Spec
import proofs.«401098_j77403900609229_3_alg».proof.Proof.LibEReal
import Idealize.ShloMosaic.Lib.ValueIdx
import Idealize.ShloMosaic.PureOps.Ideal.Laws
import Idealize.ShloMosaic.Lib.IdealHost

noncomputable section

namespace Cert.Hgs

open Idealize.ShloMosaic Idealize.ShloMosaic.ValueIdx Cert.Lib
open Cert.ReferenceIdeal Cert.ReferenceIdeal.Read

/-! ## Where the reference's stages read their operands

  Each stage of the reference reads its operands at indices computed from the output index.  At output entry `(p, q)` and
  contracted index `k` a contraction reads its left factor at `(p, k)` and its right factor at `(k, q)`; the clamped count,
  a vector over the rows that is repeated along the 128 feature columns, is read at row `p`; a bias, a vector over the 256
  output columns that is repeated along the rows, is read at column `q`. -/

theorem l19 (p : Fin 100000) (q : Fin 256) (k : Fin 128) : lidx_main_v19 (ix2 p q) k = ix2 p k :=
  funext fun a => Fin.ext (by match a with | ⟨0, _⟩ => rfl | ⟨1, _⟩ => rfl)
theorem r19 (p : Fin 100000) (q : Fin 256) (k : Fin 128) : ridx_main_v19 (ix2 p q) k = ix2 k q :=
  funext fun a => Fin.ext (by match a with | ⟨0, _⟩ => rfl | ⟨1, _⟩ => rfl)
theorem l23 (p : Fin 100000) (q : Fin 256) (k : Fin 128) : lidx_main_v23 (ix2 p q) k = ix2 p k :=
  funext fun a => Fin.ext (by match a with | ⟨0, _⟩ => rfl | ⟨1, _⟩ => rfl)
theorem r23 (p : Fin 100000) (q : Fin 256) (k : Fin 128) : ridx_main_v23 (ix2 p q) k = ix2 k q :=
  funext fun a => Fin.ext (by match a with | ⟨0, _⟩ => rfl | ⟨1, _⟩ => rfl)
theorem l44 (p : Fin 100000) (q : Fin 256) (k : Fin 128) : lidx_main_v44 (ix2 p q) k = ix2 p k :=
  funext fun a => Fin.ext (by match a with | ⟨0, _⟩ => rfl | ⟨1, _⟩ => rfl)
theorem r44 (p : Fin 100000) (q : Fin 256) (k : Fin 128) : ridx_main_v44 (ix2 p q) k = ix2 k q :=
  funext fun a => Fin.ext (by match a with | ⟨0, _⟩ => rfl | ⟨1, _⟩ => rfl)
theorem l48 (p : Fin 100000) (q : Fin 256) (k : Fin 128) : lidx_main_v48 (ix2 p q) k = ix2 p k :=
  funext fun a => Fin.ext (by match a with | ⟨0, _⟩ => rfl | ⟨1, _⟩ => rfl)
theorem r48 (p : Fin 100000) (q : Fin 256) (k : Fin 128) : ridx_main_v48 (ix2 p q) k = ix2 k q :=
  funext fun a => Fin.ext (by match a with | ⟨0, _⟩ => rfl | ⟨1, _⟩ => rfl)
theorem c17 (p : Fin 100000) (k : Fin 128) : idx_main_v16 (idx_main_v17 (ix2 p k)) = ix1 p :=
  funext fun a => Fin.ext (by match a with | ⟨0, _⟩ => rfl)
theorem c42 (p : Fin 100000) (k : Fin 128) : idx_main_v41 (idx_main_v42 (ix2 p k)) = ix1 p :=
  funext fun a => Fin.ext (by match a with | ⟨0, _⟩ => rfl)
theorem b21 (p : Fin 100000) (q : Fin 256) : idx_main_v20 (idx_main_v21 (ix2 p q)) = ix1 q :=
  funext fun a => Fin.ext (by match a with | ⟨0, _⟩ => rfl)
theorem b46 (p : Fin 100000) (q : Fin 256) : idx_main_v45 (idx_main_v46 (ix2 p q)) = ix1 q :=
  funext fun a => Fin.ext (by match a with | ⟨0, _⟩ => rfl)

/-- A neighbour count clamped below at one is not zero (first edge type). -/
theorem count15_ne_zero (x23 : IVec S500000 32) (p : Fin 100000) : val_main_v15 (F := Ideal) x23 (ix1 p) ≠ 0 := by
  rw [val_main_v15_apply, val_main_v14_apply, val_main_cst_3_apply, Ideal.maximumf_def, Ideal.ofBits_def, Ideal.ofBits_one_f32]
  exact max_one_ne_zero _

/-- A neighbour count clamped below at one is not zero (second edge type). -/
theorem count40_ne_zero (x25 : IVec S500000 32) (p : Fin 100000) : val_main_v40 (F := Ideal) x25 (ix1 p) ≠ 0 := by
  rw [val_main_v40_apply, val_main_v39_apply, val_main_cst_9_apply, Ideal.maximumf_def, Ideal.ofBits_def, Ideal.ofBits_one_f32]
  exact max_one_ne_zero _

/-- Region 0's array is the reference's first-layer activation of the "paper" rows, given what the region's operand arrays
    hold entry by entry. -/
theorem bridge0 (x0 : FVec Ideal S100000x128 .f32) (x1 : FVec Ideal S50000x128 .f32) (x2 x3 : FVec Ideal S128x256 .f32)
    (x4 : FVec Ideal S256 .f32) (x5 x6 : FVec Ideal S128x256 .f32) (x7 : FVec Ideal S256 .f32) (x22 x23 x24 x25 : IVec S500000 32)
    (sumc : Arr 100000 128) (invc : Arr 100000 1) (sumw : Arr 100000 128) (invw : Arr 100000 1) (xp : Arr 100000 128)
    (wlc wlw wr : Arr 128 256) (b : Arr 1 256)
    (hsumc : ∀ (p : Fin 100000) (k : Fin 128), sumc (ix2 p k) = val_main_v9 (F := Ideal) x0 x22 x23 (ix2 p k))
    (hinvc : ∀ p : Fin 100000, invc (ix2 p 0) = Ideal.div 1 (val_main_v15 (F := Ideal) x23 (ix1 p)))
    (hsumw : ∀ (p : Fin 100000) (k : Fin 128), sumw (ix2 p k) = val_main_v34 (F := Ideal) x1 x24 x25 (ix2 p k))
    (hinvw : ∀ p : Fin 100000, invw (ix2 p 0) = Ideal.div 1 (val_main_v40 (F := Ideal) x25 (ix1 p)))
    (hxp : ∀ (p : Fin 100000) (k : Fin 128), xp (ix2 p k) = x0 (ix2 p k))
    (hwlc : ∀ (k : Fin 128) (q : Fin 256), wlc (ix2 k q) = x2 (ix2 k q))
    (hwlw : ∀ (k : Fin 128) (q : Fin 256), wlw (ix2 k q) = x5 (ix2 k q))
    (hwr : ∀ (k : Fin 128) (q : Fin 256), wr (ix2 k q) = x3 (ix2 k q) + x6 (ix2 k q))
    (hb : ∀ q : Fin 256, b (ix2 0 q) = x4 (ix1 q) + x7 (ix1 q))
    (r0 : ∀ i, IsReal (x0 i)) (r3 : ∀ i, IsReal (x3 i)) (r6 : ∀ i, IsReal (x6 i)) :
    upd2 sumc invc sumw invw xp wlc wlw wr b = val_main_v76 (F := Ideal) x0 x1 x2 x3 x4 x5 x6 x7 x22 x23 x24 x25 := by
  funext i
  obtain ⟨p, q, rfl⟩ : ∃ (p : Fin 100000) (q : Fin 256), i = ix2 p q := ⟨i 0, i 1, eq_ix2 i⟩
  -- the four contractions of the reference at (p, q), as sums over the 128 feature columns
  have e19 : val_main_v19 (F := Ideal) x0 x2 x22 x23 (ix2 p q)
      = ∑ k : Fin 128, Ideal.div (val_main_v9 (F := Ideal) x0 x22 x23 (ix2 p k)) (val_main_v15 (F := Ideal) x23 (ix1 p)) * x2 (ix2 k q) := by
    rw [val_main_v19_apply]
    refine Finset.sum_congr rfl fun k _ => ?_
    rw [l19, r19, val_main_v18_apply, val_main_v17_apply, val_main_v16_apply, c17, Ideal.hostDivf_def]
  have e44 : val_main_v44 (F := Ideal) x1 x5 x24 x25 (ix2 p q)
      = ∑ k : Fin 128, Ideal.div (val_main_v34 (F := Ideal) x1 x24 x25 (ix2 p k)) (val_main_v40 (F := Ideal) x25 (ix1 p)) * x5 (ix2 k q) := by
    rw [val_main_v44_apply]
    refine Finset.sum_congr rfl fun k _ => ?_
    rw [l44, r44, val_main_v43_apply, val_main_v42_apply, val_main_v41_apply, c42, Ideal.hostDivf_def]
  have e23 : val_main_v23 (F := Ideal) x0 x3 (ix2 p q) = ∑ k : Fin 128, x0 (ix2 p k) * x3 (ix2 k q) := by
    rw [val_main_v23_apply]
    exact Finset.sum_congr rfl fun k _ => by rw [l23, r23]
  have e48 : val_main_v48 (F := Ideal) x0 x6 (ix2 p q) = ∑ k : Fin 128, x0 (ix2 p k) * x6 (ix2 k q) := by
    rw [val_main_v48_apply]
    exact Finset.sum_congr rfl fun k _ => by rw [l48, r48]
  -- the two biases at column q
  have e21 : val_main_v21 (F := Ideal) x4 (ix2 p q) = x4 (ix1 q) := by
    rw [val_main_v21_apply, val_main_v20_apply, b21]
  have e46 : val_main_v46 (F := Ideal) x7 (ix2 p q) = x7 (ix1 q) := by
    rw [val_main_v46_apply, val_main_v45_apply, b46]
  -- the kernel's side, with the operand arrays as the hypotheses give them
  rw [upd2_apply]
  simp only [hsumc, hinvc, hsumw, hinvw, hxp, hwlc, hwlw, hwr, hb]
  -- the reference's side, stage by stage from the outermost
  rw [val_main_v76_apply, val_main_v50_apply, val_main_v24_apply, val_main_v22_apply, val_main_v49_apply, val_main_v47_apply,
    e19, e23, e44, e48, e21, e46, val_main_call0_v0_apply, val_main_call0_cst_apply]
  simp only [Ideal.maximumf_def, Ideal.addf_def, Ideal.ofBits_def, Ideal.ofBits_zero_f32]
  exact combine_two (K := Fin 128)
    (fun k => val_main_v9 (F := Ideal) x0 x22 x23 (ix2 p k)) (fun k => val_main_v34 (F := Ideal) x1 x24 x25 (ix2 p k))
    (fun k => x0 (ix2 p k)) (fun k => x2 (ix2 k q)) (fun k => x5 (ix2 k q)) (fun k => x3 (ix2 k q)) (fun k => x6 (ix2 k q))
    (val_main_v15 (F := Ideal) x23 (ix1 p)) (val_main_v40 (F := Ideal) x25 (ix1 p)) (x4 (ix1 q)) (x7 (ix1 q))
    (count15_ne_zero x23 p) (count40_ne_zero x25 p) (fun k => r0 _) (fun k => r3 _) (fun k => r6 _)

end Cert.Hgs

end
-- ==== Proof.Bridge1.lean ====
/-
  The first layer's update of the "author" rows: the kernel's form is the reference's.

  One edge type feeds these rows.  The kernel scales the neighbour sum by a precomputed inverse count, contracts, adds the root
  contraction and then the bias; the reference divides by the clamped count, contracts, adds the bias and then the root
  contraction.  `s * (1 / c) = s / c` for the nonzero clamped count; the rest is the order of the additions.
-/
import proofs.«401098_j77403900609229_3_alg».proof.Proof.Gen.ReferenceIdeal.Read
import proofs.«401098_j77403900609229_3_alg».proof.Proof.Spec
import proofs.«401098_j77403900609229_3_alg».proof.Proof.LibEReal
import Idealize.ShloMosaic.Lib.ValueIdx
import Idealize.ShloMosaic.Lib.IdealHost
import Idealize.ShloMosaic.PureOps.Ideal.Laws

noncomputable section

namespace Cert.Hgs

open Idealize.ShloMosaic Idealize.ShloMosaic.ValueIdx Cert.Lib
open Cert.ReferenceIdeal Cert.ReferenceIdeal.Read

/-- Region 1's array is the reference's first-layer activation of the "author" rows. -/
theorem bridge1 (x0 : FVec Ideal S100000x128 .f32) (x1 : FVec Ideal S50000x128 .f32) (x8 x9 : FVec Ideal S128x256 .f32)
    (x10 : FVec Ideal S256 .f32) (x26 x27 : IVec S500000 32)
    (sumr : Arr 50000 128) (invr : Arr 50000 1) (xa : Arr 50000 128) (wlr wrr : Arr 128 256) (b : Arr 1 256)
    (hsumr : ∀ (p : Fin 50000) (k : Fin 128), sumr (ix2 p k) = val_main_v60 (F := Ideal) x0 x26 x27 (ix2 p k))
    (hinvr : ∀ p : Fin 50000, invr (ix2 p 0) = Ideal.div 1 (val_main_v66 (F := Ideal) x27 (ix1 p)))
    (hxa : ∀ (p : Fin 50000) (k : Fin 128), xa (ix2 p k) = x1 (ix2 p k))
    (hwlr : ∀ (k : Fin 128) (q : Fin 256), wlr (ix2 k q) = x8 (ix2 k q))
    (hwrr : ∀ (k : Fin 128) (q : Fin 256), wrr (ix2 k q) = x9 (ix2 k q))
    (hb : ∀ q : Fin 256, b (ix2 0 q) = x10 (ix1 q)) :
    upd1 sumr invr xa wlr wrr b = val_main_v77 (F := Ideal) x0 x1 x8 x9 x10 x26 x27 := by
  funext i
  obtain ⟨p, q, rfl⟩ : ∃ (p : Fin 50000) (q : Fin 256), i = ix2 p q := ⟨i 0, i 1, eq_ix2 i⟩
  -- the clamped count of row p is at least one, so it is not zero
  have hc : val_main_v66 (F := Ideal) x27 (ix1 p) ≠ 0 := by
    rw [val_main_v66_apply, val_main_v65_apply, val_main_cst_15_apply, Ideal.maximumf_def, Ideal.ofBits_def, Ideal.ofBits_one_f32]
    exact max_one_ne_zero _
  -- the reference's index maps at (p, q), coordinate by coordinate
  have el70 : ∀ k : Fin 128, lidx_main_v70 (ix2 p q) k = ix2 p k := fun k =>
    funext fun a => Fin.ext (by match a with | ⟨0, _⟩ => rfl | ⟨1, _⟩ => rfl)
  have er70 : ∀ k : Fin 128, ridx_main_v70 (ix2 p q) k = ix2 k q := fun k =>
    funext fun a => Fin.ext (by match a with | ⟨0, _⟩ => rfl | ⟨1, _⟩ => rfl)
  have el74 : ∀ k : Fin 128, lidx_main_v74 (ix2 p q) k = ix2 p k := fun k =>
    funext fun a => Fin.ext (by match a with | ⟨0, _⟩ => rfl | ⟨1, _⟩ => rfl)
  have er74 : ∀ k : Fin 128, ridx_main_v74 (ix2 p q) k = ix2 k q := fun k =>
    funext fun a => Fin.ext (by match a with | ⟨0, _⟩ => rfl | ⟨1, _⟩ => rfl)
  have ebias : idx_main_v71 (idx_main_v72 (ix2 p q)) = ix1 q :=
    funext fun a => Fin.ext (by match a with | ⟨0, _⟩ => rfl)
  have ecnt : ∀ k : Fin 128, idx_main_v67 (idx_main_v68 (ix2 p k)) = ix1 p := fun k =>
    funext fun a => Fin.ext (by match a with | ⟨0, _⟩ => rfl)
  rw [upd1_apply]
  simp only [hsumr, hinvr, hxa, hwlr, hwrr, hb]
  rw [val_main_v77_apply (F := Ideal), val_main_v75_apply (F := Ideal), val_main_v73_apply (F := Ideal), val_main_v70_apply,
    val_main_v72_apply (F := Ideal), val_main_v71_apply (F := Ideal), val_main_v74_apply, val_main_call1_v0_apply (F := Ideal),
    val_main_call1_cst_apply (F := Ideal)]
  simp only [val_main_v69_apply, val_main_v68_apply, val_main_v67_apply, el70, er70, el74, er74, ebias, ecnt,
    Ideal.maximumf_def, Ideal.addf_def, Ideal.hostDivf_def, Ideal.ofBits_def, Ideal.ofBits_zero_f32]
  exact combine_one (K := Fin 128) (fun k => val_main_v60 (F := Ideal) x0 x26 x27 (ix2 p k)) (fun k => x1 (ix2 p k))
    (fun k => x8 (ix2 k q)) (fun k => x9 (ix2 k q)) (val_main_v66 (F := Ideal) x27 (ix1 p)) (x10 (ix1 q)) hc

end Cert.Hgs

end
-- ==== Proof.Bridge2.lean ====
/-
  The second layer's update of the "paper" rows fused with the output layer: the kernel's form is the reference's.

  As in the first layer, with the first layer's activations in place of the input features: both neighbour means scaled by
  the precomputed inverse counts, one root contraction against the summed root weights, the summed bias, clamped at zero;
  then the contraction with the output weights and the output bias.  The root contraction distributes over the sum of the
  weights because the first-layer activations and the weights are real numbers.
-/
import proofs.«401098_j77403900609229_3_alg».proof.Proof.Gen.ReferenceIdeal.Read
import proofs.«401098_j77403900609229_3_alg».proof.Proof.Spec
import proofs.«401098_j77403900609229_3_alg».proof.Proof.LibEReal
import Idealize.ShloMosaic.Lib.ValueIdx
import Idealize.ShloMosaic.PureOps.Ideal.Laws
import Idealize.ShloMosaic.Lib.IdealHost

noncomputable section

namespace Cert.Hgs

open Idealize.ShloMosaic Idealize.ShloMosaic.ValueIdx Cert.Lib
open Cert.ReferenceIdeal Cert.ReferenceIdeal.Read

/-! ## The reference's composed index functions at an index given by its coordinates -/

theorem lidx97 (p : Fin 100000) (q k : Fin 256) : lidx_main_v97 (ix2 p q) k = ix2 p k :=
  funext fun a => Fin.ext (by match a with | ⟨0, _⟩ => rfl | ⟨1, _⟩ => rfl)
theorem ridx97 (p : Fin 100000) (q k : Fin 256) : ridx_main_v97 (ix2 p q) k = ix2 k q :=
  funext fun a => Fin.ext (by match a with | ⟨0, _⟩ => rfl | ⟨1, _⟩ => rfl)
theorem lidx101 (p : Fin 100000) (q k : Fin 256) : lidx_main_v101 (ix2 p q) k = ix2 p k :=
  funext fun a => Fin.ext (by match a with | ⟨0, _⟩ => rfl | ⟨1, _⟩ => rfl)
theorem ridx101 (p : Fin 100000) (q k : Fin 256) : ridx_main_v101 (ix2 p q) k = ix2 k q :=
  funext fun a => Fin.ext (by match a with | ⟨0, _⟩ => rfl | ⟨1, _⟩ => rfl)
theorem lidx122 (p : Fin 100000) (q k : Fin 256) : lidx_main_v122 (ix2 p q) k = ix2 p k :=
  funext fun a => Fin.ext (by match a with | ⟨0, _⟩ => rfl | ⟨1, _⟩ => rfl)
theorem ridx122 (p : Fin 100000) (q k : Fin 256) : ridx_main_v122 (ix2 p q) k = ix2 k q :=
  funext fun a => Fin.ext (by match a with | ⟨0, _⟩ => rfl | ⟨1, _⟩ => rfl)
theorem lidx126 (p : Fin 100000) (q k : Fin 256) : lidx_main_v126 (ix2 p q) k = ix2 p k :=
  funext fun a => Fin.ext (by match a with | ⟨0, _⟩ => rfl | ⟨1, _⟩ => rfl)
theorem ridx126 (p : Fin 100000) (q k : Fin 256) : ridx_main_v126 (ix2 p q) k = ix2 k q :=
  funext fun a => Fin.ext (by match a with | ⟨0, _⟩ => rfl | ⟨1, _⟩ => rfl)
theorem idx95 (p : Fin 100000) (k : Fin 256) : idx_main_v95 (ix2 p k) = ix2 p 0 :=
  funext fun a => Fin.ext (by match a with | ⟨0, _⟩ => rfl | ⟨1, _⟩ => rfl)
theorem idx120 (p : Fin 100000) (k : Fin 256) : idx_main_v120 (ix2 p k) = ix2 p 0 :=
  funext fun a => Fin.ext (by match a with | ⟨0, _⟩ => rfl | ⟨1, _⟩ => rfl)
theorem idx94 (p : Fin 100000) : idx_main_v94 (ix2 p 0) = ix1 p :=
  funext fun a => Fin.ext (by match a with | ⟨0, _⟩ => rfl)
theorem idx119 (p : Fin 100000) : idx_main_v119 (ix2 p 0) = ix1 p :=
  funext fun a => Fin.ext (by match a with | ⟨0, _⟩ => rfl)
theorem idx99 (p : Fin 100000) (q : Fin 256) : idx_main_v99 (ix2 p q) = ix2 0 q :=
  funext fun a => Fin.ext (by match a with | ⟨0, _⟩ => rfl | ⟨1, _⟩ => rfl)
theorem idx124 (p : Fin 100000) (q : Fin 256) : idx_main_v124 (ix2 p q) = ix2 0 q :=
  funext fun a => Fin.ext (by match a with | ⟨0, _⟩ => rfl | ⟨1, _⟩ => rfl)
theorem idx98 (q : Fin 256) : idx_main_v98 (ix2 0 q) = ix1 q :=
  funext fun a => Fin.ext (by match a with | ⟨0, _⟩ => rfl)
theorem idx123 (q : Fin 256) : idx_main_v123 (ix2 0 q) = ix1 q :=
  funext fun a => Fin.ext (by match a with | ⟨0, _⟩ => rfl)
theorem lidx156 (p : Fin 100000) (q : Fin 349) (k : Fin 256) : lidx_main_v156 (ix2 p q) k = ix2 p k :=
  funext fun a => Fin.ext (by match a with | ⟨0, _⟩ => rfl | ⟨1, _⟩ => rfl)
theorem ridx156 (p : Fin 100000) (q : Fin 349) (k : Fin 256) : ridx_main_v156 (ix2 p q) k = ix2 k q :=
  funext fun a => Fin.ext (by match a with | ⟨0, _⟩ => rfl | ⟨1, _⟩ => rfl)
theorem idx158 (p : Fin 100000) (q : Fin 349) : idx_main_v158 (ix2 p q) = ix2 0 q :=
  funext fun a => Fin.ext (by match a with | ⟨0, _⟩ => rfl | ⟨1, _⟩ => rfl)
theorem idx157 (q : Fin 349) : idx_main_v157 (ix2 0 q) = ix1 q :=
  funext fun a => Fin.ext (by match a with | ⟨0, _⟩ => rfl)

/-! ## The clamped counts are not zero -/

/-- The count of the first edge type, clamped below at one, is not zero. -/
theorem v93_ne_zero (x23 : IVec S500000 32) (i : S100000.Idx) : val_main_v93 (F := Ideal) x23 i ≠ 0 := by
  rw [val_main_v93_apply, val_main_v92_apply, val_main_cst_21_apply, Ideal.maximumf_def, Ideal.ofBits_def,
    Ideal.ofBits_one_f32]
  exact max_one_ne_zero _

/-- The count of the second edge type, clamped below at one, is not zero. -/
theorem v118_ne_zero (x25 : IVec S500000 32) (i : S100000.Idx) : val_main_v118 (F := Ideal) x25 i ≠ 0 := by
  rw [val_main_v118_apply, val_main_v117_apply, val_main_cst_27_apply, Ideal.maximumf_def, Ideal.ofBits_def,
    Ideal.ofBits_one_f32]
  exact max_one_ne_zero _

/-! ## The second layer's update, entry by entry -/

/-- The second layer's update of the "paper" rows, read at an index: the form with precomputed inverse counts, one root
    contraction against the summed root weights and the summed bias is the reference's sum of two updates, clamped at
    zero. -/
theorem upd2_eq_v154 (x0 : FVec Ideal S100000x128 .f32) (x1 : FVec Ideal S50000x128 .f32) (x2 x3 : FVec Ideal S128x256 .f32)
    (x4 : FVec Ideal S256 .f32) (x5 x6 : FVec Ideal S128x256 .f32) (x7 : FVec Ideal S256 .f32) (x8 x9 : FVec Ideal S128x256 .f32)
    (x10 : FVec Ideal S256 .f32) (x11 x12 : FVec Ideal S256x256 .f32) (x13 : FVec Ideal S256 .f32) (x14 x15 : FVec Ideal S256x256 .f32)
    (x16 : FVec Ideal S256 .f32) (x22 x23 x24 x25 x26 x27 : IVec S500000 32)
    (sumc : Arr 100000 256) (invc : Arr 100000 1) (sumw : Arr 100000 256) (invw : Arr 100000 1) (p1 : Arr 100000 256)
    (wlc wlw wr : Arr 256 256) (b : Arr 1 256)
    (hsumc : ∀ (p : Fin 100000) (k : Fin 256), sumc (ix2 p k) = val_main_v87 (F := Ideal) x0 x1 x2 x3 x4 x5 x6 x7 x22 x23 x24 x25 (ix2 p k))
    (hinvc : ∀ p : Fin 100000, invc (ix2 p 0) = Ideal.div 1 (val_main_v93 (F := Ideal) x23 (ix1 p)))
    (hsumw : ∀ (p : Fin 100000) (k : Fin 256), sumw (ix2 p k) = val_main_v112 (F := Ideal) x0 x1 x8 x9 x10 x24 x25 x26 x27 (ix2 p k))
    (hinvw : ∀ p : Fin 100000, invw (ix2 p 0) = Ideal.div 1 (val_main_v118 (F := Ideal) x25 (ix1 p)))
    (hp1 : ∀ (p : Fin 100000) (k : Fin 256), p1 (ix2 p k) = val_main_v76 (F := Ideal) x0 x1 x2 x3 x4 x5 x6 x7 x22 x23 x24 x25 (ix2 p k))
    (hwlc : ∀ (k q : Fin 256), wlc (ix2 k q) = x11 (ix2 k q))
    (hwlw : ∀ (k q : Fin 256), wlw (ix2 k q) = x14 (ix2 k q))
    (hwr : ∀ (k q : Fin 256), wr (ix2 k q) = x12 (ix2 k q) + x15 (ix2 k q))
    (hb : ∀ q : Fin 256, b (ix2 0 q) = x13 (ix1 q) + x16 (ix1 q))
    (rP : ∀ i, IsReal (val_main_v76 (F := Ideal) x0 x1 x2 x3 x4 x5 x6 x7 x22 x23 x24 x25 i)) (r12 : ∀ i, IsReal (x12 i)) (r15 : ∀ i, IsReal (x15 i))
    (p : Fin 100000) (q : Fin 256) :
    upd2 sumc invc sumw invw p1 wlc wlw wr b (ix2 p q)
      = val_main_v154 (F := Ideal) x0 x1 x2 x3 x4 x5 x6 x7 x8 x9 x10 x11 x12 x13 x14 x15 x16 x22 x23 x24 x25 x26 x27 (ix2 p q) := by
  rw [upd2_apply]
  simp only [hsumc, hinvc, hsumw, hinvw, hp1, hwlc, hwlw, hwr, hb]
  rw [val_main_v154_apply, val_main_v128_apply, val_main_v102_apply, val_main_v100_apply, val_main_v97_apply,
    val_main_v99_apply, val_main_v98_apply, val_main_v101_apply, val_main_v127_apply, val_main_v125_apply,
    val_main_v122_apply, val_main_v124_apply, val_main_v123_apply, val_main_v126_apply,
    val_main_call2_v0_apply, val_main_call2_cst_apply]
  simp only [val_main_v96_apply, val_main_v95_apply, val_main_v94_apply, val_main_v121_apply, val_main_v120_apply,
    val_main_v119_apply, Ideal.addf_def, Ideal.maximumf_def, Ideal.hostDivf_def, Ideal.ofBits_def, Ideal.ofBits_zero_f32,
    lidx97, ridx97, lidx101, ridx101, lidx122, ridx122, lidx126, ridx126, idx95, idx94, idx120, idx119, idx99, idx98,
    idx124, idx123]
  exact combine_two (K := Fin 256)
    (fun k => val_main_v87 (F := Ideal) x0 x1 x2 x3 x4 x5 x6 x7 x22 x23 x24 x25 (ix2 p k))
    (fun k => val_main_v112 (F := Ideal) x0 x1 x8 x9 x10 x24 x25 x26 x27 (ix2 p k))
    (fun k => val_main_v76 (F := Ideal) x0 x1 x2 x3 x4 x5 x6 x7 x22 x23 x24 x25 (ix2 p k))
    (fun k => x11 (ix2 k q)) (fun k => x14 (ix2 k q)) (fun k => x12 (ix2 k q)) (fun k => x15 (ix2 k q))
    (val_main_v93 (F := Ideal) x23 (ix1 p)) (val_main_v118 (F := Ideal) x25 (ix1 p)) (x13 (ix1 q)) (x16 (ix1 q))
    (v93_ne_zero x23 _) (v118_ne_zero x25 _) (fun k => rP _) (fun k => r12 _) (fun k => r15 _)

/-- Region 2's array is the reference's result. -/
theorem bridge2 (x0 : FVec Ideal S100000x128 .f32) (x1 : FVec Ideal S50000x128 .f32) (x2 x3 : FVec Ideal S128x256 .f32)
    (x4 : FVec Ideal S256 .f32) (x5 x6 : FVec Ideal S128x256 .f32) (x7 : FVec Ideal S256 .f32) (x8 x9 : FVec Ideal S128x256 .f32)
    (x10 : FVec Ideal S256 .f32) (x11 x12 : FVec Ideal S256x256 .f32) (x13 : FVec Ideal S256 .f32) (x14 x15 : FVec Ideal S256x256 .f32)
    (x16 : FVec Ideal S256 .f32) (x20 : FVec Ideal S256x349 .f32) (x21 : FVec Ideal S349 .f32) (x22 x23 x24 x25 x26 x27 : IVec S500000 32)
    (sumc : Arr 100000 256) (invc : Arr 100000 1) (sumw : Arr 100000 256) (invw : Arr 100000 1) (p1 : Arr 100000 256)
    (wlc wlw wr : Arr 256 256) (b : Arr 1 256) (wout : Arr 256 349) (bout : Arr 1 349)
    (hsumc : ∀ (p : Fin 100000) (k : Fin 256), sumc (ix2 p k) = val_main_v87 (F := Ideal) x0 x1 x2 x3 x4 x5 x6 x7 x22 x23 x24 x25 (ix2 p k))
    (hinvc : ∀ p : Fin 100000, invc (ix2 p 0) = Ideal.div 1 (val_main_v93 (F := Ideal) x23 (ix1 p)))
    (hsumw : ∀ (p : Fin 100000) (k : Fin 256), sumw (ix2 p k) = val_main_v112 (F := Ideal) x0 x1 x8 x9 x10 x24 x25 x26 x27 (ix2 p k))
    (hinvw : ∀ p : Fin 100000, invw (ix2 p 0) = Ideal.div 1 (val_main_v118 (F := Ideal) x25 (ix1 p)))
    (hp1 : ∀ (p : Fin 100000) (k : Fin 256), p1 (ix2 p k) = val_main_v76 (F := Ideal) x0 x1 x2 x3 x4 x5 x6 x7 x22 x23 x24 x25 (ix2 p k))
    (hwlc : ∀ (k q : Fin 256), wlc (ix2 k q) = x11 (ix2 k q))
    (hwlw : ∀ (k q : Fin 256), wlw (ix2 k q) = x14 (ix2 k q))
    (hwr : ∀ (k q : Fin 256), wr (ix2 k q) = x12 (ix2 k q) + x15 (ix2 k q))
    (hb : ∀ q : Fin 256, b (ix2 0 q) = x13 (ix1 q) + x16 (ix1 q))
    (hwout : ∀ (k : Fin 256) (q : Fin 349), wout (ix2 k q) = x20 (ix2 k q))
    (hbout : ∀ q : Fin 349, bout (ix2 0 q) = x21 (ix1 q))
    (rP : ∀ i, IsReal (val_main_v76 (F := Ideal) x0 x1 x2 x3 x4 x5 x6 x7 x22 x23 x24 x25 i)) (r12 : ∀ i, IsReal (x12 i)) (r15 : ∀ i, IsReal (x15 i)) :
    head (upd2 sumc invc sumw invw p1 wlc wlw wr b) wout bout
      = val_main_v159 (F := Ideal) x0 x1 x2 x3 x4 x5 x6 x7 x8 x9 x10 x11 x12 x13 x14 x15 x16 x20 x21 x22 x23 x24 x25 x26 x27 := by
  funext i
  obtain ⟨p, q, rfl⟩ : ∃ (p : Fin 100000) (q : Fin 349), i = ix2 p q := ⟨i 0, i 1, eq_ix2 i⟩
  have hin : ∀ k : Fin 256, upd2 sumc invc sumw invw p1 wlc wlw wr b (ix2 p k)
      = val_main_v154 (F := Ideal) x0 x1 x2 x3 x4 x5 x6 x7 x8 x9 x10 x11 x12 x13 x14 x15 x16 x22 x23 x24 x25 x26 x27 (ix2 p k) := fun k =>
    upd2_eq_v154 x0 x1 x2 x3 x4 x5 x6 x7 x8 x9 x10 x11 x12 x13 x14 x15 x16 x22 x23 x24 x25 x26 x27
      sumc invc sumw invw p1 wlc wlw wr b hsumc hinvc hsumw hinvw hp1 hwlc hwlw hwr hb rP r12 r15 p k
  rw [head_apply, val_main_v159_apply, val_main_v156_apply, val_main_v158_apply, val_main_v157_apply, Ideal.addf_def]
  simp only [hin, hwout, hbout, lidx156, ridx156, idx158, idx157]

end Cert.Hgs

end
-- ==== Proof.LibRealOps.lean ====
/-
  Real entries are kept real by the operations that build the first layer's activations.

  The idealized programs compute on extended reals, where distributivity needs real (finite) values.  The activations of
  the first layer are made from the inputs by a handful of array operations: reading rows out of a table by an index array
  (gather), adding rows into a table at indexed positions (scatter-add), repeating an array along new axes (broadcast) or
  re-reading it under another shape, dividing by a count clamped below at one, contracting two arrays along shared axes,
  adding and taking maxima entrywise.  Each of them, applied to arrays all of whose entries are real, gives an array all of
  whose entries are real: a re-indexing reads an entry that was there; the others are finite sums, products and maxima of
  real numbers, and a quotient by a divisor that is not zero.  The statements hold for every shape and every choice of
  axes; they are about the ideal values only.
-/
import proofs.«401098_j77403900609229_3_alg».proof.Proof.LibEReal
import Idealize.ShloMosaic.PureOps.Ideal
import Idealize.ShloMosaic.PureOps.Ideal.Laws
import Idealize.ShloMosaic.Lib.ValueIdx
import Idealize.ShloMosaic.Lib.IdealHost

noncomputable section

namespace Cert.Lib

open Idealize.ShloMosaic Idealize.ShloMosaic.ValueIdx

/-- An array of extended reals all of whose entries are real numbers. -/
abbrev AllReal {s : Shape} (v : s.Idx → EReal) : Prop := ∀ i, IsReal (v i)

/-! ## Re-indexings: each result entry is one of the operand's entries -/

/-- A gather reads, at each result index, the operand at an index computed from the index array: an entry of a real
    array. -/
theorem real_gather {s si t : Shape} {w : ℕ} (d : GatherDims s si t) (x : s.Idx → EReal) (idx : IVec si w)
    (hx : ∀ i, IsReal (x i)) (j : t.Idx) : IsReal (Host.gather d x idx j) := by
  unfold Host.gather; exact hx _

/-- A broadcast along chosen axes reads, at each result index, the operand at the index with the added axes dropped (and
    coordinate zero on the operand's axes of extent one). -/
theorem real_bcast {s t : Shape} (dims : Fin s.rank → Fin t.rank) (h : s.BroadcastsInDim t dims) (v : s.Idx → EReal)
    (hv : ∀ i, IsReal (v i)) (j : t.Idx) : IsReal (broadcastInDim t dims h v j) := by
  unfold broadcastInDim; exact hv _

/-- The same for a broadcast along leading axes. -/
theorem real_bcastTo {s t : Shape} (h : s.Broadcasts t) (v : s.Idx → EReal) (hv : ∀ i, IsReal (v i)) (j : t.Idx) :
    IsReal (broadcastTo t v h j) := by
  unfold broadcastTo; exact hv _

/-- An array re-read under another shape of the same number of entries has the same entries, in row-major order. -/
theorem real_shapeCast {s t : Shape} (h : s.ShapeCasts t) (v : s.Idx → EReal) (hv : ∀ i, IsReal (v i)) (j : t.Idx) :
    IsReal (shapeCast t v h j) := by
  unfold shapeCast; exact hv _

/-! ## The constants zero and one -/

/-- The single-precision pattern of zero is the real number zero. -/
theorem real_ofBits_zero_f32 : IsReal (Ideal.ofBits .f32 0x00000000#32) := by
  rw [Ideal.ofBits_zero_f32]; exact IsReal.zero

/-- The single-precision pattern `0x3F800000` (sign 0, biased exponent 127, fraction 0) is the number one. -/
theorem ofBits_one_f32 : Ideal.ofBits .f32 0x3F800000#32 = 1 := Ideal.ofBits_one_f32

/-- So it is a real number. -/
theorem real_ofBits_one_f32 : IsReal (Ideal.ofBits .f32 0x3F800000#32) := by
  rw [ofBits_one_f32]; exact IsReal.one

/-- The array that is zero everywhere has real entries. -/
theorem real_const0 {s : Shape} (i : s.Idx) : IsReal (constant (F := Ideal) s .f32 0x00000000#32 i) := by
  rw [constant_apply]; exact real_ofBits_zero_f32

/-- The array that is one everywhere reads one at every index … -/
theorem const1_apply {s : Shape} (i : s.Idx) : constant (F := Ideal) s .f32 0x3F800000#32 i = 1 := by
  rw [constant_apply]; exact ofBits_one_f32

/-- … so its entries are real. -/
theorem real_const1 {s : Shape} (i : s.Idx) : IsReal (constant (F := Ideal) s .f32 0x3F800000#32 i) := by
  rw [const1_apply]; exact IsReal.one

/-! ## Arithmetic on the entries -/

/-- An entrywise sum of real arrays is real. -/
theorem real_addf {s : Shape} {φ : FTy} (a b : FVec Ideal s φ) (ha : ∀ i, IsReal (a i)) (hb : ∀ i, IsReal (b i))
    (i : s.Idx) : IsReal (addf (F := Ideal) a b i) := by
  rw [addf_apply]; exact (ha i).add (hb i)

/-- An entrywise maximum of real arrays is real: it is one of the two entries. -/
theorem real_maximumf {s : Shape} {φ : FTy} (a b : FVec Ideal s φ) (ha : ∀ i, IsReal (a i)) (hb : ∀ i, IsReal (b i))
    (i : s.Idx) : IsReal (maximumf (F := Ideal) a b i) := by
  rw [maximumf_apply]; exact (ha i).max (hb i)

/-- A count clamped below at one is nowhere zero, whatever the count (real or not): the maximum is at least one. -/
theorem clamp_ne_zero {s : Shape} (c one : FVec Ideal s .f32) (h1 : ∀ i, one i = 1) (i : s.Idx) :
    maximumf (F := Ideal) c one i ≠ 0 := by
  rw [maximumf_apply, h1]; exact max_one_ne_zero (c i)

/-- An entrywise quotient of a real array by an array that is nowhere zero is real: `a / b = a · b⁻¹`, and the inverse of
    any extended real other than zero — the infinities included — is a real number. -/
theorem real_divf {s : Shape} {φ : FTy} (a b : FVec Ideal s φ) (ha : ∀ i, IsReal (a i)) (hb : ∀ i, b i ≠ 0)
    (i : s.Idx) : IsReal (Host.divf (F := Ideal) a b i) := by
  rw [hostDivf_apply]; exact (ha i).div (hb i)

/-! ## Sums over many entries -/

/-- A scatter-add leaves, at each operand index, the operand's entry plus the sum of the update entries that land there
    (none, one or many): a finite sum of real numbers. -/
theorem real_scatterAdd {s si u : Shape} {φ : FTy} {w : ℕ} (d : ScatterDims s si u) (x : FVec Ideal s φ) (idx : IVec si w)
    (upd : FVec Ideal u φ) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact (hx i).add (IsReal.sum _ _ fun j _ => hu j)

/-- A contraction of two real arrays is real: each result entry is the sum, over the contracted indices, of products of
    an entry of the left array and an entry of the right one. -/
theorem real_dot {sl sr so : Shape} {φ₁ φ₂ : FTy} {prec : Option ContractPrecision} (d : DotDims sl sr so)
    (l : FVec Ideal sl φ₁) (r : FVec Ideal sr φ₂) (hl : ∀ i, IsReal (l i)) (hr : ∀ i, IsReal (r i)) (j : so.Idx) :
    IsReal (Host.dotGeneral (F := Ideal) d prec l r j) := by
  simp only [Host.dotGeneral]
  rw [Ideal.dotGeneral_apply]
  exact IsReal.sum _ _ fun k _ => (hl _).mul (hr _)

end Cert.Lib

end
-- ==== Proof.RealP1.lean ====
/-
  The first layer's activations of the "paper" rows are real numbers whenever the inputs are.

  Each paper row is updated from two edge types.  For one edge type the source rows are read along the edges (a gather),
  added up per destination row (a scatter-add into a table of zeros), and divided by the number of edges arriving at the
  row, clamped below at one (a scatter-add of ones into zeros, a maximum with one, repeated along the feature axis); the
  mean is contracted with that edge type's weights, the bias row is added, and the row's own features contracted with the
  root weights are added.  The two updates are added and the result clamped at zero.  Every step keeps real entries real:
  reading an entry, finite sums and products, maxima, and a quotient whose divisor is at least one and so not zero.  The
  lemmas below follow the stages in that order, first edge type, second edge type, then the join.
-/
import proofs.«401098_j77403900609229_3_alg».proof.Proof.Gen.ReferenceIdeal.Read
import proofs.«401098_j77403900609229_3_alg».proof.Proof.Spec
import proofs.«401098_j77403900609229_3_alg».proof.Proof.LibEReal
import proofs.«401098_j77403900609229_3_alg».proof.Proof.LibRealOps
import Idealize.ShloMosaic.Lib.ValueIdx
import Idealize.ShloMosaic.PureOps.Ideal.Laws

noncomputable section

namespace Cert.Hgs

open Idealize.ShloMosaic Idealize.ShloMosaic.ValueIdx Cert.Lib
open Cert.ReferenceIdeal Cert.ReferenceIdeal.Read

/-! ## A broadcast reads one operand entry at each result index

    so what holds of every operand entry holds of every result entry: being nonzero, being one. -/

private theorem bcast_ne_zero {s t : Shape} (dims : Fin s.rank → Fin t.rank) (h : s.BroadcastsInDim t dims) (v : s.Idx → EReal)
    (hv : ∀ i, v i ≠ 0) (j : t.Idx) : broadcastInDim t dims h v j ≠ 0 := by
  unfold broadcastInDim; exact hv _

private theorem bcast_eq_one {s t : Shape} (dims : Fin s.rank → Fin t.rank) (h : s.BroadcastsInDim t dims) (v : s.Idx → EReal)
    (hv : ∀ i, v i = 1) (j : t.Idx) : broadcastInDim t dims h v j = 1 := by
  unfold broadcastInDim; exact hv _

/-! ## The first edge type (paper rows read along the edges, summed into paper rows) -/

/-- The source rows read along the edges are entries of the feature table. -/
theorem real_v6 (x0 : FVec Ideal S100000x128 .f32) (x22 : IVec S500000 32) (r0 : ∀ i, IsReal (x0 i)) :
    ∀ i, IsReal (val_main_v6 (F := Ideal) x0 x22 i) := by
  intro i
  unfold val_main_v6
  exact real_gather _ _ _ r0 i

/-- The table of zeros the sums start from. -/
theorem real_v7 : ∀ i, IsReal (val_main_v7 (F := Ideal) i) := by
  intro i
  unfold val_main_v7
  exact real_bcast _ _ _ (fun j => by unfold val_main_cst; exact real_const0 j) i

/-- The per-row neighbour sums. -/
theorem real_v9 (x0 : FVec Ideal S100000x128 .f32) (x22 x23 : IVec S500000 32) (r0 : ∀ i, IsReal (x0 i)) :
    ∀ i, IsReal (val_main_v9 (F := Ideal) x0 x22 x23 i) := by
  intro i
  unfold val_main_v9
  exact real_scatterAdd _ _ _ _ real_v7 (real_v6 x0 x22 r0) i

/-- The array of ones the count is clamped against. -/
theorem one_v14 : ∀ i, val_main_v14 (F := Ideal) i = 1 := by
  intro i
  unfold val_main_v14
  exact bcast_eq_one _ _ _ (fun j => by unfold val_main_cst_3; exact const1_apply j) i

/-- The clamped count, repeated along the feature axis, is nowhere zero. -/
theorem ne_zero_v17 (x23 : IVec S500000 32) : ∀ i, val_main_v17 (F := Ideal) x23 i ≠ 0 := by
  intro i
  unfold val_main_v17
  refine bcast_ne_zero _ _ _ (fun j => ?_) i
  unfold val_main_v16
  refine bcast_ne_zero _ _ _ (fun k => ?_) j
  unfold val_main_v15
  exact clamp_ne_zero _ _ one_v14 k

/-- The neighbour means. -/
theorem real_v18 (x0 : FVec Ideal S100000x128 .f32) (x22 x23 : IVec S500000 32) (r0 : ∀ i, IsReal (x0 i)) :
    ∀ i, IsReal (val_main_v18 (F := Ideal) x0 x22 x23 i) := by
  intro i
  unfold val_main_v18
  exact real_divf _ _ (real_v9 x0 x22 x23 r0) (ne_zero_v17 x23) i

/-- The means contracted with the edge type's weights. -/
theorem real_v19 (x0 : FVec Ideal S100000x128 .f32) (x2 : FVec Ideal S128x256 .f32) (x22 x23 : IVec S500000 32)
    (r0 : ∀ i, IsReal (x0 i)) (r2 : ∀ i, IsReal (x2 i)) : ∀ i, IsReal (val_main_v19 (F := Ideal) x0 x2 x22 x23 i) := by
  intro i
  unfold val_main_v19
  exact real_dot _ _ _ (real_v18 x0 x22 x23 r0) r2 i

/-- The bias row repeated over the rows. -/
theorem real_v21 (x4 : FVec Ideal S256 .f32) (r4 : ∀ i, IsReal (x4 i)) : ∀ i, IsReal (val_main_v21 (F := Ideal) x4 i) := by
  intro i
  unfold val_main_v21
  refine real_bcast _ _ _ (fun j => ?_) i
  unfold val_main_v20
  exact real_bcast _ _ _ r4 j

/-- The first edge type's update: contracted means, bias, and the rows' own features contracted with the root weights. -/
theorem real_v24 (x0 : FVec Ideal S100000x128 .f32) (x2 x3 : FVec Ideal S128x256 .f32) (x4 : FVec Ideal S256 .f32)
    (x22 x23 : IVec S500000 32) (r0 : ∀ i, IsReal (x0 i)) (r2 : ∀ i, IsReal (x2 i)) (r3 : ∀ i, IsReal (x3 i))
    (r4 : ∀ i, IsReal (x4 i)) : ∀ i, IsReal (val_main_v24 (F := Ideal) x0 x2 x3 x4 x22 x23 i) := by
  intro i
  unfold val_main_v24
  refine real_addf _ _ (fun j => ?_) (fun j => ?_) i
  · unfold val_main_v22
    exact real_addf _ _ (real_v19 x0 x2 x22 x23 r0 r2) (real_v21 x4 r4) j
  · unfold val_main_v23
    exact real_dot _ _ _ r0 r3 j

/-! ## The second edge type (author rows read along the edges, summed into paper rows) -/

/-- The source rows read along the edges are entries of the author feature table. -/
theorem real_v31 (x1 : FVec Ideal S50000x128 .f32) (x24 : IVec S500000 32) (r1 : ∀ i, IsReal (x1 i)) :
    ∀ i, IsReal (val_main_v31 (F := Ideal) x1 x24 i) := by
  intro i
  unfold val_main_v31
  exact real_gather _ _ _ r1 i

/-- The table of zeros the sums start from. -/
theorem real_v32 : ∀ i, IsReal (val_main_v32 (F := Ideal) i) := by
  intro i
  unfold val_main_v32
  exact real_bcast _ _ _ (fun j => by unfold val_main_cst_6; exact real_const0 j) i

/-- The per-row neighbour sums. -/
theorem real_v34 (x1 : FVec Ideal S50000x128 .f32) (x24 x25 : IVec S500000 32) (r1 : ∀ i, IsReal (x1 i)) :
    ∀ i, IsReal (val_main_v34 (F := Ideal) x1 x24 x25 i) := by
  intro i
  unfold val_main_v34
  exact real_scatterAdd _ _ _ _ real_v32 (real_v31 x1 x24 r1) i

/-- The array of ones the count is clamped against. -/
theorem one_v39 : ∀ i, val_main_v39 (F := Ideal) i = 1 := by
  intro i
  unfold val_main_v39
  exact bcast_eq_one _ _ _ (fun j => by unfold val_main_cst_9; exact const1_apply j) i

/-- The clamped count, repeated along the feature axis, is nowhere zero. -/
theorem ne_zero_v42 (x25 : IVec S500000 32) : ∀ i, val_main_v42 (F := Ideal) x25 i ≠ 0 := by
  intro i
  unfold val_main_v42
  refine bcast_ne_zero _ _ _ (fun j => ?_) i
  unfold val_main_v41
  refine bcast_ne_zero _ _ _ (fun k => ?_) j
  unfold val_main_v40
  exact clamp_ne_zero _ _ one_v39 k

/-- The neighbour means. -/
theorem real_v43 (x1 : FVec Ideal S50000x128 .f32) (x24 x25 : IVec S500000 32) (r1 : ∀ i, IsReal (x1 i)) :
    ∀ i, IsReal (val_main_v43 (F := Ideal) x1 x24 x25 i) := by
  intro i
  unfold val_main_v43
  exact real_divf _ _ (real_v34 x1 x24 x25 r1) (ne_zero_v42 x25) i

/-- The means contracted with the edge type's weights. -/
theorem real_v44 (x1 : FVec Ideal S50000x128 .f32) (x5 : FVec Ideal S128x256 .f32) (x24 x25 : IVec S500000 32)
    (r1 : ∀ i, IsReal (x1 i)) (r5 : ∀ i, IsReal (x5 i)) : ∀ i, IsReal (val_main_v44 (F := Ideal) x1 x5 x24 x25 i) := by
  intro i
  unfold val_main_v44
  exact real_dot _ _ _ (real_v43 x1 x24 x25 r1) r5 i

/-- The bias row repeated over the rows. -/
theorem real_v46 (x7 : FVec Ideal S256 .f32) (r7 : ∀ i, IsReal (x7 i)) : ∀ i, IsReal (val_main_v46 (F := Ideal) x7 i) := by
  intro i
  unfold val_main_v46
  refine real_bcast _ _ _ (fun j => ?_) i
  unfold val_main_v45
  exact real_bcast _ _ _ r7 j

/-- The second edge type's update: contracted means, bias, and the rows' own features contracted with the root weights. -/
theorem real_v49 (x0 : FVec Ideal S100000x128 .f32) (x1 : FVec Ideal S50000x128 .f32) (x5 x6 : FVec Ideal S128x256 .f32)
    (x7 : FVec Ideal S256 .f32) (x24 x25 : IVec S500000 32) (r0 : ∀ i, IsReal (x0 i)) (r1 : ∀ i, IsReal (x1 i))
    (r5 : ∀ i, IsReal (x5 i)) (r6 : ∀ i, IsReal (x6 i)) (r7 : ∀ i, IsReal (x7 i)) :
    ∀ i, IsReal (val_main_v49 (F := Ideal) x0 x1 x5 x6 x7 x24 x25 i) := by
  intro i
  unfold val_main_v49
  refine real_addf _ _ (fun j => ?_) (fun j => ?_) i
  · unfold val_main_v47
    exact real_addf _ _ (real_v44 x1 x5 x24 x25 r1 r5) (real_v46 x7 r7) j
  · unfold val_main_v48
    exact real_dot _ _ _ r0 r6 j

/-! ## The join: the two updates added, clamped at zero -/

/-- The first layer's activations of the paper rows are real. -/
theorem real_v76 (x0 : FVec Ideal S100000x128 .f32) (x1 : FVec Ideal S50000x128 .f32) (x2 x3 : FVec Ideal S128x256 .f32) (x4 : FVec Ideal S256 .f32) (x5 x6 : FVec Ideal S128x256 .f32) (x7 : FVec Ideal S256 .f32) (x22 x23 x24 x25 : IVec S500000 32) (r0 : ∀ i, IsReal (x0 i)) (r1 : ∀ i, IsReal (x1 i)) (r2 : ∀ i, IsReal (x2 i)) (r3 : ∀ i, IsReal (x3 i)) (r4 : ∀ i, IsReal (x4 i)) (r5 : ∀ i, IsReal (x5 i)) (r6 : ∀ i, IsReal (x6 i)) (r7 : ∀ i, IsReal (x7 i)) : ∀ i, IsReal (val_main_v76 (F := Ideal) x0 x1 x2 x3 x4 x5 x6 x7 x22 x23 x24 x25 i) := by
  intro i
  unfold val_main_v76
  refine real_maximumf _ _ (fun j => ?_) (fun j => ?_) i
  · unfold val_main_v50
    exact real_addf _ _ (real_v24 x0 x2 x3 x4 x22 x23 r0 r2 r3 r4) (real_v49 x0 x1 x5 x6 x7 x24 x25 r0 r1 r5 r6 r7) j
  · unfold val_main_call0_v0
    exact real_bcast _ _ _ (fun k => by unfold val_main_call0_cst; exact real_const0 k) j

end Cert.Hgs

end
-- ==== Proof.Assemble.lean ====
/-
  The kernel's result array is the reference's result, as one function of the argument arrays.

  Layer 1: region 0's output array is `upd2` of its operand arrays, which the host code before it makes the reference's
  stages, and `upd2` of those is the reference's first-layer activation of the first node type; region 1 likewise gives the
  second node type's.  Layer 2: region 2's output is `head (upd2 …)` of operand arrays that the host code between the
  regions makes, from the two activation arrays, the reference's second-layer stages; that is the reference's result.
  The precondition enters three times: the source indices in range make every gather's fill mask all ones; the features and
  root weights being real numbers lets the single root contraction against summed weights split in two; and the first-layer
  activations are then real numbers too, for the same step in the second layer.
-/
import proofs.«401098_j77403900609229_3_alg».proof.Defs
import proofs.«401098_j77403900609229_3_alg».proof.Proof.Gen.KernelIdeal.Frame
import proofs.«401098_j77403900609229_3_alg».proof.Proof.Gen.ReferenceIdeal.Read
import proofs.«401098_j77403900609229_3_alg».proof.Proof.Gen.Pre_finite_inputs
import proofs.«401098_j77403900609229_3_alg».proof.Proof.PreDecode
import proofs.«401098_j77403900609229_3_alg».proof.Proof.HostArgs
import proofs.«401098_j77403900609229_3_alg».proof.Proof.HostW10
import proofs.«401098_j77403900609229_3_alg».proof.Proof.Host0
import proofs.«401098_j77403900609229_3_alg».proof.Proof.Host1
import proofs.«401098_j77403900609229_3_alg».proof.Proof.Host2
import proofs.«401098_j77403900609229_3_alg».proof.Proof.Region0
import proofs.«401098_j77403900609229_3_alg».proof.Proof.Region1
import proofs.«401098_j77403900609229_3_alg».proof.Proof.Region2
import proofs.«401098_j77403900609229_3_alg».proof.Proof.Bridge0
import proofs.«401098_j77403900609229_3_alg».proof.Proof.Bridge1
import proofs.«401098_j77403900609229_3_alg».proof.Proof.Bridge2
import proofs.«401098_j77403900609229_3_alg».proof.Proof.RealP1

set_option maxRecDepth 16384

noncomputable section

namespace Cert.Hgs

open Idealize.ShloMosaic Idealize.ShloMosaic.TcCoe Idealize.ShloMosaic.ValueIdx Idealize.SL.Sem
open Cert.KernelIdeal Cert.KernelIdeal.Gen Cert.Lib
open Cert.ReferenceIdeal.Read (val_main_v76 val_main_v77 val_main_v159)

variable (m : (ℓ : Loc nD τ sig) → Buf (Elt Ideal) ℓ) (ρ : Dev nD → PrngReg)

/-- What the precondition says of device `c`'s argument arrays. -/
theorem inputs_ok (hpre : Cert.Pre_KernelIdeal m) (c : Dev nD) :
    Inputs (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a24 m c) (a26 m c) :=
  fn_decode (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (hpre c)

/-- Region 0's output array, as the next host stretch finds it, is the reference's first-layer activation of the first node type. -/
theorem layer1_p (hpre : Cert.Pre_KernelIdeal m) (c : Dev nD) :
    W10 m ρ c (Proc.devRef .tc main_v45) = val_main_v76 (F := Ideal) (a0 m c) (a1 m c) (a2 m c) (a3 m c) (a4 m c) (a5 m c) (a6 m c) (a7 m c) (a22 m c) (a23 m c) (a24 m c) (a25 m c) := by
  have hin := inputs_ok m hpre c
  refine (W10_v45 m ρ c).trans ((R0.final (V7 m ρ) c).trans ?_)
  exact bridge0 (a0 m c) (a1 m c) (a2 m c) (a3 m c) (a4 m c) (a5 m c) (a6 m c) (a7 m c) (a22 m c) (a23 m c) (a24 m c) (a25 m c) _ _ _ _ _ _ _ _ _
    (fun p k => congrFun (H0.sumc m ρ c hin.g22) _) (H0.invc m ρ c) (fun p k => congrFun (H0.sumw m ρ c hin.g24) _) (H0.invw m ρ c)
    (fun p k => congrFun (H0.xp m ρ c) _) (H0.wlc m ρ c) (H0.wlw m ρ c) (H0.wr m ρ c) (H0.bias m ρ c) hin.r0 hin.r3 hin.r6

/-- Region 1's output array is the reference's first-layer activation of the second node type. -/
theorem layer1_a (hpre : Cert.Pre_KernelIdeal m) (c : Dev nD) :
    W10 m ρ c (Proc.devRef .tc main_v49) = val_main_v77 (F := Ideal) (a0 m c) (a1 m c) (a8 m c) (a9 m c) (a10 m c) (a26 m c) (a27 m c) := by
  have hin := inputs_ok m hpre c
  refine (W10_v49 m ρ c).trans ((R1.final (V9 m ρ) c).trans ?_)
  exact bridge1 (a0 m c) (a1 m c) (a8 m c) (a9 m c) (a10 m c) (a26 m c) (a27 m c) _ _ _ _ _ _
    (fun p k => congrFun (H1.sumr m ρ c hin.g26) _) (H1.invr m ρ c) (fun p k => congrFun (H1.xa m ρ c) _)
    (H1.wlr m ρ c) (H1.wrr m ρ c) (H1.bias m ρ c)

/-- The kernel's result buffer at the end of the run holds the reference's final stage of the kernel's arguments. -/
theorem kernel_value (hpre : Cert.Pre_KernelIdeal m) (c : Dev nD) :
    W15 m ρ c (Proc.devRef .tc main_v66) = val_main_v159 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a20 m c) (a21 m c) (a22 m c) (a23 m c) (a24 m c) (a25 m c) (a26 m c) (a27 m c) := by
  have hin := inputs_ok m hpre c
  have hP := layer1_p m ρ hpre c
  have hA := layer1_a m ρ hpre c
  refine (W15_arr m ρ c 11).trans ((R2.final (V14 m ρ) c).trans ?_)
  exact bridge2 (a0 m c) (a1 m c) (a2 m c) (a3 m c) (a4 m c) (a5 m c) (a6 m c) (a7 m c) (a8 m c) (a9 m c) (a10 m c) (a11 m c) (a12 m c) (a13 m c) (a14 m c) (a15 m c) (a16 m c) (a20 m c) (a21 m c) (a22 m c) (a23 m c) (a24 m c) (a25 m c) (a26 m c) (a27 m c) _ _ _ _ _ _ _ _ _ _ _
    (fun p k => congrFun (H2.sumc m ρ c hin.g22 hP) _) (H2.invc m ρ c) (fun p k => congrFun (H2.sumw m ρ c hin.g24 hA) _) (H2.invw m ρ c)
    (fun p k => congrFun (H2.p1 m ρ c hP) _) (H2.wlc m ρ c) (H2.wlw m ρ c) (H2.wr m ρ c) (H2.bias m ρ c) (H2.wout m ρ c) (H2.bout m ρ c)
    (real_v76 (a0 m c) (a1 m c) (a2 m c) (a3 m c) (a4 m c) (a5 m c) (a6 m c) (a7 m c) (a22 m c) (a23 m c) (a24 m c) (a25 m c)
      hin.r0 hin.r1 hin.r2 hin.r3 hin.r4 hin.r5 hin.r6 hin.r7) hin.r12 hin.r15

end Cert.Hgs

end
-- ==== Proof.lean ====
/-
  The proof of `Cert.Claim`: the three frames, the (empty) idealization ledger, and the equivalence over the extended reals.

  The kernel is a two-layer heterogeneous graph network: per layer and node type, the mean of the neighbours' features over
  each incoming edge type, contracted with weights, plus the node's own features contracted with root weights, plus a bias,
  clamped at zero; then an output layer.  It runs three pipelined regions between stretches of host code; the reference is
  one host program.  Both programs gather and scatter-add with the same operations on the same indices; they differ in
  where the division by the neighbour count sits (a precomputed reciprocal against a quotient), in one root contraction
  against summed weights where the reference has two, and in the order of additions.  Under the precondition — float
  arguments finite, source indices in range — the two results are equal index by index (`Cert.Hgs.kernel_value`).
-/
import proofs.«401098_j77403900609229_3_alg».proof.Defs
import proofs.«401098_j77403900609229_3_alg».proof.Proof.Gen.Kernel
import proofs.«401098_j77403900609229_3_alg».proof.Proof.Gen.Kernel.Skeleton
import proofs.«401098_j77403900609229_3_alg».proof.Proof.Gen.Kernel.Launch
import proofs.«401098_j77403900609229_3_alg».proof.Proof.Gen.Kernel.Points
import proofs.«401098_j77403900609229_3_alg».proof.Proof.Gen.Kernel.Frame
import proofs.«401098_j77403900609229_3_alg».proof.Proof.Gen.KernelIdeal
import proofs.«401098_j77403900609229_3_alg».proof.Proof.Gen.KernelIdeal.Skeleton
import proofs.«401098_j77403900609229_3_alg».proof.Proof.Gen.KernelIdeal.Launch
import proofs.«401098_j77403900609229_3_alg».proof.Proof.Gen.KernelIdeal.Points
import proofs.«401098_j77403900609229_3_alg».proof.Proof.Gen.KernelIdeal.Frame
import proofs.«401098_j77403900609229_3_alg».proof.Proof.Gen.ReferenceIdeal
import proofs.«401098_j77403900609229_3_alg».proof.Proof.Gen.ReferenceIdeal.Run
import proofs.«401098_j77403900609229_3_alg».proof.Proof.Gen.ReferenceIdeal.Read
import proofs.«401098_j77403900609229_3_alg».proof.Proof.Gen.Pre_finite_inputs
import proofs.«401098_j77403900609229_3_alg».proof.Proof.KernelRun
import proofs.«401098_j77403900609229_3_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: its ledger is empty. -/
theorem preserves : Cert.preserves_Kernel_KernelIdeal := trivial

/-- Both programs end, with the reference's final stage of the (agreeing) arguments as their common result. -/
theorem algebraic : Cert.algebraic_KernelIdeal_ReferenceIdeal := by
  intro m g m' g' hpre hagree
  refine ⟨fun c => Cert.ReferenceIdeal.Read.val_main_v159 (F := Ideal) (Cert.Hgs.a0 m c) (Cert.Hgs.a1 m c) (Cert.Hgs.a2 m c) (Cert.Hgs.a3 m c) (Cert.Hgs.a4 m c) (Cert.Hgs.a5 m c) (Cert.Hgs.a6 m c) (Cert.Hgs.a7 m c) (Cert.Hgs.a8 m c) (Cert.Hgs.a9 m c) (Cert.Hgs.a10 m c) (Cert.Hgs.a11 m c) (Cert.Hgs.a12 m c) (Cert.Hgs.a13 m c) (Cert.Hgs.a14 m c) (Cert.Hgs.a15 m c) (Cert.Hgs.a16 m c) (Cert.Hgs.a20 m c) (Cert.Hgs.a21 m c) (Cert.Hgs.a22 m c) (Cert.Hgs.a23 m c) (Cert.Hgs.a24 m c) (Cert.Hgs.a25 m c) (Cert.Hgs.a26 m c) (Cert.Hgs.a27 m c), ?_, ?_⟩
  · exact (θ_run Cert.KernelIdeal.defs _ _).mono
      (fun r h c => ⟨(h c).1.trans (Cert.Hgs.kernel_value m g hpre c), (h c).2⟩)
      (Cert.KernelIdeal.GenR.run_result m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v159_eq]
    obtain ⟨e0, e1, e2, e3, e4, e5, e6, e7, e8, e9, e10, e11, e12, e13, e14, e15, e16, e17, e18, e19, e20, e21, e22, e23, e24, e25, e26, e27⟩ := hagree c
    rw [e0, e1, e2, e3, e4, e5, e6, e7, e8, e9, e10, e11, e12, e13, e14, e15, e16, e20, e21, e22, e23, e24, e25, e26, e27]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
